-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S3x256x128 : Shape := ⟨3, ![3, 256, 128]⟩
abbrev S3x128 : Shape := ⟨2, ![3, 128]⟩
abbrev S3x128x128 : Shape := ⟨3, ![3, 128, 128]⟩
abbrev S128x1 : Shape := ⟨2, ![128, 1]⟩
abbrev S1 : Shape := ⟨1, ![1]⟩
abbrev S1600000 : Shape := ⟨1, ![1600000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg14 : FVec F S1 .f32) (main_arg16 : IVec S1600000 32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S1600000 32 := broadcastInDim S1600000 ![] bcast_S_S1600000 main_c_28
  let main_v75 : IVec S1600000 1 := cmpi .sge main_arg16 main_v74
  let main_c_29 : IVec S_ 1 := constantI S_ 1 1#1
  let main_v76 : IVec S_ 1 := (fun x v => Host.reduce IntOp.andi x v reducesTo_S1600000_S_d0 h_S_) main_v75 main_c_29
  let main_v77 : IVec S_ 1 := andi main_v73 main_v76
  main_v77

def fn_part3 {F : FTy → Type} [FloatOps F] (main_arg11 : FVec F S128x128 .f32) (main_arg12 : FVec F S128 .f32) (main_arg13 : FVec F S128x1 .f32) (main_arg14 : FVec F S1 .f32) (main_arg16 : IVec S1600000 32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg13
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg14 main_arg16 main_v63 main_v67

def fn_part2 {F : FTy → Type} [FloatOps F] (main_arg7 : FVec F S3x128x128 .f32) (main_arg8 : FVec F S3x128 .f32) (main_arg9 : FVec F S3x128 .f32) (main_arg10 : FVec F S3x128 .f32) (main_arg11 : FVec F S128x128 .f32) (main_arg12 : FVec F S128 .f32) (main_arg13 : FVec F S128x1 .f32) (main_arg14 : FVec F S1 .f32) (main_arg16 : IVec S1600000 32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg16 main_v48 main_v49 main_v50

def fn_part1 {F : FTy → Type} [FloatOps F] (main_arg4 : FVec F S128 .f32) (main_arg5 : FVec F S3x256x128 .f32) (main_arg6 : FVec F S3x128 .f32) (main_arg7 : FVec F S3x128x128 .f32) (main_arg8 : FVec F S3x128 .f32) (main_arg9 : FVec F S3x128 .f32) (main_arg10 : FVec F S3x128 .f32) (main_arg11 : FVec F S128x128 .f32) (main_arg12 : FVec F S128 .f32) (main_arg13 : FVec F S128x1 .f32) (main_arg14 : FVec F S1 .f32) (main_arg16 : IVec S1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x256x128 .f32 := Host.absf main_arg5
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_arg11 main_arg12 main_arg13 main_arg14 main_arg16 main_v33

def fn {F : FTy → Type} [FloatOps F] (main_arg0 : FVec F S100000x16 .f32) (main_arg1 : FVec F S16x128 .f32) (main_arg2 : FVec F S128 .f32) (main_arg3 : FVec F S128x128 .f32) (main_arg4 : FVec F S128 .f32) (main_arg5 : FVec F S3x256x128 .f32) (main_arg6 : FVec F S3x128 .f32) (main_arg7 : FVec F S3x128x128 .f32) (main_arg8 : FVec F S3x128 .f32) (main_arg9 : FVec F S3x128 .f32) (main_arg10 : FVec F S3x128 .f32) (main_arg11 : FVec F S128x128 .f32) (main_arg12 : FVec F S128 .f32) (main_arg13 : FVec F S128x1 .f32) (main_arg14 : FVec F S1 .f32) (main_arg15 : IVec S1600000 32) (main_arg16 : IVec S1600000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg16 main_v13 main_v16
-- ==== Kernel.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S3x256x128 : Shape := ⟨3, ![3, 256, 128]⟩
abbrev S3x128 : Shape := ⟨2, ![3, 128]⟩
abbrev S3x128x128 : Shape := ⟨3, ![3, 128, 128]⟩
abbrev S128x1 : Shape := ⟨2, ![128, 1]⟩
abbrev S1 : Shape := ⟨1, ![1]⟩
abbrev S1600000 : Shape := ⟨1, ![1600000]⟩
abbrev S100000x128 : Shape := ⟨2, ![100000, 128]⟩
abbrev S4000x16 : Shape := ⟨2, ![4000, 16]⟩
abbrev S4000x128 : Shape := ⟨2, ![4000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x256x128 : Shape := ⟨3, ![1, 256, 128]⟩
abbrev S256x128 : Shape := ⟨2, ![256, 128]⟩
abbrev S1x128x128 : Shape := ⟨3, ![1, 128, 128]⟩
abbrev S4000x1 : Shape := ⟨2, ![4000, 1]⟩
abbrev S4000 : Shape := ⟨1, ![4000]⟩
abbrev S1x1 : Shape := ⟨2, ![1, 1]⟩

abbrev nBuf : Space → Nat
  | .hbm => 137
  | .vmem => 54
  | .smem => 0
  | _ => 0

abbrev hbmTy0_0 (i : Nat) : BufTy := match i % 128 with
  | 0 => ⟨S100000x16, .f32⟩
  | 1 => ⟨S16x128, .f32⟩
  | 2 => ⟨S128, .f32⟩
  | 3 => ⟨S128x128, .f32⟩
  | 4 => ⟨S128, .f32⟩
  | 5 => ⟨S3x256x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S128x128, .f32⟩
  | 12 => ⟨S128, .f32⟩
  | 13 => ⟨S128x1, .f32⟩
  | 14 => ⟨S1, .f32⟩
  | 15 => ⟨S1600000, .i32⟩
  | 16 => ⟨S1600000, .i32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S100000x1, .f32⟩
  | 38 => ⟨S_, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S100000x128, .f32⟩
  | 58 => ⟨S1x256x128, .f32⟩
  | 59 => ⟨S256x128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S100000x128, .f32⟩
  | 71 => ⟨S_, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S100000x128, .f32⟩
  | 91 => ⟨S1x256x128, .f32⟩
  | 92 => ⟨S256x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S100000x128, .f32⟩
  | 104 => ⟨S_, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S100000x128, .f32⟩
  | 124 => ⟨S1x256x128, .f32⟩
  | 125 => ⟨S256x128, .f32⟩
  | 126 => ⟨S1x128, .f32⟩
  | 127 => ⟨S128, .f32⟩
  | _ => ⟨S100000x16, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S4000x16, .f32⟩
  | .local _ .vmem, ⟨1, _⟩ => ⟨S4000x16, .f32⟩
  | .local _ .vmem, ⟨2, _⟩ => ⟨S16x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S256x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x1, .f32⟩
  | .local _ .vmem, ⟨27, _⟩ => ⟨S4000x1, .f32⟩
  | .local _ .vmem, ⟨28, _⟩ => ⟨S256x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x1, .f32⟩
  | .local _ .vmem, ⟨41, _⟩ => ⟨S4000x1, .f32⟩
  | .local _ .vmem, ⟨42, _⟩ => ⟨S256x128, .f32⟩
  | .local _ .vmem, ⟨43, _⟩ => ⟨S128, .f32⟩
  | .local _ .vmem, ⟨44, _⟩ => ⟨S128x128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S128x128, .f32⟩
  | .local _ .vmem, ⟨49, _⟩ => ⟨S128, .f32⟩
  | .local _ .vmem, ⟨50, _⟩ => ⟨S128x1, .f32⟩
  | .local _ .vmem, ⟨51, _⟩ => ⟨S1, .f32⟩
  | .local _ .vmem, ⟨52, _⟩ => ⟨S4000x1, .f32⟩
  | .local _ .vmem, ⟨53, _⟩ => ⟨S4000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v11 : Ref sig .tc := ⟨.hbm, 36, rfl⟩
abbrev main_v12 : Ref sig .tc := ⟨.hbm, 37, rfl⟩
abbrev main_cst_5 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_6 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_7 : Ref sig .tc := ⟨.hbm, 49, rfl⟩
abbrev main_v21 : Ref sig .tc := ⟨.hbm, 50, rfl⟩
abbrev main_v22 : Ref sig .tc := ⟨.hbm, 51, rfl⟩
abbrev main_c_8 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_c_15 : Ref sig .tc := ⟨.hbm, 106, rfl⟩
abbrev main_v70 : Ref sig .tc := ⟨.hbm, 107, rfl⟩
abbrev main_v71 : Ref sig .tc := ⟨.hbm, 108, rfl⟩
abbrev main_c_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_c_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg12_0 : Ref sig .tc := ⟨.vmem, 51, rfl⟩
abbrev cc3_stg13_0 : Ref sig .tc := ⟨.vmem, 52, rfl⟩
abbrev cc3_stg13_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem12_0 : DmaSem sig := 51
abbrev cc3_sem13_0 : DmaSem sig := 52
abbrev cc3_sem13_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S4000x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  slices_S256x128_o128_0_S128x128 : S256x128.Slices ![128, 0] S128x128
  shapeCasts_S128_S128 : S128.ShapeCasts S128
  shapeCasts_S128x128_S128x128 : S128x128.ShapeCasts S128x128
  reduces_S4000x128_S4000 : S4000x128.Reduces [1] S4000
  shapeCasts_S4000_S4000x1 : S4000.ShapeCasts S4000x1
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  dot_S4000x16_S16x128_S4000x128_1_0_0_1_n_n_wf : DotDims.WF S4000x16 S16x128 S4000x128 [1] [0] [0] [1] [] []
  dot_S4000x128_S128x128_S4000x128_1_0_0_1_n_n_wf : DotDims.WF S4000x128 S128x128 S4000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128.size a ≤ S128.size a
  hwx3_10 : ∀ i : grid3.Coords, EltTy.bits .f32 = 32 ∨ (Rect.block (s := S128) S128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x1.size a ≤ S128x1.size a
  hwx3_11 : ∀ i : grid3.Coords, EltTy.bits .f32 = 32 ∨ (Rect.block (s := S128x1) S128x1.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1.size a ≤ S1.size a
  hwx3_12 : ∀ i : grid3.Coords, EltTy.bits .f32 = 32 ∨ (Rect.block (s := S1) S1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S4000x1.size a ≤ S100000x1.size a
  hwx3_13 : ∀ i : grid3.Coords, EltTy.bits .f32 = 32 ∨ (Rect.block (s := S100000x1) S4000x1.size (cc3_transform_13 i) (hinb3_13 i)).WholeWords (EltTy.packing .f32)

variable [Facts₀]

def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v40) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v68) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v68) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v93) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v95) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg11) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg12) S128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg13) S128x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg14) S1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v96) S4000x1.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S3x256x128 : Shape := ⟨3, ![3, 256, 128]⟩
abbrev S3x128 : Shape := ⟨2, ![3, 128]⟩
abbrev S3x128x128 : Shape := ⟨3, ![3, 128, 128]⟩
abbrev S128x1 : Shape := ⟨2, ![128, 1]⟩
abbrev S1 : Shape := ⟨1, ![1]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256x128 : Shape := ⟨3, ![1, 256, 128]⟩
abbrev S256x128 : Shape := ⟨2, ![256, 128]⟩
abbrev S1x128x128 : Shape := ⟨3, ![1, 128, 128]⟩
abbrev S1x1 : Shape := ⟨2, ![1, 1]⟩

abbrev nBuf : Space → Nat
  | .hbm => 266
  | .vmem => 0
  | .smem => 0
  | _ => 0

abbrev hbmTy0_0 (i : Nat) : BufTy := match i % 128 with
  | 0 => ⟨S100000x16, .f32⟩
  | 1 => ⟨S16x128, .f32⟩
  | 2 => ⟨S128, .f32⟩
  | 3 => ⟨S128x128, .f32⟩
  | 4 => ⟨S128, .f32⟩
  | 5 => ⟨S3x256x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S128x128, .f32⟩
  | 12 => ⟨S128, .f32⟩
  | 13 => ⟨S128x1, .f32⟩
  | 14 => ⟨S1, .f32⟩
  | 15 => ⟨S1600000, .i32⟩
  | 16 => ⟨S1600000, .i32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S100000x128, .f32⟩
  | 63 => ⟨S100000x256, .f32⟩
  | 64 => ⟨S1x256x128, .f32⟩
  | 65 => ⟨S256x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S128, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S100000x128, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x1, .f32⟩
  | 110 => ⟨S100000x1, .f32⟩
  | 111 => ⟨S100000x1, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x16, .f32⟩

abbrev hbmTy0_1 (i : Nat) : BufTy := match i % 128 with
  | 0 => ⟨S1600000x1, .i32⟩
  | 1 => ⟨S100000x128, .f32⟩
  | 2 => ⟨S100000x128, .f32⟩
  | 3 => ⟨S100000x128, .f32⟩
  | 4 => ⟨S100000x256, .f32⟩
  | 5 => ⟨S1x256x128, .f32⟩
  | 6 => ⟨S256x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S128, .f32⟩
  | 29 => ⟨S_, .f32⟩
  | 30 => ⟨S100000, .f32⟩
  | 31 => ⟨S100000x1, .f32⟩
  | 32 => ⟨S_, .f32⟩
  | 33 => ⟨S100000x1, .f32⟩
  | 34 => ⟨S100000x1, .f32⟩
  | 35 => ⟨S100000x128, .f32⟩
  | 36 => ⟨S100000x128, .f32⟩
  | 37 => ⟨S100000x128, .f32⟩
  | 38 => ⟨S_, .f32⟩
  | 39 => ⟨S100000, .f32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x1, .f32⟩
  | 51 => ⟨S100000x1, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S100000x256, .f32⟩
  | 74 => ⟨S1x256x128, .f32⟩
  | 75 => ⟨S256x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S1x128x128, .f32⟩
  | 86 => ⟨S128x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S100000x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S100000, .f32⟩
  | 100 => ⟨S100000x1, .f32⟩
  | 101 => ⟨S_, .f32⟩
  | 102 => ⟨S100000x1, .f32⟩
  | 103 => ⟨S100000x1, .f32⟩
  | 104 => ⟨S100000x128, .f32⟩
  | 105 => ⟨S100000x128, .f32⟩
  | 106 => ⟨S100000x128, .f32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x1, .f32⟩
  | 120 => ⟨S100000x1, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x16, .f32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x1, .f32⟩
  | 7 => ⟨S1x1, .f32⟩
  | 8 => ⟨S100000x1, .f32⟩
  | 9 => ⟨S100000x1, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call2_cst : Ref sig .tc := ⟨.hbm, 72, rfl⟩
abbrev main_call2_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_9 : Ref sig .tc := ⟨.hbm, 97, rfl⟩
abbrev main_v63 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_12 : Ref sig .tc := ⟨.hbm, 117, rfl⟩
abbrev main_v80 : Ref sig .tc := ⟨.hbm, 118, rfl⟩
abbrev main_v81 : Ref sig .tc := ⟨.hbm, 119, rfl⟩
abbrev main_c_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call3_cst : Ref sig .tc := ⟨.hbm, 141, rfl⟩
abbrev main_call3_v0 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_15 : Ref sig .tc := ⟨.hbm, 157, rfl⟩
abbrev main_v115 : Ref sig .tc := ⟨.hbm, 158, rfl⟩
abbrev main_v116 : Ref sig .tc := ⟨.hbm, 159, rfl⟩
abbrev main_cst_16 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_17 : Ref sig .tc := ⟨.hbm, 166, rfl⟩
abbrev main_v122 : Ref sig .tc := ⟨.hbm, 167, rfl⟩
abbrev main_v123 : Ref sig .tc := ⟨.hbm, 168, rfl⟩
abbrev main_cst_18 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_19 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_c_20 : Ref sig .tc := ⟨.hbm, 186, rfl⟩
abbrev main_v139 : Ref sig .tc := ⟨.hbm, 187, rfl⟩
abbrev main_v140 : Ref sig .tc := ⟨.hbm, 188, rfl⟩
abbrev main_c_21 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_22 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_call4_cst : Ref sig .tc := ⟨.hbm, 210, rfl⟩
abbrev main_call4_v0 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_23 : Ref sig .tc := ⟨.hbm, 226, rfl⟩
abbrev main_v174 : Ref sig .tc := ⟨.hbm, 227, rfl⟩
abbrev main_v175 : Ref sig .tc := ⟨.hbm, 228, rfl⟩
abbrev main_cst_24 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_25 : Ref sig .tc := ⟨.hbm, 235, rfl⟩
abbrev main_v181 : Ref sig .tc := ⟨.hbm, 236, rfl⟩
abbrev main_v182 : Ref sig .tc := ⟨.hbm, 237, rfl⟩
abbrev main_cst_26 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_27 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_call5_cst : Ref sig .tc := ⟨.hbm, 259, rfl⟩
abbrev main_call5_v0 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  reducesTo_S100000x128_S100000_d1 : S100000x128.ReducesTo [1] S100000
  h_S_ : 0 < S_.numel
  bcast_S_S100000x1 : S_.BroadcastsInDim S100000x1 (![] : Fin 0 → Fin S100000x1.rank)
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.PreIndex.lean ====
import proofs.«422472_j45698452030097_3_alg».proof.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs

variable {F : FTy → Type} [FloatOps F]

/-- A signed 32-bit word that is at least zero is not below zero: `0 ≤ a` as integers denies `a < 0`. -/
theorem slt_zero_of_sge_zero (a : BitVec 32) (h : IntOp.cmpi .sge a 0#32 = 1#1) : IntOp.cmpi .slt a 0#32 = 0#1 := by
  simp only [IntOp.cmpi, StableHlo.Predicate.ofBool_eq_one_iff, BitVec.sle, decide_eq_true_eq] at h
  have hn : ¬ (a.toInt < (0#32).toInt) := Int.not_lt.2 h
  simp only [IntOp.cmpi, BitVec.slt, hn, decide_false, BitVec.ofBool_false]
  rfl

/-- Under the precondition every destination index is non-negative as a signed word. -/
theorem dst_nonneg [Cert.Pre_finite_inputs.Facts] (a0 : FVec F S100000x16 .f32) (a1 : FVec F S16x128 .f32) (a2 : FVec F S128 .f32) (a3 : FVec F S128x128 .f32)
    (a4 : FVec F S128 .f32) (a5 : FVec F S3x256x128 .f32) (a6 : FVec F S3x128 .f32) (a7 : FVec F S3x128x128 .f32)
    (a8 a9 a10 : FVec F S3x128 .f32) (a11 : FVec F S128x128 .f32) (a12 : FVec F S128 .f32) (a13 : FVec F S128x1 .f32)
    (a14 : FVec F S1 .f32) (a15 a16 : IVec S1600000 32)
    (h : fn (F := F) a0 a1 a2 a3 a4 a5 a6 a7 a8 a9 a10 a11 a12 a13 a14 a15 a16 = fun _ => 1#1) (j : S1600000.Idx) :
    IntOp.cmpi .sge (a16 j) 0#32 = 1#1 := by
  -- the rank-0 result has exactly one index
  haveI : Subsingleton S_.Idx := ⟨fun a b => funext fun d => d.elim0⟩
  -- the precondition read at that one index: a conjunction of sixteen bits whose last is the `and` of all the comparisons
  have h0 := congrFun h ValueIdx.ix0
  dsimp only [fn, fn_part1, fn_part2, fn_part3, fn_part4] at h0
  -- a conjunction of bits is 1 only where both sides are; keep the last conjunct
  have h1 := (IntOp.andi_eq_one.1 h0).2
  -- an `and` over all 1600000 entries that is 1 met a 1 at entry j; the entry compares `a16 j` with the broadcast zero
  exact Host.reduce_andi_all _ _ _ _ _ h1 j

/-- Wrapping a negative index by an offset `y` changes nothing where no index is negative. -/
theorem select_wrap_eq_self {s : Shape} (x z y : IVec s 32) (hz : ∀ j, z j = 0#32)
    (hx : ∀ j, IntOp.cmpi .sge (x j) 0#32 = 1#1) : select (cmpi .slt x z) y x = x := by
  funext j
  rw [select_apply]
  -- at each index the test `x j < 0` is the bit 0, since `0 ≤ x j`
  have h1 : cmpi .slt x z j = 0#1 := by
    show IntOp.cmpi .slt (x j) (z j) = 0#1
    rw [hz j]
    exact slt_zero_of_sge_zero _ (hx j)
  -- a select on the bit 0 is its second operand
  rw [h1, select_zero]

end Cert.Pre_finite_inputs.Decode

end
-- ==== Proof.KHost.lean ====
/-
  The host side of the idealized kernel's @main, read one boundary at a time, for any float values.

  The generated frame folds the buffer contents through @main: `W1`, `W5`, `W7` are the contents the three first
  launches leave, `W4`, `W6`, `W8` those the next launch is entered with, after the host operations in between.
  * An argument's buffer is written by no host operation and by no launch, so at every boundary it holds its launch
    contents (`W1_arg … W8_arg`).
  * Before the first update the host computes the reciprocal in-degree column from the destination indices; the
    later launches find it unchanged.
  * Before each update the host gathers the hidden state's rows by the source indices and scatter-adds them by the
    destination indices (`aggR`), and slices the layer's six weight arrays. The reference applies the same operations,
    except that the kernel first adds the table's length to a NEGATIVE destination index; where no destination index
    is negative that step is the identity, so both scatter by the same indices.
  Every right-hand side is a stage of the reference (or `aggR` of the hidden state, which the reference's stages are by
  definition), so the two programs are compared operation by operation without opening a float operation.
-/
import proofs.«422472_j45698452030097_3_alg».proof.Proof.KRun
import proofs.«422472_j45698452030097_3_alg».proof.Proof.RefStages
import proofs.«422472_j45698452030097_3_alg».proof.Proof.PreIndex
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The summed messages as one function of the hidden state -/

/-- Gather the hidden state's rows by the source indices (a negative index wrapped, as the reference does too), then
    sum the gathered rows into the row their destination index names. -/
def aggR (H : FVec F Cert.ReferenceIdeal.S100000x128 .f32) (x15 x16 : IVec Cert.ReferenceIdeal.S1600000 32) :
    FVec F Cert.ReferenceIdeal.S100000x128 .f32 :=
  Host.scatterAdd Cert.ReferenceIdeal.scatter_S100000x128_S1600000x1_S1600000x128_1_0_0_1 (Cert.ReferenceIdeal.Stages.val_main_v28 (F := F))
    (Cert.ReferenceIdeal.Stages.val_main_v29 (F := F) x16)
    (Host.gather Cert.ReferenceIdeal.gather_S100000x128_S1600000x1_S1600000x128_1_0_n_n_0_1_1128 H (Cert.ReferenceIdeal.Stages.val_main_v26 (F := F) x15))

section Reference
variable (x0 : FVec F Cert.ReferenceIdeal.S100000x16 .f32) (x1 : FVec F Cert.ReferenceIdeal.S16x128 .f32) (x2 : FVec F Cert.ReferenceIdeal.S128 .f32) (x3 : FVec F Cert.ReferenceIdeal.S128x128 .f32) (x4 : FVec F Cert.ReferenceIdeal.S128 .f32) (x5 : FVec F Cert.ReferenceIdeal.S3x256x128 .f32) (x6 : FVec F Cert.ReferenceIdeal.S3x128 .f32) (x7 : FVec F Cert.ReferenceIdeal.S3x128x128 .f32) (x8 x9 x10 : FVec F Cert.ReferenceIdeal.S3x128 .f32) (x15 x16 : IVec Cert.ReferenceIdeal.S1600000 32)

/-- The reference's three message sums are `aggR` of its three hidden states. -/
theorem agg1R : Cert.ReferenceIdeal.Stages.val_main_v30 (F := F) x0 x1 x2 x3 x4 x15 x16 = aggR (Cert.ReferenceIdeal.Stages.val_main_v8 (F := F) x0 x1 x2 x3 x4) x15 x16 := rfl
theorem agg2R : Cert.ReferenceIdeal.Stages.val_main_v89 (F := F) x0 x1 x2 x3 x4 x5 x6 x7 x8 x9 x10 x15 x16 = aggR (Cert.ReferenceIdeal.Stages.val_main_v79 (F := F) x0 x1 x2 x3 x4 x5 x6 x7 x8 x9 x10 x15 x16) x15 x16 := rfl
theorem agg3R : Cert.ReferenceIdeal.Stages.val_main_v148 (F := F) x0 x1 x2 x3 x4 x5 x6 x7 x8 x9 x10 x15 x16 = aggR (Cert.ReferenceIdeal.Stages.val_main_v138 (F := F) x0 x1 x2 x3 x4 x5 x6 x7 x8 x9 x10 x15 x16) x15 x16 := rfl
end Reference

/-- The arguments no launch before the last stages through a window: the weights of the updates and of the head, and
    the two index vectors. -/
def laterArgs : List (Ref sig .tc) :=
  [main_arg5, main_arg6, main_arg7, main_arg8, main_arg9, main_arg10, main_arg11, main_arg12, main_arg13, main_arg14,
    main_arg15, main_arg16]

/-! ## An argument's buffer at every boundary holds its launch contents -/

theorem W1_arg (b : Ref sig .tc) (hb : b ∈ laterArgs) : W1 m ρ c (Proc.devRef .tc b) = m ((c : Thread nD τ).loc b) := by
  simp only [laterArgs, List.mem_cons, List.not_mem_nil, or_false] at hb
  rcases hb with rfl | rfl | rfl | rfl | rfl | rfl | rfl | rfl | rfl | rfl | rfl | rfl <;>
    exact W1_of_ne m ρ c _ (by decide)

set_option maxHeartbeats 4000000 in
theorem W4_arg (b : Ref sig .tc) (hb : b ∈ laterArgs) : W4 m ρ c (Proc.devRef .tc b) = m ((c : Thread nD τ).loc b) := by
  refine Eq.trans ?_ (W1_arg m ρ c b hb)
  simp only [laterArgs, List.mem_cons, List.not_mem_nil, or_false] at hb
  rcases hb with rfl | rfl | rfl | rfl | rfl | rfl | rfl | rfl | rfl | rfl | rfl | rfl <;>
    (show StableHlo.after hostOps1_2 (StableHlo.after hostOps1_1 (StableHlo.after hostOps1 (W1 m ρ c))) _ = _
     after_results_simp)

theorem W5_arg (b : Ref sig .tc) (hb : b ∈ laterArgs) : W5 m ρ c (Proc.devRef .tc b) = m ((c : Thread nD τ).loc b) := by
  refine Eq.trans ?_ (W4_arg m ρ c b hb)
  simp only [laterArgs, List.mem_cons, List.not_mem_nil, or_false] at hb
  rcases hb with rfl | rfl | rfl | rfl | rfl | rfl | rfl | rfl | rfl | rfl | rfl | rfl <;>
    exact W5_of_ne m ρ c _ (by decide)

set_option maxHeartbeats 4000000 in
theorem W6_arg (b : Ref sig .tc) (hb : b ∈ laterArgs) : W6 m ρ c (Proc.devRef .tc b) = m ((c : Thread nD τ).loc b) := by
  refine Eq.trans ?_ (W5_arg m ρ c b hb)
  simp only [laterArgs, List.mem_cons, List.not_mem_nil, or_false] at hb
  rcases hb with rfl | rfl | rfl | rfl | rfl | rfl | rfl | rfl | rfl | rfl | rfl | rfl <;>
    (show StableHlo.after hostOps2 (W5 m ρ c) _ = _
     after_results_simp)

theorem W7_arg (b : Ref sig .tc) (hb : b ∈ laterArgs) : W7 m ρ c (Proc.devRef .tc b) = m ((c : Thread nD τ).loc b) := by
  refine Eq.trans ?_ (W6_arg m ρ c b hb)
  simp only [laterArgs, List.mem_cons, List.not_mem_nil, or_false] at hb
  rcases hb with rfl | rfl | rfl | rfl | rfl | rfl | rfl | rfl | rfl | rfl | rfl | rfl <;>
    exact W7_of_ne m ρ c _ (by decide)

set_option maxHeartbeats 4000000 in
theorem W8_arg (b : Ref sig .tc) (hb : b ∈ laterArgs) : W8 m ρ c (Proc.devRef .tc b) = m ((c : Thread nD τ).loc b) := by
  refine Eq.trans ?_ (W7_arg m ρ c b hb)
  simp only [laterArgs, List.mem_cons, List.not_mem_nil, or_false] at hb
  rcases hb with rfl | rfl | rfl | rfl | rfl | rfl | rfl | rfl | rfl | rfl | rfl | rfl <;>
    (show StableHlo.after hostOps3 (W7 m ρ c) _ = _
     after_results_simp)

/-! ## Entering the first update -/

set_option maxHeartbeats 4000000 in
/-- The host leaves the first launch's hidden state alone. -/
theorem h0_kept : V4 m ρ c main_v0 = W1 m ρ c (Proc.devRef .tc main_v0) := by
  show StableHlo.after hostOps1_2 (StableHlo.after hostOps1_1 (StableHlo.after hostOps1 (W1 m ρ c))) (Proc.devRef .tc main_v0) = _
  after_results_simp

set_option maxHeartbeats 4000000 in
/-- The reciprocal in-degree column is the reference's stage 20. -/
theorem invc_eq : V4 m ρ c main_v12 = Cert.ReferenceIdeal.Stages.val_main_v20 (F := F) (m ((c : Thread nD τ).loc main_arg16)) := by
  show StableHlo.after hostOps1_2 (StableHlo.after hostOps1_1 (StableHlo.after hostOps1 (W1 m ρ c))) (Proc.devRef .tc main_v12) = _
  after_results_simp
  rw [W1_arg m ρ c main_arg16 (by decide : main_arg16 ∈ laterArgs)]
  rfl

/-- The destination indices' zero vector, as the kernel's index normalisation prints it, is zero everywhere. -/
theorem zeros_apply (j : S1600000.Idx) :
    (broadcastInDim S1600000 ![] bcast_S_S1600000 (constantI S_ 32 0#32) : IVec S1600000 32) j = 0#32 := rfl

variable (hdst : ∀ j, IntOp.cmpi .sge (m ((c : Thread nD τ).loc main_arg16) j) 0#32 = 1#1)

set_option maxHeartbeats 4000000 in
include hdst in
/-- The first layer's summed messages. -/
theorem agg1_eq : V4 m ρ c main_v27 = aggR (W1 m ρ c (Proc.devRef .tc main_v0)) (m ((c : Thread nD τ).loc main_arg15)) (m ((c : Thread nD τ).loc main_arg16)) := by
  show StableHlo.after hostOps1_2 (StableHlo.after hostOps1_1 (StableHlo.after hostOps1 (W1 m ρ c))) (Proc.devRef .tc main_v27) = _
  after_results_simp
  rw [W1_arg m ρ c main_arg16 (by decide : main_arg16 ∈ laterArgs), W1_arg m ρ c main_arg15 (by decide : main_arg15 ∈ laterArgs),
    Cert.Pre_finite_inputs.Decode.select_wrap_eq_self _ _ _ zeros_apply hdst]
  rfl

/-! The first layer's weights. -/
set_option maxHeartbeats 4000000 in
theorem main_v29_eq : V4 m ρ c main_v29 = Cert.ReferenceIdeal.Stages.val_main_v35 (F := F) (m ((c : Thread nD τ).loc main_arg5)) := by
  show StableHlo.after hostOps1_2 (StableHlo.after hostOps1_1 (StableHlo.after hostOps1 (W1 m ρ c))) (Proc.devRef .tc main_v29) = _
  after_results_simp
  rw [W1_arg m ρ c main_arg5 (by decide : main_arg5 ∈ laterArgs)]
  rfl

set_option maxHeartbeats 4000000 in
theorem main_v31_eq : V4 m ρ c main_v31 = Cert.ReferenceIdeal.Stages.val_main_v38 (F := F) (m ((c : Thread nD τ).loc main_arg6)) := by
  show StableHlo.after hostOps1_2 (StableHlo.after hostOps1_1 (StableHlo.after hostOps1 (W1 m ρ c))) (Proc.devRef .tc main_v31) = _
  after_results_simp
  rw [W1_arg m ρ c main_arg6 (by decide : main_arg6 ∈ laterArgs)]
  rfl

set_option maxHeartbeats 4000000 in
theorem main_v33_eq : V4 m ρ c main_v33 = Cert.ReferenceIdeal.Stages.val_main_v44 (F := F) (m ((c : Thread nD τ).loc main_arg7)) := by
  show StableHlo.after hostOps1_2 (StableHlo.after hostOps1_1 (StableHlo.after hostOps1 (W1 m ρ c))) (Proc.devRef .tc main_v33) = _
  after_results_simp
  rw [W1_arg m ρ c main_arg7 (by decide : main_arg7 ∈ laterArgs)]
  rfl

set_option maxHeartbeats 4000000 in
theorem main_v35_eq : V4 m ρ c main_v35 = Cert.ReferenceIdeal.Stages.val_main_v47 (F := F) (m ((c : Thread nD τ).loc main_arg8)) := by
  show StableHlo.after hostOps1_2 (StableHlo.after hostOps1_1 (StableHlo.after hostOps1 (W1 m ρ c))) (Proc.devRef .tc main_v35) = _
  after_results_simp
  rw [W1_arg m ρ c main_arg8 (by decide : main_arg8 ∈ laterArgs)]
  rfl

set_option maxHeartbeats 4000000 in
theorem main_v37_eq : V4 m ρ c main_v37 = Cert.ReferenceIdeal.Stages.val_main_v53 (F := F) (m ((c : Thread nD τ).loc main_arg9)) := by
  show StableHlo.after hostOps1_2 (StableHlo.after hostOps1_1 (StableHlo.after hostOps1 (W1 m ρ c))) (Proc.devRef .tc main_v37) = _
  after_results_simp
  rw [W1_arg m ρ c main_arg9 (by decide : main_arg9 ∈ laterArgs)]
  rfl

set_option maxHeartbeats 4000000 in
theorem main_v39_eq : V4 m ρ c main_v39 = Cert.ReferenceIdeal.Stages.val_main_v55 (F := F) (m ((c : Thread nD τ).loc main_arg10)) := by
  show StableHlo.after hostOps1_2 (StableHlo.after hostOps1_1 (StableHlo.after hostOps1 (W1 m ρ c))) (Proc.devRef .tc main_v39) = _
  after_results_simp
  rw [W1_arg m ρ c main_arg10 (by decide : main_arg10 ∈ laterArgs)]
  rfl

/-! ## Entering the second update -/

set_option maxHeartbeats 4000000 in
theorem h1_kept : V6 m ρ c main_v40 = W5 m ρ c (Proc.devRef .tc main_v40) := by
  show StableHlo.after hostOps2 (W5 m ρ c) (Proc.devRef .tc main_v40) = _
  after_results_simp

set_option maxHeartbeats 4000000 in
/-- The in-degree column is an input of the first update, which leaves it as entered, and the host does not write it. -/
theorem invc_kept2 : V6 m ρ c main_v12 = V4 m ρ c main_v12 := by
  show StableHlo.after hostOps2 (W5 m ρ c) (Proc.devRef .tc main_v12) = _
  after_results_simp
  exact (W5_arr m ρ c 2).trans (((dat1 (V4 m ρ) c).arrAt_in 2 rfl _).trans (A_eq1 (V4 m ρ) c 2))

set_option maxHeartbeats 4000000 in
include hdst in
theorem agg2_eq : V6 m ρ c main_v55 = aggR (W5 m ρ c (Proc.devRef .tc main_v40)) (m ((c : Thread nD τ).loc main_arg15)) (m ((c : Thread nD τ).loc main_arg16)) := by
  show StableHlo.after hostOps2 (W5 m ρ c) (Proc.devRef .tc main_v55) = _
  after_results_simp
  rw [W5_arg m ρ c main_arg16 (by decide : main_arg16 ∈ laterArgs), W5_arg m ρ c main_arg15 (by decide : main_arg15 ∈ laterArgs),
    Cert.Pre_finite_inputs.Decode.select_wrap_eq_self _ _ _ zeros_apply hdst]
  rfl

set_option maxHeartbeats 4000000 in
theorem main_v57_eq : V6 m ρ c main_v57 = Cert.ReferenceIdeal.Stages.val_main_v94 (F := F) (m ((c : Thread nD τ).loc main_arg5)) := by
  show StableHlo.after hostOps2 (W5 m ρ c) (Proc.devRef .tc main_v57) = _
  after_results_simp
  rw [W5_arg m ρ c main_arg5 (by decide : main_arg5 ∈ laterArgs)]
  rfl

set_option maxHeartbeats 4000000 in
theorem main_v59_eq : V6 m ρ c main_v59 = Cert.ReferenceIdeal.Stages.val_main_v97 (F := F) (m ((c : Thread nD τ).loc main_arg6)) := by
  show StableHlo.after hostOps2 (W5 m ρ c) (Proc.devRef .tc main_v59) = _
  after_results_simp
  rw [W5_arg m ρ c main_arg6 (by decide : main_arg6 ∈ laterArgs)]
  rfl

set_option maxHeartbeats 4000000 in
theorem main_v61_eq : V6 m ρ c main_v61 = Cert.ReferenceIdeal.Stages.val_main_v103 (F := F) (m ((c : Thread nD τ).loc main_arg7)) := by
  show StableHlo.after hostOps2 (W5 m ρ c) (Proc.devRef .tc main_v61) = _
  after_results_simp
  rw [W5_arg m ρ c main_arg7 (by decide : main_arg7 ∈ laterArgs)]
  rfl

set_option maxHeartbeats 4000000 in
theorem main_v63_eq : V6 m ρ c main_v63 = Cert.ReferenceIdeal.Stages.val_main_v106 (F := F) (m ((c : Thread nD τ).loc main_arg8)) := by
  show StableHlo.after hostOps2 (W5 m ρ c) (Proc.devRef .tc main_v63) = _
  after_results_simp
  rw [W5_arg m ρ c main_arg8 (by decide : main_arg8 ∈ laterArgs)]
  rfl

set_option maxHeartbeats 4000000 in
theorem main_v65_eq : V6 m ρ c main_v65 = Cert.ReferenceIdeal.Stages.val_main_v112 (F := F) (m ((c : Thread nD τ).loc main_arg9)) := by
  show StableHlo.after hostOps2 (W5 m ρ c) (Proc.devRef .tc main_v65) = _
  after_results_simp
  rw [W5_arg m ρ c main_arg9 (by decide : main_arg9 ∈ laterArgs)]
  rfl

set_option maxHeartbeats 4000000 in
theorem main_v67_eq : V6 m ρ c main_v67 = Cert.ReferenceIdeal.Stages.val_main_v114 (F := F) (m ((c : Thread nD τ).loc main_arg10)) := by
  show StableHlo.after hostOps2 (W5 m ρ c) (Proc.devRef .tc main_v67) = _
  after_results_simp
  rw [W5_arg m ρ c main_arg10 (by decide : main_arg10 ∈ laterArgs)]
  rfl

/-! ## Entering the last launch -/

set_option maxHeartbeats 4000000 in
theorem h2_kept : V8 m ρ c main_v68 = W7 m ρ c (Proc.devRef .tc main_v68) := by
  show StableHlo.after hostOps3 (W7 m ρ c) (Proc.devRef .tc main_v68) = _
  after_results_simp

set_option maxHeartbeats 4000000 in
theorem invc_kept3 : V8 m ρ c main_v12 = V6 m ρ c main_v12 := by
  show StableHlo.after hostOps3 (W7 m ρ c) (Proc.devRef .tc main_v12) = _
  after_results_simp
  exact (W7_arr m ρ c 2).trans (((dat2 (V6 m ρ) c).arrAt_in 2 rfl _).trans (A_eq2 (V6 m ρ) c 2))

set_option maxHeartbeats 4000000 in
include hdst in
theorem agg3_eq : V8 m ρ c main_v83 = aggR (W7 m ρ c (Proc.devRef .tc main_v68)) (m ((c : Thread nD τ).loc main_arg15)) (m ((c : Thread nD τ).loc main_arg16)) := by
  show StableHlo.after hostOps3 (W7 m ρ c) (Proc.devRef .tc main_v83) = _
  after_results_simp
  rw [W7_arg m ρ c main_arg16 (by decide : main_arg16 ∈ laterArgs), W7_arg m ρ c main_arg15 (by decide : main_arg15 ∈ laterArgs),
    Cert.Pre_finite_inputs.Decode.select_wrap_eq_self _ _ _ zeros_apply hdst]
  rfl

set_option maxHeartbeats 4000000 in
theorem main_v85_eq : V8 m ρ c main_v85 = Cert.ReferenceIdeal.Stages.val_main_v153 (F := F) (m ((c : Thread nD τ).loc main_arg5)) := by
  show StableHlo.after hostOps3 (W7 m ρ c) (Proc.devRef .tc main_v85) = _
  after_results_simp
  rw [W7_arg m ρ c main_arg5 (by decide : main_arg5 ∈ laterArgs)]
  rfl

set_option maxHeartbeats 4000000 in
theorem main_v87_eq : V8 m ρ c main_v87 = Cert.ReferenceIdeal.Stages.val_main_v156 (F := F) (m ((c : Thread nD τ).loc main_arg6)) := by
  show StableHlo.after hostOps3 (W7 m ρ c) (Proc.devRef .tc main_v87) = _
  after_results_simp
  rw [W7_arg m ρ c main_arg6 (by decide : main_arg6 ∈ laterArgs)]
  rfl

set_option maxHeartbeats 4000000 in
theorem main_v89_eq : V8 m ρ c main_v89 = Cert.ReferenceIdeal.Stages.val_main_v162 (F := F) (m ((c : Thread nD τ).loc main_arg7)) := by
  show StableHlo.after hostOps3 (W7 m ρ c) (Proc.devRef .tc main_v89) = _
  after_results_simp
  rw [W7_arg m ρ c main_arg7 (by decide : main_arg7 ∈ laterArgs)]
  rfl

set_option maxHeartbeats 4000000 in
theorem main_v91_eq : V8 m ρ c main_v91 = Cert.ReferenceIdeal.Stages.val_main_v165 (F := F) (m ((c : Thread nD τ).loc main_arg8)) := by
  show StableHlo.after hostOps3 (W7 m ρ c) (Proc.devRef .tc main_v91) = _
  after_results_simp
  rw [W7_arg m ρ c main_arg8 (by decide : main_arg8 ∈ laterArgs)]
  rfl

set_option maxHeartbeats 4000000 in
theorem main_v93_eq : V8 m ρ c main_v93 = Cert.ReferenceIdeal.Stages.val_main_v171 (F := F) (m ((c : Thread nD τ).loc main_arg9)) := by
  show StableHlo.after hostOps3 (W7 m ρ c) (Proc.devRef .tc main_v93) = _
  after_results_simp
  rw [W7_arg m ρ c main_arg9 (by decide : main_arg9 ∈ laterArgs)]
  rfl

set_option maxHeartbeats 4000000 in
theorem main_v95_eq : V8 m ρ c main_v95 = Cert.ReferenceIdeal.Stages.val_main_v173 (F := F) (m ((c : Thread nD τ).loc main_arg10)) := by
  show StableHlo.after hostOps3 (W7 m ρ c) (Proc.devRef .tc main_v95) = _
  after_results_simp
  rw [W7_arg m ρ c main_arg10 (by decide : main_arg10 ∈ laterArgs)]
  rfl

/-- The head's four weight arrays are arguments. -/
theorem head_args : V8 m ρ c main_arg11 = (m ((c : Thread nD τ).loc main_arg11)) ∧ V8 m ρ c main_arg12 = (m ((c : Thread nD τ).loc main_arg12))
    ∧ V8 m ρ c main_arg13 = (m ((c : Thread nD τ).loc main_arg13)) ∧ V8 m ρ c main_arg14 = (m ((c : Thread nD τ).loc main_arg14)) :=
  ⟨W8_arg m ρ c main_arg11 (by decide : main_arg11 ∈ laterArgs), W8_arg m ρ c main_arg12 (by decide : main_arg12 ∈ laterArgs),
    W8_arg m ρ c main_arg13 (by decide : main_arg13 ∈ laterArgs), W8_arg m ρ c main_arg14 (by decide : main_arg14 ∈ laterArgs)⟩

end Cert.KernelIdeal.Net

end
-- ==== Proof.Spec.lean ====
/-
  The mathematics both programs compute, one ROW of the line graph at a time, on the extended reals.

  A row of the hidden state is a function `Fin 128 → EReal`. Three row functions make up the network:
  * `rowProj`: the edge projection, two dense layers with a rectifier between them;
  * `rowUpd`: one message-passing update. From the row `h`, the row `a` of summed neighbour messages and the
    reciprocal in-degree `s`: the first dense layer applied to the concatenation of `h` and `a · s` — written as the
    sum of the two half contractions, rows `0 … 127` and `128 … 255` of the weight matrix —, a rectifier, the second
    dense layer, the residual sum (`rowHs`), and the layer normalisation of that sum (`rowLN`): centre by the mean,
    scale by the reciprocal square root of the mean square deviation plus ε, then gain and bias;
  * `rowOut`: the output head, two dense layers with a rectifier between them, one output.
  The `…Arr` functions apply a row function to every row of an array; they are what each array of either program
  is proved to hold. Float literals stay the printed words: the same word reads the same on both sides.
-/
import Idealize.ShloMosaic.PureOps.Ideal
import Idealize.ShloMosaic.Lib.ValueIdx

noncomputable section

namespace Cert.Spec

open Idealize.ShloMosaic Idealize.ShloMosaic.ValueIdx
open scoped BigOperators

/-- A matrix and a vector of extended reals over the literal index types. -/
abbrev Mat (a b : Nat) : Type := (⟨2, ![a, b]⟩ : Shape).Idx → EReal
abbrev Vc (a : Nat) : Type := (⟨1, ![a]⟩ : Shape).Idx → EReal

/-- The three float literals of the network, as printed: 0, 128 and ε = f32(1e-6). -/
abbrev zero : EReal := Ideal.ofBits .f32 0x00000000#32
abbrev c128 : EReal := Ideal.ofBits .f32 0x43000000#32
abbrev eps : EReal := Ideal.ofBits .f32 0x358637BD#32

/-- A dense layer on one row: `x · W + b`. -/
def dense {K N : Nat} (x : Fin K → EReal) (W : Mat K N) (b : Vc N) : Fin N → EReal :=
  fun j => (∑ k : Fin K, x k * W (ix2 k j)) + b (ix1 j)

/-- The rectifier on one row. -/
def relu {N : Nat} (x : Fin N → EReal) : Fin N → EReal := fun j => max (x j) zero

/-- The first dense layer of an update, on the concatenation of two rows of length 128: the two half contractions,
    against rows `k` and `128 + k` of the 256-row weight matrix, then the bias. -/
def dense2 (h a : Fin 128 → EReal) (W : Mat 256 128) (b : Vc 128) : Fin 128 → EReal :=
  fun j => ((∑ k : Fin 128, h k * W (ix2 (⟨k.val, by omega⟩ : Fin 256) j))
    + (∑ k : Fin 128, a k * W (ix2 (⟨128 + k.val, by omega⟩ : Fin 256) j))) + b (ix1 j)

/-- The edge projection of one row of 16 raw features. -/
def rowProj (x : Fin 16 → EReal) (W1 : Mat 16 128) (B1 : Vc 128) (W2 : Mat 128 128) (B2 : Vc 128) : Fin 128 → EReal :=
  dense (relu (dense x W1 B1)) W2 B2

/-- The residual sum of one update: the row plus the update network of the row and its scaled messages. -/
def rowHs (h a : Fin 128 → EReal) (s : EReal) (W1 : Mat 256 128) (B1 : Vc 128) (W2 : Mat 128 128) (B2 : Vc 128) :
    Fin 128 → EReal :=
  fun j => h j + dense (relu (dense2 h (fun k => a k * s) W1 B1)) W2 B2 j

/-- The mean of a row of length 128: its sum divided by 128. -/
def mean (x : Fin 128 → EReal) : EReal := Ideal.div (∑ k : Fin 128, x k) c128

/-- The mean square deviation of a row from a centre `mu`. -/
def msd (x : Fin 128 → EReal) (mu : EReal) : EReal := mean (fun k => (x k - mu) * (x k - mu))

/-- Layer normalisation of one row, with gain `G` and bias `Bt`. -/
def rowLN (x : Fin 128 → EReal) (G Bt : Vc 128) : Fin 128 → EReal :=
  fun j => G (ix1 j) * (x j - mean x) * Ideal.rsqrt (msd x (mean x) + eps) + Bt (ix1 j)

/-- One message-passing update of a row. -/
def rowUpd (h a : Fin 128 → EReal) (s : EReal) (W1 : Mat 256 128) (B1 : Vc 128) (W2 : Mat 128 128) (B2 G Bt : Vc 128) :
    Fin 128 → EReal :=
  rowLN (rowHs h a s W1 B1 W2 B2) G Bt

/-- The output head on one row. -/
def rowOut (x : Fin 128 → EReal) (OW1 : Mat 128 128) (OB1 : Vc 128) (OW2 : Mat 128 1) (OB2 : Vc 1) : EReal :=
  dense (relu (dense x OW1 OB1)) OW2 OB2 (0 : Fin 1)

/-- Row `r` of a matrix. -/
abbrev row {E N : Nat} (X : Mat E N) (r : Fin E) : Fin N → EReal := fun k => X (ix2 r k)

/-- The first and second coordinate of an index of a matrix, at their literal types. -/
abbrev c0 {a b : Nat} (i : (⟨2, ![a, b]⟩ : Shape).Idx) : Fin a := ⟨(i 0).val, (i 0).isLt⟩
abbrev c1 {a b : Nat} (i : (⟨2, ![a, b]⟩ : Shape).Idx) : Fin b := ⟨(i 1).val, (i 1).isLt⟩

/-- The edge projection of every row. -/
def projArr {E : Nat} (X : Mat E 16) (W1 : Mat 16 128) (B1 : Vc 128) (W2 : Mat 128 128) (B2 : Vc 128) : Mat E 128 :=
  fun i => rowProj (row X (c0 i)) W1 B1 W2 B2 (c1 i)

/-- One update of every row: hidden state `H`, summed messages `A`, reciprocal in-degrees `S` (one column). -/
def updArr {E : Nat} (H A : Mat E 128) (S : Mat E 1) (W1 : Mat 256 128) (B1 : Vc 128) (W2 : Mat 128 128) (B2 G Bt : Vc 128) :
    Mat E 128 :=
  fun i => rowUpd (row H (c0 i)) (row A (c0 i)) (S (ix2 (c0 i) (0 : Fin 1))) W1 B1 W2 B2 G Bt (c1 i)

/-- The last update followed by the output head, on every row: one output column. -/
def outArr {E : Nat} (H A : Mat E 128) (S : Mat E 1) (W1 : Mat 256 128) (B1 : Vc 128) (W2 : Mat 128 128) (B2 G Bt : Vc 128)
    (OW1 : Mat 128 128) (OB1 : Vc 128) (OW2 : Mat 128 1) (OB2 : Vc 1) : Mat E 1 :=
  fun i => rowOut (rowUpd (row H (c0 i)) (row A (c0 i)) (S (ix2 (c0 i) (0 : Fin 1))) W1 B1 W2 B2 G Bt) OW1 OB1 OW2 OB2

theorem projArr_ix2 {E : Nat} (X : Mat E 16) (W1 : Mat 16 128) (B1 : Vc 128) (W2 : Mat 128 128) (B2 : Vc 128)
    (r : Fin E) (j : Fin 128) : projArr X W1 B1 W2 B2 (ix2 r j) = rowProj (row X r) W1 B1 W2 B2 j := rfl

theorem updArr_ix2 {E : Nat} (H A : Mat E 128) (S : Mat E 1) (W1 : Mat 256 128) (B1 : Vc 128) (W2 : Mat 128 128)
    (B2 G Bt : Vc 128) (r : Fin E) (j : Fin 128) :
    updArr H A S W1 B1 W2 B2 G Bt (ix2 r j) = rowUpd (row H r) (row A r) (S (ix2 r (0 : Fin 1))) W1 B1 W2 B2 G Bt j := rfl

theorem outArr_ix2 {E : Nat} (H A : Mat E 128) (S : Mat E 1) (W1 : Mat 256 128) (B1 : Vc 128) (W2 : Mat 128 128)
    (B2 G Bt : Vc 128) (OW1 : Mat 128 128) (OB1 : Vc 128) (OW2 : Mat 128 1) (OB2 : Vc 1) (r : Fin E) (q : Fin 1) :
    outArr H A S W1 B1 W2 B2 G Bt OW1 OB1 OW2 OB2 (ix2 r q)
      = rowOut (rowUpd (row H r) (row A r) (S (ix2 r (0 : Fin 1))) W1 B1 W2 B2 G Bt) OW1 OB1 OW2 OB2 := rfl

end Cert.Spec

end
-- ==== Proof.BodyProj.lean ====
/-
  The first kernel's body on a block of 4000 rows is the edge projection of every row.

  Read at row r and column j, the body is: the sum over the 128 hidden coordinates k of the rectified first layer at
  (r, k) times the second weight at (k, j), plus the second bias at j; the first layer at (r, k) is the sum over the
  16 input coordinates m of the input at (r, m) times the first weight at (m, k), plus the first bias at k. The two
  changes of float format are the identity on the extended reals, each block product into the zero accumulator is
  its contraction sum, and a bias viewed as one row and repeated over the rows is read at its column.
-/
import proofs.«422472_j45698452030097_3_alg».proof.Proof.Gen.KernelIdeal.Skeleton
import proofs.«422472_j45698452030097_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen
open scoped BigOperators

/-- A bias vector, viewed as one row and repeated over the 4000 rows of the block, read at row r and column j is the
    bias at j: the repetition reads the one row at column j, and the one-row view of a vector reads it at j. -/
theorem bias_apply (v : Vec Ideal S128 .f32) (r : Fin 4000) (j : Fin 128) :
    broadcastTo S4000x128 (shapeCast S1x128 v shapeCasts_S128_S1x128) broadcasts_S1x128_S4000x128 (ix2 r j) = v (ix1 j) := by
  refine (broadcastTo_1b_ab_apply _ broadcasts_S1x128_S4000x128 r j).trans ?_
  refine (shapeCast_addUnit_apply ![128] v shapeCasts_S128_S1x128 _).trans ?_
  refine congrArg v (funext fun a => ?_)
  match a with
  | ⟨0, _⟩ => rfl

/-- The left operand's index of the mm1 block product at output index i and contraction index q: row of i. -/
theorem lhs_mm1_0 (i : S4000x128.Idx) (q : dot_S4000x16_S16x128_S4000x128_1_0_0_1_n_n.contr.Idx) :
    (dot_S4000x16_S16x128_S4000x128_1_0_0_1_n_n.lhsIdx i q 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
/-- … and the contraction coordinate on its second axis. -/
theorem lhs_mm1_1 (i : S4000x128.Idx) (q : dot_S4000x16_S16x128_S4000x128_1_0_0_1_n_n.contr.Idx) :
    (dot_S4000x16_S16x128_S4000x128_1_0_0_1_n_n.lhsIdx i q 1).val = (q ⟨0, by decide⟩).val :=
  dot_S4000x16_S16x128_S4000x128_1_0_0_1_n_n.lhsIdx_val_of_single rfl i q
/-- The right operand's index: the contraction coordinate on its first axis … -/
theorem rhs_mm1_0 (i : S4000x128.Idx) (q : dot_S4000x16_S16x128_S4000x128_1_0_0_1_n_n.contr.Idx) :
    (dot_S4000x16_S16x128_S4000x128_1_0_0_1_n_n.rhsIdx i q 0).val = (q ⟨0, by decide⟩).val :=
  dot_S4000x16_S16x128_S4000x128_1_0_0_1_n_n.rhsIdx_val_of_single rfl i q
/-- … and the column of i on its second. -/
theorem rhs_mm1_1 (i : S4000x128.Idx) (q : dot_S4000x16_S16x128_S4000x128_1_0_0_1_n_n.contr.Idx) :
    (dot_S4000x16_S16x128_S4000x128_1_0_0_1_n_n.rhsIdx i q 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- The mm1 block product into the zero accumulator, read at row r and column j: the sum over the 16 contraction
    coordinates k of the left operand at (r, k) times the right operand at (k, j). -/
theorem mm1_apply {φ₁ φ₂ : FTy} (a : FVec Ideal S4000x16 φ₁) (b : FVec Ideal S16x128 φ₂) (r : Fin 4000) (j : Fin 128) :
    matmul dot_S4000x16_S16x128_S4000x128_1_0_0_1_n_n none a b (constant S4000x128 .f32 0x00000000#32) (ix2 r j)
      = ∑ k : Fin 16, a (ix2 r k) * b (ix2 k j) := by
  simp only [matmul]
  rw [Ideal.matmul_constant_zero_apply, ← Equiv.sum_comp (ValueIdx.contrEquiv1 dot_S4000x16_S16x128_S4000x128_1_0_0_1_n_n 16 rfl rfl).symm]
  refine Finset.sum_congr rfl fun k _ => ?_
  have hk := ValueIdx.contrEquiv1_symm_val dot_S4000x16_S16x128_S4000x128_1_0_0_1_n_n 16 rfl rfl k
  have el : dot_S4000x16_S16x128_S4000x128_1_0_0_1_n_n.lhsIdx (ix2 r j) ((ValueIdx.contrEquiv1 dot_S4000x16_S16x128_S4000x128_1_0_0_1_n_n 16 rfl rfl).symm k) = ix2 r k := funext fun a => Fin.ext (by
    match a with
    | ⟨0, _⟩ => exact lhs_mm1_0 _ _
    | ⟨1, _⟩ => exact (lhs_mm1_1 _ _).trans hk)
  have er : dot_S4000x16_S16x128_S4000x128_1_0_0_1_n_n.rhsIdx (ix2 r j) ((ValueIdx.contrEquiv1 dot_S4000x16_S16x128_S4000x128_1_0_0_1_n_n 16 rfl rfl).symm k) = ix2 k j := funext fun a => Fin.ext (by
    match a with
    | ⟨0, _⟩ => exact (rhs_mm1_0 _ _).trans hk
    | ⟨1, _⟩ => exact rhs_mm1_1 _ _)
  rw [el, er]

/-- The left operand's index of the mm2 block product at output index i and contraction index q: row of i. -/
theorem lhs_mm2_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction coordinate on its second axis. -/
theorem lhs_mm2_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index: the contraction coordinate on its first axis … -/
theorem rhs_mm2_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the column of i on its second. -/
theorem rhs_mm2_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The mm2 block product into the zero accumulator, read at row r and column j: the sum over the 128 contraction
    coordinates k of the left operand at (r, k) times the right operand at (k, j). -/
theorem mm2_apply {φ₁ φ₂ : FTy} (a : FVec Ideal S4000x128 φ₁) (b : FVec Ideal S128x128 φ₂) (r : Fin 4000) (j : Fin 128) :
    matmul dot_S4000x128_S128x128_S4000x128_1_0_0_1_n_n none a b (constant S4000x128 .f32 0x00000000#32) (ix2 r j)
      = ∑ k : Fin 128, a (ix2 r k) * b (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j := funext fun a => Fin.ext (by
    match a with
    | ⟨0, _⟩ => exact (rhs_mm2_0 _ _).trans hk
    | ⟨1, _⟩ => exact rhs_mm2_1 _ _)
  rw [el, er]

/-- The edge-projection body on a block of 4000 rows is the edge projection of every row of the block. -/
theorem proj_body (v0 : Vec Ideal S4000x16 .f32) (v2 : Vec Ideal S16x128 .f32) (v5 : Vec Ideal S128 .f32)
    (v12 : Vec Ideal S128x128 .f32) (v15 : Vec Ideal S128 .f32) :
    k0_pay1 v0 v2 v5 v12 v15 = Cert.Spec.projArr (E := 4000) v0 v2 v5 v12 v15 := by
  funext i
  obtain ⟨r, j, rfl⟩ : ∃ (r : Fin 4000) (j : Fin 128), i = ix2 r j := ⟨i 0, i 1, eq_ix2 i⟩
  rw [Cert.Spec.projArr_ix2]
  unfold k0_pay1
  -- the last operation is a pointwise sum: the second block product at (r, j) plus the second bias at j
  rw [addf_apply, mm2_apply, bias_apply]
  unfold Cert.Spec.rowProj Cert.Spec.dense
  -- both sides are a sum over the 128 hidden coordinates k plus the same bias; the summands agree at each k
  refine congrArg (· + v15 (ix1 j)) (Finset.sum_congr rfl fun k _ => ?_)
  -- the right factor is the second weight at (k, j) on both sides (the format change is the identity)
  refine congrArg (· * v12 (ix2 k j)) ?_
  -- the left factor: the rectifier, pointwise, of the first block product at (r, k) plus the first bias at k
  rw [truncf_apply, maximumf_apply, addf_apply, mm1_apply, bias_apply]
  rfl

end Cert.KernelIdeal.Body

end
-- ==== Proof.ArrProj.lean ====
import proofs.«422472_j45698452030097_3_alg».proof.Proof.Gen.KernelIdeal.Frame
import proofs.«422472_j45698452030097_3_alg».proof.Proof.Spec
import proofs.«422472_j45698452030097_3_alg».proof.Proof.BodyProj
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## From the block each grid point writes back to the whole array

The grid has 25 points; point `t` reads rows `4000 · t … 4000 · t + 3999` of the feature array and the whole of each
weight array, and writes back the same rows of the output array. The projection of a row reads that row alone, so
the block point `t` writes is block `t` of the projection of the whole feature array, and the 25 blocks tile the
100000 rows. -/

namespace Proj

theorem hz2 : (![0, 0] : Fin 2 → Nat) = fun _ => 0 := funext fun a => by fin_cases a <;> rfl
theorem hz1 : (![0] : Fin 1 → Nat) = fun _ => 0 := funext fun a => by fin_cases a; rfl

/-- The printed index maps over the 25 grid points: the feature window moves with the output window along the
    rows, every weight window stays at block 0, and the output window's row block is the point itself. -/
theorem idx_facts0 : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt0 (t : Fin cfg0.N) : t.val < 25 := lt_of_lt_of_eq t.isLt (N_0 : cfg0.N = 25)

/-- Row `p` of the feature block at point `t` is row `4000 · t + p` of the feature array. -/
theorem blk0_0 (c : Dev nD) (t : Fin cfg0.N) (p : Fin 4000) (k : Fin 16) (h : 4000 * t.val + p.val < 100000) :
    (iblk0 V c 0 t : Vec Ideal S4000x16 .f32) (ix2 p k) = V c main_arg0 (ix2 (⟨4000 * t.val + p.val, h⟩ : Fin 100000) k) := by
  obtain ⟨e0, e1, -, -, -, -, -, -, e8, -⟩ := idx_facts0 t
  show V c main_arg0 (((cfg0.win 0).blk t).view.emb (ix2 p k)) = _
  refine congrArg (V c main_arg0) ?_
  funext a; apply Fin.ext
  match a with
  | ⟨0, _⟩ => show win0_0.index t (0 : Fin 2) * 4000 + 1 * p.val = 4000 * t.val + p.val; omega
  | ⟨1, _⟩ => show win0_0.index t (1 : Fin 2) * 16 + 1 * k.val = k.val; omega

/-- Each weight window's one block is its whole array. -/
theorem blk0_1 (c : Dev nD) (t : Fin cfg0.N) : (iblk0 V c 1 t : Vec Ideal S16x128 .f32) = V c main_arg1 := by
  obtain ⟨-, -, e2, e3, -, -, -, -, -, -⟩ := idx_facts0 t
  funext y
  show V c main_arg1 (((cfg0.win 1).blk t).view.emb y) = V c main_arg1 y
  refine congrArg (V c main_arg1) ?_
  funext a; apply Fin.ext
  match a with
  | ⟨0, _⟩ => show win0_1.index t (0 : Fin 2) * 16 + 1 * (y 0).val = (y 0).val; omega
  | ⟨1, _⟩ => show win0_1.index t (1 : Fin 2) * 128 + 1 * (y 1).val = (y 1).val; omega

theorem blk0_2 (c : Dev nD) (t : Fin cfg0.N) : (iblk0 V c 2 t : Vec Ideal S128 .f32) = V c main_arg2 := by
  obtain ⟨-, -, -, -, e4, -, -, -, -, -⟩ := idx_facts0 t
  funext y
  show V c main_arg2 (((cfg0.win 2).blk t).view.emb y) = V c main_arg2 y
  refine congrArg (V c main_arg2) ?_
  funext a; apply Fin.ext
  match a with
  | ⟨0, _⟩ => show win0_2.index t (0 : Fin 1) * 128 + 1 * (y 0).val = (y 0).val; omega

theorem blk0_3 (c : Dev nD) (t : Fin cfg0.N) : (iblk0 V c 3 t : Vec Ideal S128x128 .f32) = V c main_arg3 := by
  obtain ⟨-, -, -, -, -, e5, e6, -, -, -⟩ := idx_facts0 t
  funext y
  show V c main_arg3 (((cfg0.win 3).blk t).view.emb y) = V c main_arg3 y
  refine congrArg (V c main_arg3) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk0_4 (c : Dev nD) (t : Fin cfg0.N) : (iblk0 V c 4 t : Vec Ideal S128 .f32) = V c main_arg4 := by
  obtain ⟨-, -, -, -, -, -, -, e7, -, -⟩ := idx_facts0 t
  funext y
  show V c main_arg4 (((cfg0.win 4).blk t).view.emb y) = V c main_arg4 y
  refine congrArg (V c main_arg4) ?_
  funext a; apply Fin.ext
  match a with
  | ⟨0, _⟩ => show win0_4.index t (0 : Fin 1) * 128 + 1 * (y 0).val = (y 0).val; omega

/-- Where the output window's block at point `t` puts its row `p`: row `4000 · t + p` of the array. -/
theorem emb0_5 (t : Fin cfg0.N) (p : Fin 4000) (q : Fin 128) (h : 4000 * t.val + p.val < 100000) :
    ((cfg0.win 5).blk t).view.emb (ix2 p q) = ix2 (⟨4000 * t.val + p.val, h⟩ : Fin 100000) q := by
  obtain ⟨-, -, -, -, -, -, -, -, e8, e9⟩ := idx_facts0 t
  funext a; apply Fin.ext
  match a with
  | ⟨0, _⟩ => show win0_5.index t (0 : Fin 2) * 4000 + 1 * p.val = 4000 * t.val + p.val; omega
  | ⟨1, _⟩ => show win0_5.index t (1 : Fin 2) * 128 + 1 * q.val = q.val; omega

/-- What point `t` writes back is block `t` of the projection of the whole feature array: the projection of a
    row reads that row alone (and the whole weight arrays). -/
theorem flushed0_eq (c : Dev nD) (t : Fin cfg0.N) :
    (dat0 (F := Ideal) V c).flushed 5 t = ((cfg0.win 5).blk t).view.read (Elt Ideal)
      (Cert.Spec.projArr (E := 100000) (V c main_arg0) (V c main_arg1) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S4000x16) hz2, View.ld_unit_zero (S := S16x128) hz2, View.ld_unit_zero (S := S128x128) hz2, View.ld_unit_zero (S := S128) hz1]
  refine (congrArg _ (Cert.KernelIdeal.Body.proj_body _ _ _ _ _)).trans ?_
  rw [blk0_1, blk0_2, blk0_3, blk0_4]
  funext y
  obtain ⟨p, q, rfl⟩ : ∃ (p : Fin 4000) (q : Fin 128), y = ix2 p q := ⟨y 0, y 1, eq_ix2 y⟩
  have hp : 4000 * t.val + p.val < 100000 := by have := lt0 t; have := p.isLt; omega
  show Cert.Spec.projArr (E := 4000) (iblk0 V c 0 t) (V c main_arg1) (V c main_arg2) (V c main_arg3) (V c main_arg4) (ix2 p q)
    = Cert.Spec.projArr (E := 100000) (V c main_arg0) (V c main_arg1) (V c main_arg2) (V c main_arg3) (V c main_arg4)
        (((cfg0.win 5).blk t).view.emb (ix2 p q))
  rw [emb0_5 t p q hp, Cert.Spec.projArr_ix2, Cert.Spec.projArr_ix2]
  exact congrArg (fun r => Cert.Spec.rowProj r (V c main_arg1) (V c main_arg2) (V c main_arg3) (V c main_arg4) q)
    (funext fun k => blk0_0 V c t p k hp)

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v0).slice (win0_5.rect t)).set ↔ _
  rw [View.set_slice_whole, Rect.mem_set_unit]
  exact Iff.rfl

/-- The 25 row blocks of 4000 tile the 100000 rows: row `r` is in the block of point `r / 4000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 4000 < cfg0.N :=
    lt_of_lt_of_eq (by omega : (i 0).val / 4000 < 25) (N_0 : cfg0.N = 25).symm
  obtain ⟨-, -, -, -, -, -, -, -, e8, e9⟩ := idx_facts0 ⟨(i 0).val / 4000, ht⟩
  have e8' : win0_5.index ⟨(i 0).val / 4000, ht⟩ (0 : Fin 2) = (i 0).val / 4000 := e8
  refine ⟨⟨(i 0).val / 4000, ht⟩, flush0_5 _, ?_⟩
  rw [mem_blk0]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    omega

end Proj

/-- After the first launch the hidden-state array holds the edge projection of every row of the feature array,
    whatever the contents `V` the launch is entered from. -/
theorem arr0 (c : Dev nD) :
    (dat0 (F := Ideal) V c).arrAt 5 cfg0.N
      = Cert.Spec.projArr (E := 100000) (V c main_arg0) (V c main_arg1) (V c main_arg2) (V c main_arg3) (V c main_arg4) :=
  (dat0 (F := Ideal) V c).arrAt_eq_of_cover 5 _ (fun t _ => Proj.flushed0_eq V c t) Proj.cover0

end Cert.KernelIdeal.Arr

end
-- ==== Proof.BodyUpdate.lean ====
import proofs.«422472_j45698452030097_3_alg».proof.Proof.Gen.KernelIdeal.Skeleton
import proofs.«422472_j45698452030097_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen
open scoped BigOperators

/-! # The operations of the update body, each read at one element -/
namespace Update

/-! ## Layout operations of the body read at explicit coordinates -/

section Layout
variable {α : Type}

/-- A column `[a, 1]` broadcast along the lanes to `[a, b]` reads, at `(r, j)`, the column's entry of row `r`. -/
theorem bcastCol_apply {a b : ℕ} (x : (⟨2, ![a, 1]⟩ : Shape).Idx → α)
    (h : (⟨2, ![a, 1]⟩ : Shape).Broadcasts ⟨2, ![a, b]⟩) (r : Fin a) (j : Fin b) :
    broadcastTo ⟨2, ![a, b]⟩ x h (ix2 r j) = x (ix2 r (0 : Fin 1)) := by
  refine broadcastTo_apply x h (ix2 r j) (ix2 r (0 : Fin 1)) fun ax => ?_
  match ax with
  | ⟨0, _⟩ =>
    show r.val = if a = 1 then 0 else r.val
    split
    · have := r.isLt; omega
    · rfl
  | ⟨1, _⟩ => rfl

/-- A vector `[a]` cast to the column `[a, 1]` reads, at `(r, q)`, the vector at `r`. -/
theorem castCol_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) :=
  shapeCast_apply x h _ _ (by
    have hq : q.val = 0 := by omega
    rw [Shape.rowMajor_val_two, Shape.rowMajor_val_one]
    show r.val = r.val * 1 + q.val
    rw [hq, Nat.mul_one, Nat.add_zero])

/-- A vector `[b]` viewed as one row and broadcast over `a` rows reads, at `(r, j)`, the vector at `j`. -/
theorem bcastRow_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (j : Fin b) :
    broadcastTo ⟨2, ![a, b]⟩ (shapeCast ⟨2, ![1, b]⟩ x h1) h2 (ix2 r j) = x (ix1 j) :=
  (broadcastTo_1b_ab_apply _ h2 r j).trans (shapeCast_a_1a_apply x h1 0 j)

end Layout

/-! ## The contraction of the body read at explicit coordinates -/

section Contraction

/-! The four coordinates of the two operand indices of the block contraction: at output index `i` and contraction
    index `q`, the left operand is read at `(i 0, q)` and the right operand at `(q, i 1)`. -/

theorem lhs_c0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_c1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_c0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_c1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block contraction into the zero splat, at row `r` and column `j`: the sum over the contracted coordinate `k`
    of the left operand at `(r, k)` times the right operand at `(k, j)`. -/
theorem mm_apply {φ₁ φ₂ : FTy} (A : FVec Ideal S4000x128 φ₁) (B : FVec Ideal S128x128 φ₂) (r : Fin 4000) (j : Fin 128) :
    matmul dot_S4000x128_S128x128_S4000x128_1_0_0_1_n_n none A B (constant (F := Ideal) S4000x128 .f32 0x00000000#32) (ix2 r j)
      = ∑ k : Fin 128, A (ix2 r k) * B (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k := funext fun a => Fin.ext (by
    match a with
    | ⟨0, _⟩ => exact lhs_c0 _ _
    | ⟨1, _⟩ => exact (lhs_c1 _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j := funext fun a => Fin.ext (by
    match a with
    | ⟨0, _⟩ => exact (rhs_c0 _ _).trans hk
    | ⟨1, _⟩ => exact rhs_c1 _ _)
  rw [el, er]

/-- The sum over the lanes of a block, kept as a column: at `(r, q)` the sum over `k` of the block at `(r, k)`. -/
theorem rowSum_apply (x : FVec Ideal S4000x128 .f32) (h : S4000x128.Reduces [1] S4000) (hφ : FKind.Formats .f32)
    (hacc : (0x00000000#32 : BitVec 32) = 0x00000000#32) (hc : S4000.ShapeCasts S4000x1) (r : Fin 4000) (q : Fin 1) :
    shapeCast S4000x1 (multiReduction (F := Ideal) .add [1] S4000 x 0x00000000#32 h hφ hacc) hc (ix2 r q)
      = ∑ k : Fin 128, x (ix2 r k) := by
  refine (castCol_apply _ hc r q).trans ?_
  refine (Ideal.multiReduction_add_single x _ h hφ hacc (ix1 r)).trans ?_
  refine Finset.sum_congr rfl fun k _ => congrArg x ?_
  funext a
  match a with
  | ⟨0, _⟩ => exact Fin.ext rfl
  | ⟨1, _⟩ => exact Fin.ext rfl

end Contraction

/-! ## The three payloads at explicit coordinates -/

section Payloads

/-- A reciprocal square root at an index is the reciprocal square root of the element. -/
theorem rsqrt_apply {s : Shape} {φ : FTy} (a : FVec Ideal s φ) (i : s.Idx) : rsqrt a i = Ideal.rsqrt (a i) := rfl

/-- The upper half of the weight matrix's rows, rows `0 … 127`: the slice at `(k, j)` is the matrix at `(k, j)`. -/
theorem sliceLo_apply {α : Type} (W : S256x128.Idx → α) (h : S256x128.Slices ![0, 0] S128x128) (k j : Fin 128) :
    extractStridedSlice S128x128 ![0, 0] W h (ix2 k j) = W (ix2 (⟨k.val, by omega⟩ : Fin 256) j) :=
  slice2_axis0_apply 0 W h k j _ (Nat.zero_add _).symm

/-- The lower half, rows `128 … 255`: the slice at `(k, j)` is the matrix at `(128 + k, j)`. -/
theorem sliceHi_apply {α : Type} (W : S256x128.Idx → α) (h : S256x128.Slices ![128, 0] S128x128) (k j : Fin 128) :
    extractStridedSlice S128x128 ![128, 0] W h (ix2 k j) = W (ix2 (⟨128 + k.val, by omega⟩ : Fin 256) j) :=
  slice2_axis0_apply 128 W h k j _ rfl

/-- The layer normalisation payload at `(r, j)`, for any block `hs` and any column `mu`: gain times the centred entry
    times the reciprocal square root of the mean square deviation of row `r` from `mu r` plus ε, plus the bias. -/
theorem pay1_apply (hs : FVec Ideal S4000x128 .f32) (mu : FVec Ideal S4000x1 .f32) (v48 v60 : Vec Ideal S128 .f32)
    (r : Fin 4000) (j : Fin 128) :
    k1_pay1 hs mu v48 v60 (ix2 r j)
      = v48 (ix1 j) * (hs (ix2 r j) - mu (ix2 r (0 : Fin 1)))
          * Ideal.rsqrt (Ideal.div (∑ k : Fin 128, (hs (ix2 r k) - mu (ix2 r (0 : Fin 1))) * (hs (ix2 r k) - mu (ix2 r (0 : Fin 1))))
              Cert.Spec.c128 + Cert.Spec.eps)
        + v60 (ix1 j) := by
  unfold k1_pay1
  simp only [addf_apply, mulf_apply, subf_apply, divf_apply, rsqrt_apply, bcastCol_apply, bcastRow_apply, shapeCast_self,
    broadcast_apply]
  rw [rowSum_apply]
  simp only [mulf_apply, subf_apply, bcastCol_apply]
  rfl

/-- The residual sum payload at `(r, j)` is the residual sum of row `r`, at `j`. -/
theorem pay2_apply (v0 v2 : Vec Ideal S4000x128 .f32) (v4 : Vec Ideal S4000x1 .f32) (v8 : Vec Ideal S256x128 .f32)
    (v19 : Vec Ideal S128 .f32) (v27 : Vec Ideal S128x128 .f32) (v31 : Vec Ideal S128 .f32) (r : Fin 4000) (j : Fin 128) :
    k1_pay2 v0 v2 v4 v8 v19 v27 v31 (ix2 r j)
      = Cert.Spec.rowHs (Cert.Spec.row v0 r) (Cert.Spec.row v2 r) (v4 (ix2 r (0 : Fin 1))) v8 v19 v27 v31 j := by
  unfold k1_pay2
  simp only [shapeCast_self, addf_apply, mm_apply, mulf_apply, maximumf_apply, truncf_apply, bcastCol_apply, bcastRow_apply,
    broadcast_apply, sliceLo_apply, sliceHi_apply]
  rfl

/-- The mean payload at `(r, q)` is the mean of row `r` of the residual sum payload. -/
theorem pay3_apply (v0 v2 : Vec Ideal S4000x128 .f32) (v4 : Vec Ideal S4000x1 .f32) (v8 : Vec Ideal S256x128 .f32)
    (v19 : Vec Ideal S128 .f32) (v27 : Vec Ideal S128x128 .f32) (v31 : Vec Ideal S128 .f32) (r : Fin 4000) (q : Fin 1) :
    k1_pay3 v0 v2 v4 v8 v19 v27 v31 (ix2 r q)
      = Cert.Spec.mean (fun k => k1_pay2 v0 v2 v4 v8 v19 v27 v31 (ix2 r k)) := by
  unfold k1_pay3
  simp only [divf_apply, broadcast_apply]
  rw [rowSum_apply]
  rfl

end Payloads

end Update

open Update

/-! ## The body -/

/-- The update body on a block of 4000 rows is the update of every row of the block. -/
theorem upd_body (v0 v2 : Vec Ideal S4000x128 .f32) (v4 : Vec Ideal S4000x1 .f32) (v8 : Vec Ideal S256x128 .f32)
    (v19 : Vec Ideal S128 .f32) (v27 : Vec Ideal S128x128 .f32) (v31 v48 v60 : Vec Ideal S128 .f32) :
    k1_pay1 (k1_pay2 v0 v2 v4 v8 v19 v27 v31) (k1_pay3 v0 v2 v4 v8 v19 v27 v31) v48 v60
      = Cert.Spec.updArr (E := 4000) v0 v2 v4 v8 v19 v27 v31 v48 v60 := by
  funext i
  obtain ⟨r, j, rfl⟩ : ∃ (r : Fin 4000) (j : Fin 128), i = ix2 r j := ⟨i 0, i 1, eq_ix2 i⟩
  rw [pay1_apply, Cert.Spec.updArr_ix2]
  simp only [pay3_apply, pay2_apply]
  rfl

/-- The second update launch runs the same body. -/
theorem upd_body2 (v0 v2 : Vec Ideal S4000x128 .f32) (v4 : Vec Ideal S4000x1 .f32) (v8 : Vec Ideal S256x128 .f32)
    (v19 : Vec Ideal S128 .f32) (v27 : Vec Ideal S128x128 .f32) (v31 v48 v60 : Vec Ideal S128 .f32) :
    k2_pay1 (k2_pay2 v0 v2 v4 v8 v19 v27 v31) (k2_pay3 v0 v2 v4 v8 v19 v27 v31) v48 v60
      = Cert.Spec.updArr (E := 4000) v0 v2 v4 v8 v19 v27 v31 v48 v60 :=
  upd_body v0 v2 v4 v8 v19 v27 v31 v48 v60

end Cert.KernelIdeal.Body

end
-- ==== Proof.ArrUpdate.lean ====
/-
  From blocks to arrays, for the two update launches. Each launch runs over 25 grid points; point t reads rows
  4000 t … 4000 t + 3999 of the hidden state, of the summed messages and of the reciprocal in-degrees, reads the six
  weight arrays whole, and writes rows 4000 t … 4000 t + 3999 of its output. The update of a row reads that row only
  (row locality, `upd_local`), so what point t writes is block t of the update of every row of the arrays
  (`flushedK`); the 25 blocks tile the 100000 rows (`coverK`: row i is in the block of point i / 4000), so the
  output array holds the update of every row (`arrK`). The two launches differ in their arrays' names only.
-/
import proofs.«422472_j45698452030097_3_alg».proof.Proof.Gen.KernelIdeal.Frame
import proofs.«422472_j45698452030097_3_alg».proof.Proof.Spec
import proofs.«422472_j45698452030097_3_alg».proof.Proof.BodyUpdate
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a rank-2 and of a rank-1 access, as the constant function. -/
theorem hz2 : (![0, 0] : Fin 2 → Nat) = fun _ => 0 := funext fun a => by fin_cases a <;> rfl
theorem hz1 : (![0] : Fin 1 → Nat) = fun _ => 0 := funext fun a => by fin_cases a; rfl

open Cert.Spec in
/-- ROW LOCALITY. If row r of the blocks `h`, `a`, `s` is row 4000 q + r of the arrays `H`, `A`, `S`, then the
    update of the block at (y₀, y₁) is the update of the arrays at (4000 q + y₀, y₁): the update of a row reads
    that row of the three arrays and the weights, nothing else. -/
theorem upd_local (q : Nat) (hq : q < 25) (H A : Mat 100000 128) (S : Mat 100000 1)
    (W1 : Mat 256 128) (B1 : Vc 128) (W2 : Mat 128 128) (B2 G Bt : Vc 128)
    (h a : Mat 4000 128) (s : Mat 4000 1)
    (hh : ∀ (r : Fin 4000) (k : Fin 128), h (ix2 r k) = H (ix2 (⟨4000 * q + r.val, by omega⟩ : Fin 100000) k))
    (ha : ∀ (r : Fin 4000) (k : Fin 128), a (ix2 r k) = A (ix2 (⟨4000 * q + r.val, by omega⟩ : Fin 100000) k))
    (hs : ∀ (r : Fin 4000) (k : Fin 1), s (ix2 r k) = S (ix2 (⟨4000 * q + r.val, by omega⟩ : Fin 100000) k))
    (y : (⟨2, ![4000, 128]⟩ : Shape).Idx) (i : (⟨2, ![100000, 128]⟩ : Shape).Idx)
    (hi0 : (i 0).val = 4000 * q + (y 0).val) (hi1 : (i 1).val = (y 1).val) :
    updArr (E := 4000) h a s W1 B1 W2 B2 G Bt y = updArr (E := 100000) H A S W1 B1 W2 B2 G Bt i := by
  have hb : ∀ r : Fin 4000, 4000 * q + r.val < 100000 := fun r => by omega
  obtain ⟨p, j, rfl⟩ : ∃ (p : Fin 4000) (j : Fin 128), y = ix2 p j := ⟨y 0, y 1, eq_ix2 y⟩
  have ei : i = ix2 (⟨4000 * q + p.val, hb p⟩ : Fin 100000) j := by
    rw [eq_ix2 i]; exact congrArg₂ ix2 (Fin.ext hi0) (Fin.ext hi1)
  rw [ei, updArr_ix2, updArr_ix2]
  have e1 : row h p = row H ⟨4000 * q + p.val, hb p⟩ := funext fun k => hh p k
  have e2 : row a p = row A ⟨4000 * q + p.val, hb p⟩ := funext fun k => ha p k
  rw [e1, e2, hs p 0]

/-! ## Update launch 1 -/

theorem lt1 (t : Fin cfg1.N) : t.val < 25 := lt_of_lt_of_eq t.isLt N_1

/-- The printed index maps over the grid: a row-block window sits at block (t, 0), a weight window at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = t.val ∧ win1_9.index t (1 : Fin 2) = 0 :=
  (by decide +kernel : ∀ t : Fin grid1.N, _)

/-- Row r of the hidden-state block at point t is row 4000 t + r of the array. -/
theorem blk1_0 (c : Dev nD) (t : Fin cfg1.N) (r : Fin 4000) (k : Fin 128) :
    (iblk1 (F := Ideal) V c 0 t : Vec Ideal S4000x128 .f32) (ix2 r k)
      = (V c main_v0 : S100000x128.Idx → EReal) (ix2 (⟨4000 * t.val + r.val, by have := lt1 t; omega⟩ : Fin 100000) k) := by
  show V c main_v0 (((cfg1.win 0).blk t).view.emb (ix2 r k)) = _
  refine congrArg _ (funext fun a => Fin.ext ?_)
  obtain ⟨e00, e01, e10, e11, e20, e21, e30, e31, e40, e50, e51, e60, e70, e80, e90, e91⟩ := idx1 t
  match a with
  | ⟨0, _⟩ => show win1_0.index t (0 : Fin 2) * 4000 + 1 * r.val = 4000 * t.val + r.val; rw [e00]; omega
  | ⟨1, _⟩ => show win1_0.index t (1 : Fin 2) * 128 + 1 * k.val = k.val; rw [e01]; omega

/-- Row r of the summed-message block at point t is row 4000 t + r of the array. -/
theorem blk1_1 (c : Dev nD) (t : Fin cfg1.N) (r : Fin 4000) (k : Fin 128) :
    (iblk1 (F := Ideal) V c 1 t : Vec Ideal S4000x128 .f32) (ix2 r k)
      = (V c main_v27 : S100000x128.Idx → EReal) (ix2 (⟨4000 * t.val + r.val, by have := lt1 t; omega⟩ : Fin 100000) k) := by
  show V c main_v27 (((cfg1.win 1).blk t).view.emb (ix2 r k)) = _
  refine congrArg _ (funext fun a => Fin.ext ?_)
  obtain ⟨e00, e01, e10, e11, e20, e21, e30, e31, e40, e50, e51, e60, e70, e80, e90, e91⟩ := idx1 t
  match a with
  | ⟨0, _⟩ => show win1_1.index t (0 : Fin 2) * 4000 + 1 * r.val = 4000 * t.val + r.val; rw [e10]; omega
  | ⟨1, _⟩ => show win1_1.index t (1 : Fin 2) * 128 + 1 * k.val = k.val; rw [e11]; omega

/-- Row r of the reciprocal-degree block at point t is row 4000 t + r of the array. -/
theorem blk1_2 (c : Dev nD) (t : Fin cfg1.N) (r : Fin 4000) (k : Fin 1) :
    (iblk1 (F := Ideal) V c 2 t : Vec Ideal S4000x1 .f32) (ix2 r k)
      = (V c main_v12 : S100000x1.Idx → EReal) (ix2 (⟨4000 * t.val + r.val, by have := lt1 t; omega⟩ : Fin 100000) k) := by
  show V c main_v12 (((cfg1.win 2).blk t).view.emb (ix2 r k)) = _
  refine congrArg _ (funext fun a => Fin.ext ?_)
  obtain ⟨e00, e01, e10, e11, e20, e21, e30, e31, e40, e50, e51, e60, e70, e80, e90, e91⟩ := idx1 t
  match a with
  | ⟨0, _⟩ => show win1_2.index t (0 : Fin 2) * 4000 + 1 * r.val = 4000 * t.val + r.val; rw [e20]; omega
  | ⟨1, _⟩ => show win1_2.index t (1 : Fin 2) * 1 + 1 * k.val = k.val; rw [e21]; omega

/-- The first weight window's one block is its whole array. -/
theorem blk1_3 (c : Dev nD) (t : Fin cfg1.N) :
    (iblk1 (F := Ideal) V c 3 t : Vec Ideal S256x128 .f32) = V c main_v29 := by
  funext y
  show V c main_v29 (((cfg1.win 3).blk t).view.emb y) = V c main_v29 y
  refine congrArg _ (funext fun a => Fin.ext ?_)
  obtain ⟨e00, e01, e10, e11, e20, e21, e30, e31, e40, e50, e51, e60, e70, e80, e90, e91⟩ := idx1 t
  match a with
  | ⟨0, _⟩ => show win1_3.index t (0 : Fin 2) * 256 + 1 * (y 0).val = (y 0).val; rw [e30]; omega
  | ⟨1, _⟩ => show win1_3.index t (1 : Fin 2) * 128 + 1 * (y 1).val = (y 1).val; rw [e31]; omega

/-- The first bias window's one block is its whole array. -/
theorem blk1_4 (c : Dev nD) (t : Fin cfg1.N) :
    (iblk1 (F := Ideal) V c 4 t : Vec Ideal S128 .f32) = V c main_v31 := by
  funext y
  show V c main_v31 (((cfg1.win 4).blk t).view.emb y) = V c main_v31 y
  refine congrArg _ (funext fun a => Fin.ext ?_)
  obtain ⟨e00, e01, e10, e11, e20, e21, e30, e31, e40, e50, e51, e60, e70, e80, e90, e91⟩ := idx1 t
  match a with
  | ⟨0, _⟩ => show win1_4.index t (0 : Fin 1) * 128 + 1 * (y 0).val = (y 0).val; rw [e40]; omega

/-- The second weight window's one block is its whole array. -/
theorem blk1_5 (c : Dev nD) (t : Fin cfg1.N) :
    (iblk1 (F := Ideal) V c 5 t : Vec Ideal S128x128 .f32) = V c main_v33 := by
  funext y
  show V c main_v33 (((cfg1.win 5).blk t).view.emb y) = V c main_v33 y
  refine congrArg _ (funext fun a => Fin.ext ?_)
  obtain ⟨e00, e01, e10, e11, e20, e21, e30, e31, e40, e50, e51, e60, e70, e80, e90, e91⟩ := idx1 t
  match a with
  | ⟨0, _⟩ => show win1_5.index t (0 : Fin 2) * 128 + 1 * (y 0).val = (y 0).val; rw [e50]; omega
  | ⟨1, _⟩ => show win1_5.index t (1 : Fin 2) * 128 + 1 * (y 1).val = (y 1).val; rw [e51]; omega

/-- The second bias window's one block is its whole array. -/
theorem blk1_6 (c : Dev nD) (t : Fin cfg1.N) :
    (iblk1 (F := Ideal) V c 6 t : Vec Ideal S128 .f32) = V c main_v35 := by
  funext y
  show V c main_v35 (((cfg1.win 6).blk t).view.emb y) = V c main_v35 y
  refine congrArg _ (funext fun a => Fin.ext ?_)
  obtain ⟨e00, e01, e10, e11, e20, e21, e30, e31, e40, e50, e51, e60, e70, e80, e90, e91⟩ := idx1 t
  match a with
  | ⟨0, _⟩ => show win1_6.index t (0 : Fin 1) * 128 + 1 * (y 0).val = (y 0).val; rw [e60]; omega

/-- The gain window's one block is its whole array. -/
theorem blk1_7 (c : Dev nD) (t : Fin cfg1.N) :
    (iblk1 (F := Ideal) V c 7 t : Vec Ideal S128 .f32) = V c main_v37 := by
  funext y
  show V c main_v37 (((cfg1.win 7).blk t).view.emb y) = V c main_v37 y
  refine congrArg _ (funext fun a => Fin.ext ?_)
  obtain ⟨e00, e01, e10, e11, e20, e21, e30, e31, e40, e50, e51, e60, e70, e80, e90, e91⟩ := idx1 t
  match a with
  | ⟨0, _⟩ => show win1_7.index t (0 : Fin 1) * 128 + 1 * (y 0).val = (y 0).val; rw [e70]; omega

/-- The normalisation bias window's one block is its whole array. -/
theorem blk1_8 (c : Dev nD) (t : Fin cfg1.N) :
    (iblk1 (F := Ideal) V c 8 t : Vec Ideal S128 .f32) = V c main_v39 := by
  funext y
  show V c main_v39 (((cfg1.win 8).blk t).view.emb y) = V c main_v39 y
  refine congrArg _ (funext fun a => Fin.ext ?_)
  obtain ⟨e00, e01, e10, e11, e20, e21, e30, e31, e40, e50, e51, e60, e70, e80, e90, e91⟩ := idx1 t
  match a with
  | ⟨0, _⟩ => show win1_8.index t (0 : Fin 1) * 128 + 1 * (y 0).val = (y 0).val; rw [e80]; omega

/-- What point t writes back is block t of the update of every row of the entry arrays. -/
theorem flushed1 (c : Dev nD) (t : Fin cfg1.N) :
    (dat1 (F := Ideal) V c).flushed 9 t = ((cfg1.win 9).blk t).view.read (Elt Ideal)
      (Cert.Spec.updArr (E := 100000) (V c main_v0) (V c main_v27) (V c main_v12) (V c main_v29) (V c main_v31)
          (V c main_v33) (V c main_v35) (V c main_v37) (V c main_v39)) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S4000x1) hz2, View.ld_unit_zero (S := S256x128) hz2,
    View.ld_unit_zero (S := S128x128) hz2, View.ld_unit_zero (S := S128) hz1]
  show k1_pay1 _ _ _ _ = _
  refine (Body.upd_body _ _ _ _ _ _ _ _ _).trans ?_
  rw [blk1_3 V c t, blk1_4 V c t, blk1_5 V c t, blk1_6 V c t, blk1_7 V c t, blk1_8 V c t]
  obtain ⟨e00, e01, e10, e11, e20, e21, e30, e31, e40, e50, e51, e60, e70, e80, e90, e91⟩ := idx1 t
  funext y
  refine upd_local t.val (lt1 t) _ _ _ _ _ _ _ _ _ _ _ _ (blk1_0 V c t) (blk1_1 V c t) (blk1_2 V c t) y _ ?_ ?_
  · show win1_9.index t (0 : Fin 2) * 4000 + 1 * (y 0).val = 4000 * t.val + (y 0).val; rw [e90]; omega
  · show win1_9.index t (1 : Fin 2) * 128 + 1 * (y 1).val = (y 1).val; rw [e91]; omega

/-- An index of the array is in point t's block iff each coordinate is in the block's range on its axis. -/
theorem mem_blk1 (t : Fin cfg1.N) (i : S100000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v40).slice (win1_9.rect t)).set ↔ _
  rw [View.set_slice_whole, Rect.mem_set_unit]
  exact Iff.rfl

/-- The 25 blocks of 4000 rows tile the 100000 rows: row i is in the block of point i / 4000. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  refine ⟨t, flush1_9 t, ?_⟩
  rw [mem_blk1]
  obtain ⟨e00, e01, e10, e11, e20, e21, e30, e31, e40, e50, e51, e60, e70, e80, e90, e91⟩ := idx1 t
  intro a
  match a with
  | ⟨0, _⟩ =>
    show win1_9.index t (0 : Fin 2) * 4000 ≤ (i 0).val ∧ (i 0).val < win1_9.index t (0 : Fin 2) * 4000 + 4000
    rw [e90, ht]; omega
  | ⟨1, _⟩ =>
    show win1_9.index t (1 : Fin 2) * 128 ≤ (i 1).val ∧ (i 1).val < win1_9.index t (1 : Fin 2) * 128 + 128
    rw [e91]; omega

/-- After the first update launch its output array holds the update of every row. -/
theorem arr1 (c : Dev nD) :
    (dat1 (F := Ideal) V c).arrAt 9 cfg1.N
      = Cert.Spec.updArr (E := 100000) (V c main_v0) (V c main_v27) (V c main_v12) (V c main_v29) (V c main_v31)
          (V c main_v33) (V c main_v35) (V c main_v37) (V c main_v39) :=
  (dat1 V c).arrAt_eq_of_cover 9 _ (fun t _ => flushed1 V c t) cover1

/-! ## Update launch 2 -/

theorem lt2 (t : Fin cfg2.N) : t.val < 25 := lt_of_lt_of_eq t.isLt N_2

/-- The printed index maps over the grid: a row-block window sits at block (t, 0), a weight window at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 1) = 0
    ∧ win2_8.index t (0 : Fin 1) = 0
    ∧ win2_9.index t (0 : Fin 2) = t.val ∧ win2_9.index t (1 : Fin 2) = 0 :=
  (by decide +kernel : ∀ t : Fin grid2.N, _)

/-- Row r of the hidden-state block at point t is row 4000 t + r of the array. -/
theorem blk2_0 (c : Dev nD) (t : Fin cfg2.N) (r : Fin 4000) (k : Fin 128) :
    (iblk2 (F := Ideal) V c 0 t : Vec Ideal S4000x128 .f32) (ix2 r k)
      = (V c main_v40 : S100000x128.Idx → EReal) (ix2 (⟨4000 * t.val + r.val, by have := lt2 t; omega⟩ : Fin 100000) k) := by
  show V c main_v40 (((cfg2.win 0).blk t).view.emb (ix2 r k)) = _
  refine congrArg _ (funext fun a => Fin.ext ?_)
  obtain ⟨e00, e01, e10, e11, e20, e21, e30, e31, e40, e50, e51, e60, e70, e80, e90, e91⟩ := idx2 t
  match a with
  | ⟨0, _⟩ => show win2_0.index t (0 : Fin 2) * 4000 + 1 * r.val = 4000 * t.val + r.val; rw [e00]; omega
  | ⟨1, _⟩ => show win2_0.index t (1 : Fin 2) * 128 + 1 * k.val = k.val; rw [e01]; omega

/-- Row r of the summed-message block at point t is row 4000 t + r of the array. -/
theorem blk2_1 (c : Dev nD) (t : Fin cfg2.N) (r : Fin 4000) (k : Fin 128) :
    (iblk2 (F := Ideal) V c 1 t : Vec Ideal S4000x128 .f32) (ix2 r k)
      = (V c main_v55 : S100000x128.Idx → EReal) (ix2 (⟨4000 * t.val + r.val, by have := lt2 t; omega⟩ : Fin 100000) k) := by
  show V c main_v55 (((cfg2.win 1).blk t).view.emb (ix2 r k)) = _
  refine congrArg _ (funext fun a => Fin.ext ?_)
  obtain ⟨e00, e01, e10, e11, e20, e21, e30, e31, e40, e50, e51, e60, e70, e80, e90, e91⟩ := idx2 t
  match a with
  | ⟨0, _⟩ => show win2_1.index t (0 : Fin 2) * 4000 + 1 * r.val = 4000 * t.val + r.val; rw [e10]; omega
  | ⟨1, _⟩ => show win2_1.index t (1 : Fin 2) * 128 + 1 * k.val = k.val; rw [e11]; omega

/-- Row r of the reciprocal-degree block at point t is row 4000 t + r of the array. -/
theorem blk2_2 (c : Dev nD) (t : Fin cfg2.N) (r : Fin 4000) (k : Fin 1) :
    (iblk2 (F := Ideal) V c 2 t : Vec Ideal S4000x1 .f32) (ix2 r k)
      = (V c main_v12 : S100000x1.Idx → EReal) (ix2 (⟨4000 * t.val + r.val, by have := lt2 t; omega⟩ : Fin 100000) k) := by
  show V c main_v12 (((cfg2.win 2).blk t).view.emb (ix2 r k)) = _
  refine congrArg _ (funext fun a => Fin.ext ?_)
  obtain ⟨e00, e01, e10, e11, e20, e21, e30, e31, e40, e50, e51, e60, e70, e80, e90, e91⟩ := idx2 t
  match a with
  | ⟨0, _⟩ => show win2_2.index t (0 : Fin 2) * 4000 + 1 * r.val = 4000 * t.val + r.val; rw [e20]; omega
  | ⟨1, _⟩ => show win2_2.index t (1 : Fin 2) * 1 + 1 * k.val = k.val; rw [e21]; omega

/-- The first weight window's one block is its whole array. -/
theorem blk2_3 (c : Dev nD) (t : Fin cfg2.N) :
    (iblk2 (F := Ideal) V c 3 t : Vec Ideal S256x128 .f32) = V c main_v57 := by
  funext y
  show V c main_v57 (((cfg2.win 3).blk t).view.emb y) = V c main_v57 y
  refine congrArg _ (funext fun a => Fin.ext ?_)
  obtain ⟨e00, e01, e10, e11, e20, e21, e30, e31, e40, e50, e51, e60, e70, e80, e90, e91⟩ := idx2 t
  match a with
  | ⟨0, _⟩ => show win2_3.index t (0 : Fin 2) * 256 + 1 * (y 0).val = (y 0).val; rw [e30]; omega
  | ⟨1, _⟩ => show win2_3.index t (1 : Fin 2) * 128 + 1 * (y 1).val = (y 1).val; rw [e31]; omega

/-- The first bias window's one block is its whole array. -/
theorem blk2_4 (c : Dev nD) (t : Fin cfg2.N) :
    (iblk2 (F := Ideal) V c 4 t : Vec Ideal S128 .f32) = V c main_v59 := by
  funext y
  show V c main_v59 (((cfg2.win 4).blk t).view.emb y) = V c main_v59 y
  refine congrArg _ (funext fun a => Fin.ext ?_)
  obtain ⟨e00, e01, e10, e11, e20, e21, e30, e31, e40, e50, e51, e60, e70, e80, e90, e91⟩ := idx2 t
  match a with
  | ⟨0, _⟩ => show win2_4.index t (0 : Fin 1) * 128 + 1 * (y 0).val = (y 0).val; rw [e40]; omega

/-- The second weight window's one block is its whole array. -/
theorem blk2_5 (c : Dev nD) (t : Fin cfg2.N) :
    (iblk2 (F := Ideal) V c 5 t : Vec Ideal S128x128 .f32) = V c main_v61 := by
  funext y
  show V c main_v61 (((cfg2.win 5).blk t).view.emb y) = V c main_v61 y
  refine congrArg _ (funext fun a => Fin.ext ?_)
  obtain ⟨e00, e01, e10, e11, e20, e21, e30, e31, e40, e50, e51, e60, e70, e80, e90, e91⟩ := idx2 t
  match a with
  | ⟨0, _⟩ => show win2_5.index t (0 : Fin 2) * 128 + 1 * (y 0).val = (y 0).val; rw [e50]; omega
  | ⟨1, _⟩ => show win2_5.index t (1 : Fin 2) * 128 + 1 * (y 1).val = (y 1).val; rw [e51]; omega

/-- The second bias window's one block is its whole array. -/
theorem blk2_6 (c : Dev nD) (t : Fin cfg2.N) :
    (iblk2 (F := Ideal) V c 6 t : Vec Ideal S128 .f32) = V c main_v63 := by
  funext y
  show V c main_v63 (((cfg2.win 6).blk t).view.emb y) = V c main_v63 y
  refine congrArg _ (funext fun a => Fin.ext ?_)
  obtain ⟨e00, e01, e10, e11, e20, e21, e30, e31, e40, e50, e51, e60, e70, e80, e90, e91⟩ := idx2 t
  match a with
  | ⟨0, _⟩ => show win2_6.index t (0 : Fin 1) * 128 + 1 * (y 0).val = (y 0).val; rw [e60]; omega

/-- The gain window's one block is its whole array. -/
theorem blk2_7 (c : Dev nD) (t : Fin cfg2.N) :
    (iblk2 (F := Ideal) V c 7 t : Vec Ideal S128 .f32) = V c main_v65 := by
  funext y
  show V c main_v65 (((cfg2.win 7).blk t).view.emb y) = V c main_v65 y
  refine congrArg _ (funext fun a => Fin.ext ?_)
  obtain ⟨e00, e01, e10, e11, e20, e21, e30, e31, e40, e50, e51, e60, e70, e80, e90, e91⟩ := idx2 t
  match a with
  | ⟨0, _⟩ => show win2_7.index t (0 : Fin 1) * 128 + 1 * (y 0).val = (y 0).val; rw [e70]; omega

/-- The normalisation bias window's one block is its whole array. -/
theorem blk2_8 (c : Dev nD) (t : Fin cfg2.N) :
    (iblk2 (F := Ideal) V c 8 t : Vec Ideal S128 .f32) = V c main_v67 := by
  funext y
  show V c main_v67 (((cfg2.win 8).blk t).view.emb y) = V c main_v67 y
  refine congrArg _ (funext fun a => Fin.ext ?_)
  obtain ⟨e00, e01, e10, e11, e20, e21, e30, e31, e40, e50, e51, e60, e70, e80, e90, e91⟩ := idx2 t
  match a with
  | ⟨0, _⟩ => show win2_8.index t (0 : Fin 1) * 128 + 1 * (y 0).val = (y 0).val; rw [e80]; omega

/-- What point t writes back is block t of the update of every row of the entry arrays. -/
theorem flushed2 (c : Dev nD) (t : Fin cfg2.N) :
    (dat2 (F := Ideal) V c).flushed 9 t = ((cfg2.win 9).blk t).view.read (Elt Ideal)
      (Cert.Spec.updArr (E := 100000) (V c main_v40) (V c main_v55) (V c main_v12) (V c main_v57) (V c main_v59)
          (V c main_v61) (V c main_v63) (V c main_v65) (V c main_v67)) := by
  show (cfg2.win 9).cut (grid2.coords t) ((dat2 V c).after 9 t) = _
  rw [after2_9]
  unfold out2_9
  rw [View.canon_unit_zero hz2]
  simp only [View.ld_unit_zero (S := S4000x128) hz2, View.ld_unit_zero (S := S4000x1) hz2, View.ld_unit_zero (S := S256x128) hz2,
    View.ld_unit_zero (S := S128x128) hz2, View.ld_unit_zero (S := S128) hz1]
  show k2_pay1 _ _ _ _ = _
  refine (Body.upd_body2 _ _ _ _ _ _ _ _ _).trans ?_
  rw [blk2_3 V c t, blk2_4 V c t, blk2_5 V c t, blk2_6 V c t, blk2_7 V c t, blk2_8 V c t]
  obtain ⟨e00, e01, e10, e11, e20, e21, e30, e31, e40, e50, e51, e60, e70, e80, e90, e91⟩ := idx2 t
  funext y
  refine upd_local t.val (lt2 t) _ _ _ _ _ _ _ _ _ _ _ _ (blk2_0 V c t) (blk2_1 V c t) (blk2_2 V c t) y _ ?_ ?_
  · show win2_9.index t (0 : Fin 2) * 4000 + 1 * (y 0).val = 4000 * t.val + (y 0).val; rw [e90]; omega
  · show win2_9.index t (1 : Fin 2) * 128 + 1 * (y 1).val = (y 1).val; rw [e91]; omega

/-- An index of the array is in point t's block iff each coordinate is in the block's range on its axis. -/
theorem mem_blk2 (t : Fin cfg2.N) (i : S100000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v68).slice (win2_9.rect t)).set ↔ _
  rw [View.set_slice_whole, Rect.mem_set_unit]
  exact Iff.rfl

/-- The 25 blocks of 4000 rows tile the 100000 rows: row i is in the block of point i / 4000. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  refine ⟨t, flush2_9 t, ?_⟩
  rw [mem_blk2]
  obtain ⟨e00, e01, e10, e11, e20, e21, e30, e31, e40, e50, e51, e60, e70, e80, e90, e91⟩ := idx2 t
  intro a
  match a with
  | ⟨0, _⟩ =>
    show win2_9.index t (0 : Fin 2) * 4000 ≤ (i 0).val ∧ (i 0).val < win2_9.index t (0 : Fin 2) * 4000 + 4000
    rw [e90, ht]; omega
  | ⟨1, _⟩ =>
    show win2_9.index t (1 : Fin 2) * 128 ≤ (i 1).val ∧ (i 1).val < win2_9.index t (1 : Fin 2) * 128 + 128
    rw [e91]; omega

/-- After the second update launch its output array holds the update of every row. -/
theorem arr2 (c : Dev nD) :
    (dat2 (F := Ideal) V c).arrAt 9 cfg2.N
      = Cert.Spec.updArr (E := 100000) (V c main_v40) (V c main_v55) (V c main_v12) (V c main_v57) (V c main_v59)
          (V c main_v61) (V c main_v63) (V c main_v65) (V c main_v67) :=
  (dat2 V c).arrAt_eq_of_cover 9 _ (fun t _ => flushed2 V c t) cover2

end Cert.KernelIdeal.Arr

end
-- ==== Proof.BodyHead.lean ====
import proofs.«422472_j45698452030097_3_alg».proof.Proof.Gen.KernelIdeal.Skeleton
import proofs.«422472_j45698452030097_3_alg».proof.Proof.Spec
import proofs.«422472_j45698452030097_3_alg».proof.Proof.BodyUpdate
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen
open scoped BigOperators

/-- The output head on a block of 4000 rows: two dense layers with a rectifier between them, one output column. -/
def head (x : FVec Ideal S4000x128 .f32) (v66 : Vec Ideal S128x128 .f32) (v69 : Vec Ideal S128 .f32)
    (v76 : Vec Ideal S128x1 .f32) (v79 : Vec Ideal S1 .f32) : FVec Ideal S4000x1 .f32 :=
  have v65 : FVec Ideal S4000x128 .bf16 := truncf .bf16 x bitsLt_bf16_f32
  have v67 : FVec Ideal S128x128 .bf16 := truncf .bf16 v66 bitsLt_bf16_f32
  have cst_23 : FVec Ideal S4000x128 .f32 := constant S4000x128 .f32 0x00000000#32
  have v68 : FVec Ideal S4000x128 .f32 := matmul dot_S4000x128_S128x128_S4000x128_1_0_0_1_n_n none v65 v67 cst_23
  have v70 : FVec Ideal S1x128 .f32 := shapeCast S1x128 v69 shapeCasts_S128_S1x128
  have v71 : FVec Ideal S4000x128 .f32 := broadcastTo S4000x128 v70 broadcasts_S1x128_S4000x128
  have v72 : FVec Ideal S4000x128 .f32 := addf v68 v71
  have cst_25 : Ideal .f32 := Scalar.ofBits .f32 0x00000000#32
  have v73 : FVec Ideal S4000x128 .f32 := broadcast S4000x128 cst_25
  have v74 : FVec Ideal S4000x128 .f32 := maximumf v72 v73
  have v75 : FVec Ideal S4000x128 .bf16 := truncf .bf16 v74 bitsLt_bf16_f32
  have v77 : FVec Ideal S128x1 .bf16 := truncf .bf16 v76 bitsLt_bf16_f32
  have cst_28 : FVec Ideal S4000x1 .f32 := constant S4000x1 .f32 0x00000000#32
  have v78 : FVec Ideal S4000x1 .f32 := matmul dot_S4000x128_S128x1_S4000x1_1_0_0_1_n_n none v75 v77 cst_28
  have v80 : FVec Ideal S1x1 .f32 := shapeCast S1x1 v79 shapeCasts_S1_S1x1
  have v81 : FVec Ideal S4000x1 .f32 := broadcastTo S4000x1 v80 broadcasts_S1x1_S4000x1
  have v82 : FVec Ideal S4000x1 .f32 := addf v78 v81
  v82

/-- The last body is the head applied to the update body. -/
theorem pay3_eq_head (hs : FVec Ideal S4000x128 .f32) (mu : FVec Ideal S4000x1 .f32) (v48 v60 : Vec Ideal S128 .f32)
    (v66 : Vec Ideal S128x128 .f32) (v69 : Vec Ideal S128 .f32) (v76 : Vec Ideal S128x1 .f32) (v79 : Vec Ideal S1 .f32) :
    k3_pay3 hs mu v48 v60 v66 v69 v76 v79 = head (k1_pay1 hs mu v48 v60) v66 v69 v76 v79 := rfl

/-! The contraction `dot_S4000x128_S128x128_S4000x128_1_0_0_1_n_n` read at an output index: its four axis equations, then the sum over the one contracted axis. -/

theorem mmA_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mmA_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mmA_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mmA_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into the zero accumulator, at row `r` and column `j`: the sum over `k` of the left operand at `(r, k)`
    times the right operand at `(k, j)`. -/
theorem mmA_apply (a : FVec Ideal S4000x128 .bf16) (w : FVec Ideal S128x128 .bf16) (r : Fin 4000) (j : Fin 128) :
    matmul dot_S4000x128_S128x128_S4000x128_1_0_0_1_n_n none a w (constant (F := Ideal) S4000x128 .f32 0x00000000#32) (ix2 r j)
      = ∑ k : Fin 128, a (ix2 r k) * w (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k := funext fun c => Fin.ext (by
    match c with
    | ⟨0, _⟩ => exact mmA_lhs0 _ _
    | ⟨1, _⟩ => exact (mmA_lhs1 _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j := funext fun c => Fin.ext (by
    match c with
    | ⟨0, _⟩ => exact (mmA_rhs0 _ _).trans hk
    | ⟨1, _⟩ => exact mmA_rhs1 _ _)
  rw [el, er]

/-! The contraction `dot_S4000x128_S128x1_S4000x1_1_0_0_1_n_n` read at an output index: its four axis equations, then the sum over the one contracted axis. -/

theorem mmB_lhs0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem mmB_lhs1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem mmB_rhs0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem mmB_rhs1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The block product into the zero accumulator, at row `r` and column `j`: the sum over `k` of the left operand at `(r, k)`
    times the right operand at `(k, j)`. -/
theorem mmB_apply (a : FVec Ideal S4000x128 .bf16) (w : FVec Ideal S128x1 .bf16) (r : Fin 4000) (j : Fin 1) :
    matmul dot_S4000x128_S128x1_S4000x1_1_0_0_1_n_n none a w (constant (F := Ideal) S4000x1 .f32 0x00000000#32) (ix2 r j)
      = ∑ k : Fin 128, a (ix2 r k) * w (ix2 k j) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 r j) ((ValueIdx.contrEquiv1 dot_S4000x128_S128x1_S4000x1_1_0_0_1_n_n 128 rfl rfl).symm k) = ix2 r k := funext fun c => Fin.ext (by
    match c with
    | ⟨0, _⟩ => exact mmB_lhs0 _ _
    | ⟨1, _⟩ => exact (mmB_lhs1 _ _).trans hk)
  have er : dot_S4000x128_S128x1_S4000x1_1_0_0_1_n_n.rhsIdx (ix2 r j) ((ValueIdx.contrEquiv1 dot_S4000x128_S128x1_S4000x1_1_0_0_1_n_n 128 rfl rfl).symm k) = ix2 k j := funext fun c => Fin.ext (by
    match c with
    | ⟨0, _⟩ => exact (mmB_rhs0 _ _).trans hk
    | ⟨1, _⟩ => exact mmB_rhs1 _ _)
  rw [el, er]

/-- A bias vector of length 128, laid along the columns of every one of the 4000 rows, read at `(r, k)`: its entry `k`. -/
theorem bias128_apply (b : Vec Ideal S128 .f32) (r : Fin 4000) (k : Fin 128) :
    broadcastTo S4000x128 (shapeCast S1x128 b shapeCasts_S128_S1x128) broadcasts_S1x128_S4000x128 (ix2 r k) = b (ix1 k) :=
  (broadcastTo_1b_ab_apply _ _ r k).trans (shapeCast_a_1a_apply b _ 0 k)

/-- The one-entry bias of the last layer, laid along every one of the 4000 rows, read at `(r, q)`: its entry. -/
theorem bias1_apply (b : Vec Ideal S1 .f32) (r : Fin 4000) (q : Fin 1) :
    broadcastTo S4000x1 (shapeCast S1x1 b shapeCasts_S1_S1x1) broadcasts_S1x1_S4000x1 (ix2 r q) = b (ix1 q) :=
  (broadcastTo_1b_ab_apply _ _ r q).trans (shapeCast_a_1a_apply b _ 0 q)

/-- The head at row `r` is the head of row `r`: the outer sum is over the 128 hidden units of the rectified first
    layer, the inner sum over the 128 entries of the row; the format changes are the identity on extended reals. -/
theorem head_apply (x : FVec Ideal S4000x128 .f32) (v66 : Vec Ideal S128x128 .f32) (v69 : Vec Ideal S128 .f32)
    (v76 : Vec Ideal S128x1 .f32) (v79 : Vec Ideal S1 .f32) (r : Fin 4000) (q : Fin 1) :
    head x v66 v69 v76 v79 (ix2 r q) = Cert.Spec.rowOut (Cert.Spec.row x r) v66 v69 v76 v79 := by
  obtain rfl : q = 0 := Subsingleton.elim _ _
  unfold head
  refine (addf_apply _ _ _).trans ?_
  rw [mmB_apply, bias1_apply]
  unfold Cert.Spec.rowOut Cert.Spec.dense
  refine congrArg (· + v79 (ix1 0)) (Finset.sum_congr rfl fun k _ => ?_)
  refine congrArg (· * v76 (ix2 k 0)) ?_
  show max (matmul dot_S4000x128_S128x128_S4000x128_1_0_0_1_n_n none _ _ (constant (F := Ideal) S4000x128 .f32 0x00000000#32) (ix2 r k)
      + broadcastTo S4000x128 (shapeCast S1x128 v69 shapeCasts_S128_S1x128) broadcasts_S1x128_S4000x128 (ix2 r k)) _ = _
  rw [mmA_apply, bias128_apply]
  rfl

/-- The last launch's body on a block of 4000 rows is the last update followed by the output head, row by row. -/
theorem out_body (v0 v2 : Vec Ideal S4000x128 .f32) (v4 : Vec Ideal S4000x1 .f32) (v8 : Vec Ideal S256x128 .f32)
    (v19 : Vec Ideal S128 .f32) (v27 : Vec Ideal S128x128 .f32) (v31 v48 v60 : Vec Ideal S128 .f32)
    (v66 : Vec Ideal S128x128 .f32) (v69 : Vec Ideal S128 .f32) (v76 : Vec Ideal S128x1 .f32) (v79 : Vec Ideal S1 .f32) :
    k3_pay3 (k3_pay1 v0 v2 v4 v8 v19 v27 v31) (k3_pay2 v0 v2 v4 v8 v19 v27 v31) v48 v60 v66 v69 v76 v79
      = Cert.Spec.outArr (E := 4000) v0 v2 v4 v8 v19 v27 v31 v48 v60 v66 v69 v76 v79 := by
  funext i
  obtain ⟨r, q, rfl⟩ : ∃ (r : Fin 4000) (q : Fin 1), i = ix2 r q := ⟨i 0, i 1, eq_ix2 i⟩
  rw [Cert.Spec.outArr_ix2]
  refine (congrFun (pay3_eq_head _ _ v48 v60 v66 v69 v76 v79) (ix2 r q)).trans ?_
  rw [head_apply]
  -- the residual sum and its row mean are the same two arrays in the update launches and in the last one
  show Cert.Spec.rowOut (Cert.Spec.row (k1_pay1 (k1_pay2 v0 v2 v4 v8 v19 v27 v31) (k1_pay3 v0 v2 v4 v8 v19 v27 v31) v48 v60) r)
      v66 v69 v76 v79 = _
  rw [upd_body]
  -- row `r` of the array of updated rows is the update of row `r`
  rfl

end Cert.KernelIdeal.Body

end
-- ==== Proof.ArrHead.lean ====
import proofs.«422472_j45698452030097_3_alg».proof.Proof.Gen.KernelIdeal.Frame
import proofs.«422472_j45698452030097_3_alg».proof.Proof.Spec
import proofs.«422472_j45698452030097_3_alg».proof.Proof.BodyHead
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## From the block each grid point writes back to the whole array

The grid has 25 points; point `t` reads rows `4000 · t … 4000 · t + 3999` of the hidden-state, summed-message and
reciprocal in-degree arrays and the whole of each weight array, and writes back the same rows of the one-column
result array. The update followed by the output head of a row reads that row alone, so the block point `t` writes
is block `t` of the array function of the whole arrays, and the 25 blocks tile the 100000 rows. -/

namespace Head

theorem hz2 : (![0, 0] : Fin 2 → Nat) = fun _ => 0 := funext fun a => by fin_cases a <;> rfl
theorem hz1 : (![0] : Fin 1 → Nat) = fun _ => 0 := funext fun a => by fin_cases a; rfl

theorem lt3 (t : Fin cfg3.N) : t.val < 25 := lt_of_lt_of_eq t.isLt (N_3 : cfg3.N = 25)

/-! ### The printed index maps over the 25 grid points

The three row windows (hidden state, summed messages, reciprocal in-degrees) and the output window sit at row
block `t` at point `t`; every weight window stays at block 0. -/

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = t.val ∧ win3_1.index t (1 : Fin 2) = 0 :=
  (by decide +kernel : ∀ t : Fin grid3.N, _)

theorem idx3_2 : ∀ t : Fin cfg3.N, win3_2.index t (0 : Fin 2) = t.val ∧ win3_2.index t (1 : Fin 2) = 0 :=
  (by decide +kernel : ∀ t : Fin grid3.N, _)

theorem idx3_3 : ∀ t : Fin cfg3.N, win3_3.index t (0 : Fin 2) = 0 ∧ win3_3.index t (1 : Fin 2) = 0 :=
  (by decide +kernel : ∀ t : Fin grid3.N, _)

theorem idx3_4 : ∀ t : Fin cfg3.N, win3_4.index t (0 : Fin 1) = 0 :=
  (by decide +kernel : ∀ t : Fin grid3.N, _)

theorem idx3_5 : ∀ t : Fin cfg3.N, win3_5.index t (0 : Fin 2) = 0 ∧ win3_5.index t (1 : Fin 2) = 0 :=
  (by decide +kernel : ∀ t : Fin grid3.N, _)

theorem idx3_6 : ∀ t : Fin cfg3.N, win3_6.index t (0 : Fin 1) = 0 :=
  (by decide +kernel : ∀ t : Fin grid3.N, _)

theorem idx3_7 : ∀ t : Fin cfg3.N, win3_7.index t (0 : Fin 1) = 0 :=
  (by decide +kernel : ∀ t : Fin grid3.N, _)

theorem idx3_8 : ∀ t : Fin cfg3.N, win3_8.index t (0 : Fin 1) = 0 :=
  (by decide +kernel : ∀ t : Fin grid3.N, _)

theorem idx3_9 : ∀ t : Fin cfg3.N, win3_9.index t (0 : Fin 2) = 0 ∧ win3_9.index t (1 : Fin 2) = 0 :=
  (by decide +kernel : ∀ t : Fin grid3.N, _)

theorem idx3_10 : ∀ t : Fin cfg3.N, win3_10.index t (0 : Fin 1) = 0 :=
  (by decide +kernel : ∀ t : Fin grid3.N, _)

theorem idx3_11 : ∀ t : Fin cfg3.N, win3_11.index t (0 : Fin 2) = 0 ∧ win3_11.index t (1 : Fin 2) = 0 :=
  (by decide +kernel : ∀ t : Fin grid3.N, _)

theorem idx3_12 : ∀ t : Fin cfg3.N, win3_12.index t (0 : Fin 1) = 0 :=
  (by decide +kernel : ∀ t : Fin grid3.N, _)

theorem idx3_13 : ∀ t : Fin cfg3.N, win3_13.index t (0 : Fin 2) = t.val ∧ win3_13.index t (1 : Fin 2) = 0 :=
  (by decide +kernel : ∀ t : Fin grid3.N, _)

/-! ### The input blocks, read where the output's rows say -/

/-- Row `p` of window 0's block at point `t` is row `4000 · t + p` of its array. -/
theorem blk3_0 (c : Dev nD) (t : Fin cfg3.N) (p : Fin 4000) (k : Fin 128) (h : 4000 * t.val + p.val < 100000) :
    (iblk3 V c 0 t : Vec Ideal S4000x128 .f32) (ix2 p k) = V c main_v68 (ix2 (⟨4000 * t.val + p.val, h⟩ : Fin 100000) k) := by
  obtain ⟨e0, e1⟩ := idx3_0 t
  show V c main_v68 (((cfg3.win 0).blk t).view.emb (ix2 p k)) = _
  refine congrArg (V c main_v68) ?_
  funext a; apply Fin.ext
  match a with
  | ⟨0, _⟩ => show win3_0.index t (0 : Fin 2) * 4000 + 1 * p.val = 4000 * t.val + p.val; omega
  | ⟨1, _⟩ => show win3_0.index t (1 : Fin 2) * 128 + 1 * k.val = k.val; omega

/-- Row `p` of window 1's block at point `t` is row `4000 · t + p` of its array. -/
theorem blk3_1 (c : Dev nD) (t : Fin cfg3.N) (p : Fin 4000) (k : Fin 128) (h : 4000 * t.val + p.val < 100000) :
    (iblk3 V c 1 t : Vec Ideal S4000x128 .f32) (ix2 p k) = V c main_v83 (ix2 (⟨4000 * t.val + p.val, h⟩ : Fin 100000) k) := by
  obtain ⟨e0, e1⟩ := idx3_1 t
  show V c main_v83 (((cfg3.win 1).blk t).view.emb (ix2 p k)) = _
  refine congrArg (V c main_v83) ?_
  funext a; apply Fin.ext
  match a with
  | ⟨0, _⟩ => show win3_1.index t (0 : Fin 2) * 4000 + 1 * p.val = 4000 * t.val + p.val; omega
  | ⟨1, _⟩ => show win3_1.index t (1 : Fin 2) * 128 + 1 * k.val = k.val; omega

/-- Row `p` of window 2's block at point `t` is row `4000 · t + p` of its array. -/
theorem blk3_2 (c : Dev nD) (t : Fin cfg3.N) (p : Fin 4000) (k : Fin 1) (h : 4000 * t.val + p.val < 100000) :
    (iblk3 V c 2 t : Vec Ideal S4000x1 .f32) (ix2 p k) = V c main_v12 (ix2 (⟨4000 * t.val + p.val, h⟩ : Fin 100000) k) := by
  obtain ⟨e0, e1⟩ := idx3_2 t
  show V c main_v12 (((cfg3.win 2).blk t).view.emb (ix2 p k)) = _
  refine congrArg (V c main_v12) ?_
  funext a; apply Fin.ext
  match a with
  | ⟨0, _⟩ => show win3_2.index t (0 : Fin 2) * 4000 + 1 * p.val = 4000 * t.val + p.val; omega
  | ⟨1, _⟩ => show win3_2.index t (1 : Fin 2) * 1 + 1 * k.val = k.val; omega

/-- Window 3's one block is its whole array. -/
theorem blk3_3 (c : Dev nD) (t : Fin cfg3.N) : (iblk3 V c 3 t : Vec Ideal S256x128 .f32) = V c main_v85 := by
  obtain ⟨e0, e1⟩ := idx3_3 t
  funext y
  show V c main_v85 (((cfg3.win 3).blk t).view.emb y) = V c main_v85 y
  refine congrArg (V c main_v85) ?_
  funext a; apply Fin.ext
  match a with
  | ⟨0, _⟩ => show win3_3.index t (0 : Fin 2) * 256 + 1 * (y 0).val = (y 0).val; omega
  | ⟨1, _⟩ => show win3_3.index t (1 : Fin 2) * 128 + 1 * (y 1).val = (y 1).val; omega

/-- Window 4's one block is its whole array. -/
theorem blk3_4 (c : Dev nD) (t : Fin cfg3.N) : (iblk3 V c 4 t : Vec Ideal S128 .f32) = V c main_v87 := by
  have e0 := idx3_4 t
  funext y
  show V c main_v87 (((cfg3.win 4).blk t).view.emb y) = V c main_v87 y
  refine congrArg (V c main_v87) ?_
  funext a; apply Fin.ext
  match a with
  | ⟨0, _⟩ => show win3_4.index t (0 : Fin 1) * 128 + 1 * (y 0).val = (y 0).val; omega

/-- Window 5's one block is its whole array. -/
theorem blk3_5 (c : Dev nD) (t : Fin cfg3.N) : (iblk3 V c 5 t : Vec Ideal S128x128 .f32) = V c main_v89 := by
  obtain ⟨e0, e1⟩ := idx3_5 t
  funext y
  show V c main_v89 (((cfg3.win 5).blk t).view.emb y) = V c main_v89 y
  refine congrArg (V c main_v89) ?_
  funext a; apply Fin.ext
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Window 6's one block is its whole array. -/
theorem blk3_6 (c : Dev nD) (t : Fin cfg3.N) : (iblk3 V c 6 t : Vec Ideal S128 .f32) = V c main_v91 := by
  have e0 := idx3_6 t
  funext y
  show V c main_v91 (((cfg3.win 6).blk t).view.emb y) = V c main_v91 y
  refine congrArg (V c main_v91) ?_
  funext a; apply Fin.ext
  match a with
  | ⟨0, _⟩ => show win3_6.index t (0 : Fin 1) * 128 + 1 * (y 0).val = (y 0).val; omega

/-- Window 7's one block is its whole array. -/
theorem blk3_7 (c : Dev nD) (t : Fin cfg3.N) : (iblk3 V c 7 t : Vec Ideal S128 .f32) = V c main_v93 := by
  have e0 := idx3_7 t
  funext y
  show V c main_v93 (((cfg3.win 7).blk t).view.emb y) = V c main_v93 y
  refine congrArg (V c main_v93) ?_
  funext a; apply Fin.ext
  match a with
  | ⟨0, _⟩ => show win3_7.index t (0 : Fin 1) * 128 + 1 * (y 0).val = (y 0).val; omega

/-- Window 8's one block is its whole array. -/
theorem blk3_8 (c : Dev nD) (t : Fin cfg3.N) : (iblk3 V c 8 t : Vec Ideal S128 .f32) = V c main_v95 := by
  have e0 := idx3_8 t
  funext y
  show V c main_v95 (((cfg3.win 8).blk t).view.emb y) = V c main_v95 y
  refine congrArg (V c main_v95) ?_
  funext a; apply Fin.ext
  match a with
  | ⟨0, _⟩ => show win3_8.index t (0 : Fin 1) * 128 + 1 * (y 0).val = (y 0).val; omega

/-- Window 9's one block is its whole array. -/
theorem blk3_9 (c : Dev nD) (t : Fin cfg3.N) : (iblk3 V c 9 t : Vec Ideal S128x128 .f32) = V c main_arg11 := by
  obtain ⟨e0, e1⟩ := idx3_9 t
  funext y
  show V c main_arg11 (((cfg3.win 9).blk t).view.emb y) = V c main_arg11 y
  refine congrArg (V c main_arg11) ?_
  funext a; apply Fin.ext
  match a with
  | ⟨0, _⟩ => show win3_9.index t (0 : Fin 2) * 128 + 1 * (y 0).val = (y 0).val; omega
  | ⟨1, _⟩ => show win3_9.index t (1 : Fin 2) * 128 + 1 * (y 1).val = (y 1).val; omega

/-- Window 10's one block is its whole array. -/
theorem blk3_10 (c : Dev nD) (t : Fin cfg3.N) : (iblk3 V c 10 t : Vec Ideal S128 .f32) = V c main_arg12 := by
  have e0 := idx3_10 t
  funext y
  show V c main_arg12 (((cfg3.win 10).blk t).view.emb y) = V c main_arg12 y
  refine congrArg (V c main_arg12) ?_
  funext a; apply Fin.ext
  match a with
  | ⟨0, _⟩ => show win3_10.index t (0 : Fin 1) * 128 + 1 * (y 0).val = (y 0).val; omega

/-- Window 11's one block is its whole array. -/
theorem blk3_11 (c : Dev nD) (t : Fin cfg3.N) : (iblk3 V c 11 t : Vec Ideal S128x1 .f32) = V c main_arg13 := by
  obtain ⟨e0, e1⟩ := idx3_11 t
  funext y
  show V c main_arg13 (((cfg3.win 11).blk t).view.emb y) = V c main_arg13 y
  refine congrArg (V c main_arg13) ?_
  funext a; apply Fin.ext
  match a with
  | ⟨0, _⟩ => show win3_11.index t (0 : Fin 2) * 128 + 1 * (y 0).val = (y 0).val; omega
  | ⟨1, _⟩ => show win3_11.index t (1 : Fin 2) * 1 + 1 * (y 1).val = (y 1).val; omega

/-- Window 12's one block is its whole array. -/
theorem blk3_12 (c : Dev nD) (t : Fin cfg3.N) : (iblk3 V c 12 t : Vec Ideal S1 .f32) = V c main_arg14 := by
  have e0 := idx3_12 t
  funext y
  show V c main_arg14 (((cfg3.win 12).blk t).view.emb y) = V c main_arg14 y
  refine congrArg (V c main_arg14) ?_
  funext a; apply Fin.ext
  match a with
  | ⟨0, _⟩ => show win3_12.index t (0 : Fin 1) * 1 + 1 * (y 0).val = (y 0).val; omega

/-- Where the output window's block at point `t` puts its row `p`: row `4000 · t + p` of the array. -/
theorem emb3_13 (t : Fin cfg3.N) (p : Fin 4000) (q : Fin 1) (h : 4000 * t.val + p.val < 100000) :
    ((cfg3.win 13).blk t).view.emb (ix2 p q) = ix2 (⟨4000 * t.val + p.val, h⟩ : Fin 100000) q := by
  obtain ⟨e0, e1⟩ := idx3_13 t
  funext a; apply Fin.ext
  match a with
  | ⟨0, _⟩ => show win3_13.index t (0 : Fin 2) * 4000 + 1 * p.val = 4000 * t.val + p.val; omega
  | ⟨1, _⟩ => show win3_13.index t (1 : Fin 2) * 1 + 1 * q.val = q.val; omega

/-- What point `t` writes back is block `t` of the update-then-head of the whole arrays: the result at a row
    reads that row of the hidden state, of the summed messages and of the reciprocal in-degrees alone (and the
    whole weight arrays). -/
theorem flushed3_eq (c : Dev nD) (t : Fin cfg3.N) :
    (dat3 (F := Ideal) V c).flushed 13 t = ((cfg3.win 13).blk t).view.read (Elt Ideal)
      (Cert.Spec.outArr (E := 100000) (V c main_v68) (V c main_v83) (V c main_v12) (V c main_v85) (V c main_v87)
        (V c main_v89) (V c main_v91) (V c main_v93) (V c main_v95) (V c main_arg11) (V c main_arg12) (V c main_arg13)
        (V c main_arg14)) := by
  show (cfg3.win 13).cut (grid3.coords t) ((dat3 V c).after 13 t) = _
  rw [after3_13]
  unfold out3_13
  rw [View.canon_unit_zero hz2]
  simp only [View.ld_unit_zero (S := S4000x128) hz2, View.ld_unit_zero (S := S4000x1) hz2,
    View.ld_unit_zero (S := S256x128) hz2, View.ld_unit_zero (S := S128x128) hz2, View.ld_unit_zero (S := S128x1) hz2,
    View.ld_unit_zero (S := S128) hz1, View.ld_unit_zero (S := S1) hz1]
  refine (congrArg _ (Cert.KernelIdeal.Body.out_body _ _ _ _ _ _ _ _ _ _ _ _ _)).trans ?_
  rw [blk3_3, blk3_4, blk3_5, blk3_6, blk3_7, blk3_8, blk3_9, blk3_10, blk3_11, blk3_12]
  funext y
  obtain ⟨p, q, rfl⟩ : ∃ (p : Fin 4000) (q : Fin 1), y = ix2 p q := ⟨y 0, y 1, eq_ix2 y⟩
  have hp : 4000 * t.val + p.val < 100000 := by have := lt3 t; have := p.isLt; omega
  show Cert.Spec.outArr (E := 4000) (iblk3 V c 0 t) (iblk3 V c 1 t) (iblk3 V c 2 t) (V c main_v85) (V c main_v87)
        (V c main_v89) (V c main_v91) (V c main_v93) (V c main_v95) (V c main_arg11) (V c main_arg12) (V c main_arg13)
        (V c main_arg14) (ix2 p q)
    = Cert.Spec.outArr (E := 100000) (V c main_v68) (V c main_v83) (V c main_v12) (V c main_v85) (V c main_v87)
        (V c main_v89) (V c main_v91) (V c main_v93) (V c main_v95) (V c main_arg11) (V c main_arg12) (V c main_arg13)
        (V c main_arg14) (((cfg3.win 13).blk t).view.emb (ix2 p q))
  rw [emb3_13 t p q hp, Cert.Spec.outArr_ix2, Cert.Spec.outArr_ix2]
  have hH : Cert.Spec.row (E := 4000) (iblk3 V c 0 t) p
      = Cert.Spec.row (E := 100000) (V c main_v68) (⟨4000 * t.val + p.val, hp⟩ : Fin 100000) :=
    funext fun k => blk3_0 V c t p k hp
  have hA : Cert.Spec.row (E := 4000) (iblk3 V c 1 t) p
      = Cert.Spec.row (E := 100000) (V c main_v83) (⟨4000 * t.val + p.val, hp⟩ : Fin 100000) :=
    funext fun k => blk3_1 V c t p k hp
  have hS : (iblk3 V c 2 t : Vec Ideal S4000x1 .f32) (ix2 p (0 : Fin 1))
      = V c main_v12 (ix2 (⟨4000 * t.val + p.val, hp⟩ : Fin 100000) (0 : Fin 1)) := blk3_2 V c t p 0 hp
  rw [hH, hA, hS]

/-- An index of the array is in point `t`'s block iff each coordinate is in the block's range on its axis. -/
theorem mem_blk3 (t : Fin cfg3.N) (i : S100000x1.Idx) :
    i ∈ ((cfg3.win 13).blk t).view.set ↔ ∀ a : Fin 2, win3_13.index t a * S4000x1.size a ≤ (i a).val
      ∧ (i a).val < win3_13.index t a * S4000x1.size a + S4000x1.size a := by
  show i ∈ ((View.whole main_v96).slice (win3_13.rect t)).set ↔ _
  rw [View.set_slice_whole, Rect.mem_set_unit]
  exact Iff.rfl

/-- The 25 row blocks of 4000 tile the 100000 rows: row `r` is in the block of point `r / 4000`. -/
theorem cover3 (i : S100000x1.Idx) :
    ∃ t : Fin cfg3.N, (cfg3.win 13).flush t = true ∧ i ∈ ((cfg3.win 13).blk t).view.set := by
  have hi0 : (i 0).val < 100000 := (i 0).isLt
  have hi1 : (i 1).val < 1 := (i 1).isLt
  have ht : (i 0).val / 4000 < cfg3.N :=
    lt_of_lt_of_eq (by omega : (i 0).val / 4000 < 25) (N_3 : cfg3.N = 25).symm
  obtain ⟨e0, e1⟩ := idx3_13 ⟨(i 0).val / 4000, ht⟩
  have e0' : win3_13.index ⟨(i 0).val / 4000, ht⟩ (0 : Fin 2) = (i 0).val / 4000 := e0
  refine ⟨⟨(i 0).val / 4000, ht⟩, flush3_13 _, ?_⟩
  rw [mem_blk3]
  intro a
  match a with
  | ⟨0, _⟩ =>
    show win3_13.index ⟨(i 0).val / 4000, ht⟩ (0 : Fin 2) * 4000 ≤ (i 0).val
      ∧ (i 0).val < win3_13.index ⟨(i 0).val / 4000, ht⟩ (0 : Fin 2) * 4000 + 4000
    omega
  | ⟨1, _⟩ =>
    show win3_13.index ⟨(i 0).val / 4000, ht⟩ (1 : Fin 2) * 1 ≤ (i 1).val
      ∧ (i 1).val < win3_13.index ⟨(i 0).val / 4000, ht⟩ (1 : Fin 2) * 1 + 1
    omega

end Head

/-- After the last launch the result array holds the last update followed by the output head, of every row. -/
theorem arr3 (c : Dev nD) :
    (dat3 (F := Ideal) V c).arrAt 13 cfg3.N
      = Cert.Spec.outArr (E := 100000) (V c main_v68) (V c main_v83) (V c main_v12) (V c main_v85) (V c main_v87)
          (V c main_v89) (V c main_v91) (V c main_v93) (V c main_v95) (V c main_arg11) (V c main_arg12) (V c main_arg13)
          (V c main_arg14) :=
  (dat3 (F := Ideal) V c).arrAt_eq_of_cover 13 _ (fun t _ => Head.flushed3_eq V c t) Head.cover3

end Cert.KernelIdeal.Arr

end
-- ==== Proof.RefProj.lean ====
import proofs.«422472_j45698452030097_3_alg».proof.Proof.RefStages
import proofs.«422472_j45698452030097_3_alg».proof.Proof.Spec
import Idealize.ShloMosaic.PureOps.Ideal.Laws
import Idealize.ShloMosaic.Lib.Pipeline.Value
import Idealize.ShloMosaic.Lib.ValueIdx

noncomputable section

namespace Cert.ReferenceIdeal.RefSpec

open Idealize.ShloMosaic Idealize.ShloMosaic.ValueIdx Cert.ReferenceIdeal Cert.ReferenceIdeal.Stages

/-- The reference's first nine operations compute the edge projection of every row. -/
theorem proj_eq (x0 : FVec Ideal S100000x16 .f32) (x1 : FVec Ideal S16x128 .f32) (x2 : FVec Ideal S128 .f32) (x3 : FVec Ideal S128x128 .f32) (x4 : FVec Ideal S128 .f32) :
    val_main_v8 (F := Ideal) x0 x1 x2 x3 x4 = Cert.Spec.projArr (E := 100000) x0 x1 x2 x3 x4 := by
  -- Compare the two arrays at one entry: row `r`, column `j`.
  funext i
  obtain ⟨r, j, rfl⟩ : ∃ (r : Fin 100000) (j : Fin 128), i = ix2 r j := ⟨i 0, i 1, eq_ix2 i⟩
  -- The entry of the last sum is the second contraction (over `k : Fin 128`) plus the second bias at column `j`.
  rw [Cert.Spec.projArr_ix2, val_main_v8_apply, val_main_v5_apply, val_main_v7_apply, val_main_v6_apply]
  -- Under that contraction, the entry `(r, k)` of the rectified first layer: the maximum with the zero literal of
  -- the first contraction (over `k' : Fin 16`) plus the first bias at column `k`.
  simp only [val_main_v4_apply, val_main_v3_apply, val_main_v0_apply, val_main_v2_apply, val_main_v1_apply,
    val_main_call0_v0_apply, val_main_call0_cst_apply]
  -- The entries read: the first contraction reads `x0` at `(r, k')` and `x1` at `(k', k)`; the first bias is read at
  -- `k`; the second contraction reads `x3` at `(k, j)`; the second bias is read at `j`.
  have e1 : ∀ (k : Fin 128) (k' : Fin 16), lidx_main_v0 (lidx_main_v5 (ix2 r j) k) k' = ix2 r k' := fun k k' =>
    funext fun a => Fin.ext (by match a with | ⟨0, _⟩ => rfl | ⟨1, _⟩ => rfl)
  have e2 : ∀ (k : Fin 128) (k' : Fin 16), ridx_main_v0 (lidx_main_v5 (ix2 r j) k) k' = ix2 k' k := fun k k' =>
    funext fun a => Fin.ext (by match a with | ⟨0, _⟩ => rfl | ⟨1, _⟩ => rfl)
  have e3 : ∀ (k : Fin 128), idx_main_v1 (idx_main_v2 (lidx_main_v5 (ix2 r j) k)) = ix1 k := fun k =>
    funext fun a => Fin.ext (by match a with | ⟨0, _⟩ => rfl)
  have e4 : ∀ (k : Fin 128), ridx_main_v5 (ix2 r j) k = ix2 k j := fun k =>
    funext fun a => Fin.ext (by match a with | ⟨0, _⟩ => rfl | ⟨1, _⟩ => rfl)
  have e5 : idx_main_v6 (idx_main_v7 (ix2 r j)) = ix1 j :=
    funext fun a => Fin.ext (by match a with | ⟨0, _⟩ => rfl)
  simp only [e1, e2, e3, e4, e5]
  -- Both sides are now the same expression: on the extended reals the float sum, product and maximum are `+`, `*`
  -- and `max`, and the row functions unfold to exactly these two nested sums.
  rfl

end Cert.ReferenceIdeal.RefSpec

end
-- ==== Proof.RefLayer.lean ====
import proofs.«422472_j45698452030097_3_alg».proof.Proof.RefStages
import proofs.«422472_j45698452030097_3_alg».proof.Proof.Spec
import Idealize.ShloMosaic.PureOps.Ideal.Laws
import Idealize.ShloMosaic.Lib.Pipeline.Value
import Idealize.ShloMosaic.Lib.ValueIdx

noncomputable section

namespace Cert.ReferenceIdeal.RefSpec

open Idealize.ShloMosaic Idealize.ShloMosaic.ValueIdx Cert.ReferenceIdeal Cert.ReferenceIdeal.Stages
open Cert.ReferenceIdeal.Gen Idealize.ShloMosaic.TcCoe Idealize.SL.Sem Idealize.ShloMosaic.StableHlo
open scoped BigOperators

/-! ## One layer of the reference over arbitrary operands

The three message-passing layers are the same operations on different operands. They are written here once, at the
level of whole arrays, with the operands as variables. -/

/-- A row of 128 values repeated down all rows of the array. -/
def rowsOf (b : FVec Ideal S128 .f32) : FVec Ideal S100000x128 .f32 :=
  broadcastInDim S100000x128 ![0, 1] bcast_S1x128_S100000x128_0_1 (broadcastInDim S1x128 ![1] bcast_S128_S1x128_1 b)

/-- A column repeated across the 128 columns of the array. -/
def colsOf (c : FVec Ideal S100000x1 .f32) : FVec Ideal S100000x128 .f32 :=
  broadcastInDim S100000x128 ![0, 1] bcast_S100000x1_S100000x128_0_1 c

/-- A float literal in every entry of a column. -/
def splatCol (w : BitVec 32) : FVec Ideal S100000x1 .f32 :=
  broadcastInDim S100000x1 ![] bcast_S_S100000x1 (constant (F := Ideal) S_ .f32 w)

/-- The column of row sums: each row added up from the literal zero. -/
def rowSums (y : FVec Ideal S100000x128 .f32) : FVec Ideal S100000x1 .f32 :=
  broadcastInDim S100000x1 ![0] bcast_S100000_S100000x1_0
    (Host.reduceAdd y (constant (F := Ideal) S_ .f32 0x00000000#32) reducesTo_S100000x128_S100000_d1 h_S_)

/-- The column of row means: the row sums divided by the literal 128. -/
def meanCol (y : FVec Ideal S100000x128 .f32) : FVec Ideal S100000x1 .f32 :=
  Host.divf (rowSums y) (splatCol 0x43000000#32)

/-- The hidden activations of the update network: the first dense layer on the concatenation of the state and the
    scaled messages, then the rectifier. -/
def hidR (h agg : FVec Ideal S100000x128 .f32) (invc : FVec Ideal S100000x1 .f32) (w1 : FVec Ideal S256x128 .f32)
    (b1 : FVec Ideal S128 .f32) : FVec Ideal S100000x128 .f32 :=
  maximumf
    (addf
      (Host.dotGeneral dot_S100000x256_S256x128_S100000x128_1_0_0_1_n_n none
        (concatenate S100000x256 1 [⟨S100000x128, h⟩, ⟨S100000x128, mulf agg (colsOf invc)⟩]
          concatenates_S100000x128_S100000x128_S100000x256_d1) w1)
      (rowsOf b1))
    (broadcastInDim S100000x128 ![] bcast_S_S100000x128 (constant (F := Ideal) S_ .f32 0x00000000#32))

/-- The residual sum: the state plus the second dense layer of the hidden activations. -/
def hsR (h agg : FVec Ideal S100000x128 .f32) (invc : FVec Ideal S100000x1 .f32) (w1 : FVec Ideal S256x128 .f32)
    (b1 : FVec Ideal S128 .f32) (w2 : FVec Ideal S128x128 .f32) (b2 : FVec Ideal S128 .f32) : FVec Ideal S100000x128 .f32 :=
  addf h (addf (Host.dotGeneral dot_S100000x128_S128x128_S100000x128_1_0_0_1_n_n none (hidR h agg invc w1 b1) w2) (rowsOf b2))

/-- The deviation of every entry from its row's mean. -/
def devR (y : FVec Ideal S100000x128 .f32) : FVec Ideal S100000x128 .f32 := subf y (colsOf (meanCol y))

/-- Layer normalisation of every row, with gain and bias rows. -/
def lnR (y : FVec Ideal S100000x128 .f32) (g bt : FVec Ideal S128 .f32) : FVec Ideal S100000x128 .f32 :=
  addf
    (mulf (mulf (rowsOf g) (devR y))
      (colsOf (Host.rsqrt (addf (meanCol (mulf (devR y) (devR y))) (splatCol 0x358637BD#32)))))
    (rowsOf bt)

/-- One whole layer. -/
def layerR (h agg : FVec Ideal S100000x128 .f32) (invc : FVec Ideal S100000x1 .f32) (w1 : FVec Ideal S256x128 .f32)
    (b1 : FVec Ideal S128 .f32) (w2 : FVec Ideal S128x128 .f32) (b2 g bt : FVec Ideal S128 .f32) : FVec Ideal S100000x128 .f32 :=
  lnR (hsR h agg invc w1 b1 w2 b2) g bt

/-! ## The layout operations read at an index -/

/-- A repeated row read at `(r, j)` is the row's entry `j`. -/
theorem rowsOf_ix2 (b : FVec Ideal S128 .f32) (r : Fin 100000) (j : Fin 128) : rowsOf b (ix2 r j) = b (ix1 j) := by
  unfold rowsOf
  refine (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A repeated column read at `(r, j)` is the column's entry `r`. -/
theorem colsOf_ix2 (c : FVec Ideal S100000x1 .f32) (r : Fin 100000) (j : Fin 128) :
    colsOf c (ix2 r j) = c (ix2 r (0 : Fin 1)) := by
  unfold colsOf
  exact broadcastInDim_apply _ bcast_S100000x1_S100000x128_0_1 c (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A literal column holds the literal everywhere. -/
theorem splatCol_apply (w : BitVec 32) (i : S100000x1.Idx) : splatCol w i = Ideal.ofBits .f32 w := by
  unfold splatCol
  exact broadcastInDim_apply _ bcast_S_S100000x1 _ i (fun a => a.elim0) (fun a => a.elim0)

/-- The literal zero array holds the literal zero everywhere. -/
theorem zeros_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 _ i (fun a => a.elim0) (fun a => a.elim0)

/-- The row sums column at `r` is the sum of row `r`: the literal zero is the neutral element of the sum. -/
theorem rowSums_ix2 (y : FVec Ideal S100000x128 .f32) (r : Fin 100000) :
    rowSums y (ix2 r (0 : Fin 1)) = ∑ k : Fin 128, y (ix2 r k) := by
  unfold rowSums
  refine (broadcastInDim_apply _ bcast_S100000_S100000x1_0 _ (ix2 r (0 : Fin 1)) (ix1 r) (fun a => match a with
    | ⟨0, _⟩ => by show r.val = if (100000 : Nat) = 1 then 0 else r.val; rw [if_neg (by decide)])).trans ?_
  simp only [Host.reduceAdd, Ideal.hostReduceAdd_def]
  rw [Ideal.hostReduceAdd_single reducesTo_S100000x128_S100000_d1 (by decide)]
  refine (congrArg (· + _) ((constant_apply _ _).trans Ideal.ofBits_zero_f32)).trans ((zero_add _).trans ?_)
  refine Finset.sum_congr rfl fun k _ => ?_
  exact congrArg y (funext fun a => Fin.ext (by match a with | ⟨0, _⟩ => rfl | ⟨1, _⟩ => rfl))

/-- The mean column at `r` is the mean of row `r`. -/
theorem meanCol_ix2 (y : FVec Ideal S100000x128 .f32) (r : Fin 100000) :
    meanCol y (ix2 r (0 : Fin 1)) = Cert.Spec.mean (fun k => y (ix2 r k)) := by
  show Ideal.div (rowSums y (ix2 r (0 : Fin 1))) (splatCol 0x43000000#32 (ix2 r (0 : Fin 1))) = _
  rw [rowSums_ix2, splatCol_apply]
  rfl

/-- The deviation at `(r, k)` is the entry less the mean of its row. -/
theorem devR_ix2 (y : FVec Ideal S100000x128 .f32) (r : Fin 100000) (k : Fin 128) :
    devR y (ix2 r k) = y (ix2 r k) - Cert.Spec.mean (fun k => y (ix2 r k)) := by
  show y (ix2 r k) - colsOf (meanCol y) (ix2 r k) = _
  rw [colsOf_ix2, meanCol_ix2]

/-- Layer normalisation of the array at `(r, j)` is the layer normalisation of row `r` at `j`. -/
theorem lnR_ix2 (y : FVec Ideal S100000x128 .f32) (g bt : FVec Ideal S128 .f32) (r : Fin 100000) (j : Fin 128) :
    lnR y g bt (ix2 r j) = Cert.Spec.rowLN (fun k => y (ix2 r k)) g bt j := by
  show rowsOf g (ix2 r j) * devR y (ix2 r j)
      * colsOf (Host.rsqrt (addf (meanCol (mulf (devR y) (devR y))) (splatCol 0x358637BD#32))) (ix2 r j)
      + rowsOf bt (ix2 r j) = _
  rw [rowsOf_ix2, rowsOf_ix2, colsOf_ix2, devR_ix2]
  show _ * _ * Ideal.rsqrt (meanCol (mulf (devR y) (devR y)) (ix2 r (0 : Fin 1)) + splatCol 0x358637BD#32 (ix2 r (0 : Fin 1))) + _ = _
  rw [meanCol_ix2, splatCol_apply]
  have e : (fun k => mulf (devR y) (devR y) (ix2 r k))
      = fun k => (y (ix2 r k) - Cert.Spec.mean (fun k => y (ix2 r k))) * (y (ix2 r k) - Cert.Spec.mean (fun k => y (ix2 r k))) :=
    funext fun k => by show devR y (ix2 r k) * devR y (ix2 r k) = _; rw [devR_ix2]
  rw [e]
  rfl

/-! ## The contractions and the concatenation read at an index -/

/-- The first dense layer's contraction at `(r, j)`: the sum over the 256 joined columns of row `r` times column `j` of the weights. -/
theorem dot256_ix2 (y0 : FVec Ideal S100000x256 .f32) (y1 : FVec Ideal S256x128 .f32) (r : Fin 100000) (j : Fin 128) :
    Host.dotGeneral dot_S100000x256_S256x128_S100000x128_1_0_0_1_n_n none y0 y1 (ix2 r j) = ∑ k : Fin 256, y0 (ix2 r k) * y1 (ix2 k j) := by
  simp only [Host.dotGeneral]
  rw [Ideal.dotGeneral_apply, ← Equiv.sum_comp (ValueIdx.contrEquiv1 dot_S100000x256_S256x128_S100000x128_1_0_0_1_n_n 256 rfl rfl).symm]
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx (ix2 r j) ((ValueIdx.contrEquiv1 dot_S100000x256_S256x128_S100000x128_1_0_0_1_n_n 256 rfl rfl).symm k) = ix2 r k := funext fun a => Fin.ext (by
    match a with
    | ⟨0, _⟩ => exact lhs_main_v36_0 _ _
    | ⟨1, _⟩ => exact (lhs_main_v36_1 _ _).trans hk)
  have er : dot_S100000x256_S256x128_S100000x128_1_0_0_1_n_n.rhsIdx (ix2 r j) ((ValueIdx.contrEquiv1 dot_S100000x256_S256x128_S100000x128_1_0_0_1_n_n 256 rfl rfl).symm k) = ix2 k j := funext fun a => Fin.ext (by
    match a with
    | ⟨0, _⟩ => exact (rhs_main_v36_0 _ _).trans hk
    | ⟨1, _⟩ => exact rhs_main_v36_1 _ _)
  rw [el, er]

/-- The second dense layer's contraction at `(r, j)`: the sum over the 128 columns of row `r` times column `j` of the weights. -/
theorem dot128_ix2 (y0 : FVec Ideal S100000x128 .f32) (y1 : FVec Ideal S128x128 .f32) (r : Fin 100000) (j : Fin 128) :
    Host.dotGeneral dot_S100000x128_S128x128_S100000x128_1_0_0_1_n_n none y0 y1 (ix2 r j) = ∑ k : Fin 128, y0 (ix2 r k) * y1 (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact lhs_main_v45_0 _ _
    | ⟨1, _⟩ => exact (lhs_main_v45_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (rhs_main_v45_0 _ _).trans hk
    | ⟨1, _⟩ => exact rhs_main_v45_1 _ _)
  rw [el, er]

/-- The joined array at a column below 128 is the first piece at that column. -/
theorem cat_left (x₁ x₂ : FVec Ideal S100000x128 .f32) (r : Fin 100000) (k : Fin 128) :
    concatenate S100000x256 1 [⟨S100000x128, x₁⟩, ⟨S100000x128, x₂⟩] concatenates_S100000x128_S100000x128_S100000x256_d1
        (ix2 r (⟨k.val, by omega⟩ : Fin 256)) = x₁ (ix2 r k) :=
  concatenate_pair_apply_left 1 x₁ x₂ concatenates_S100000x128_S100000x128_S100000x256_d1 _ rfl (ix2 r k)
    (fun b => match b with | ⟨0, _⟩ => rfl | ⟨1, _⟩ => rfl)

/-- The joined array at column `128 + k` is the second piece at column `k`. -/
theorem cat_right (x₁ x₂ : FVec Ideal S100000x128 .f32) (r : Fin 100000) (k : Fin 128) :
    concatenate S100000x256 1 [⟨S100000x128, x₁⟩, ⟨S100000x128, x₂⟩] concatenates_S100000x128_S100000x128_S100000x256_d1
        (ix2 r (⟨128 + k.val, by omega⟩ : Fin 256)) = x₂ (ix2 r k) :=
  concatenate_pair_apply_right 1 x₁ x₂ concatenates_S100000x128_S100000x128_S100000x256_d1 _ rfl rfl (ix2 r k)
    (fun b hb => match b, hb with | ⟨0, _⟩, _ => rfl | ⟨1, _⟩, hb => absurd rfl hb)
    (by show k.val + 128 = 128 + k.val; omega)

/-- A sum over 256 terms is the sum of its first 128 terms plus the sum of its last 128 terms. -/
theorem sum_fin256 (f : Fin 256 → EReal) :
    ∑ k : Fin 256, f k
      = (∑ k : Fin 128, f (⟨k.val, by omega⟩ : Fin 256)) + (∑ k : Fin 128, f (⟨128 + k.val, by omega⟩ : Fin 256)) :=
  Fin.sum_univ_add (M := EReal) (a := 128) (b := 128) f

/-! ## The layer is the update of every row -/

/-- The hidden activations at `(r, j)`: the 256-term contraction splits into the state's half and the scaled
    messages' half, which are the two half contractions of the row's first dense layer. -/
theorem hidR_ix2 (h agg : FVec Ideal S100000x128 .f32) (invc : FVec Ideal S100000x1 .f32) (w1 : FVec Ideal S256x128 .f32)
    (b1 : FVec Ideal S128 .f32) (r : Fin 100000) (j : Fin 128) :
    hidR h agg invc w1 b1 (ix2 r j)
      = Cert.Spec.relu (Cert.Spec.dense2 (fun k => h (ix2 r k)) (fun k => agg (ix2 r k) * invc (ix2 r (0 : Fin 1))) w1 b1) j := by
  show max (Host.dotGeneral dot_S100000x256_S256x128_S100000x128_1_0_0_1_n_n none
        (concatenate S100000x256 1 [⟨S100000x128, h⟩, ⟨S100000x128, mulf agg (colsOf invc)⟩]
          concatenates_S100000x128_S100000x128_S100000x256_d1) w1 (ix2 r j) + rowsOf b1 (ix2 r j))
      (broadcastInDim S100000x128 ![] bcast_S_S100000x128 (constant (F := Ideal) S_ .f32 0x00000000#32) (ix2 r j)) = _
  rw [dot256_ix2, rowsOf_ix2, zeros_apply, sum_fin256]
  refine congrArg (fun t => max (t + b1 (ix1 j)) Cert.Spec.zero) ?_
  refine congrArg₂ (· + ·) (Finset.sum_congr rfl fun k _ => ?_) (Finset.sum_congr rfl fun k _ => ?_)
  · exact congrArg (· * _) (cat_left _ _ r k)
  · exact congrArg (· * _) ((cat_right _ _ r k).trans (congrArg (agg (ix2 r k) * ·) (colsOf_ix2 invc r k)))

/-- The residual sum at `(r, j)` is the residual sum of row `r` at `j`. -/
theorem hsR_ix2 (h agg : FVec Ideal S100000x128 .f32) (invc : FVec Ideal S100000x1 .f32) (w1 : FVec Ideal S256x128 .f32)
    (b1 : FVec Ideal S128 .f32) (w2 : FVec Ideal S128x128 .f32) (b2 : FVec Ideal S128 .f32) (r : Fin 100000) (j : Fin 128) :
    hsR h agg invc w1 b1 w2 b2 (ix2 r j)
      = Cert.Spec.rowHs (fun k => h (ix2 r k)) (fun k => agg (ix2 r k)) (invc (ix2 r (0 : Fin 1))) w1 b1 w2 b2 j := by
  show h (ix2 r j) + (Host.dotGeneral dot_S100000x128_S128x128_S100000x128_1_0_0_1_n_n none (hidR h agg invc w1 b1) w2 (ix2 r j)
      + rowsOf b2 (ix2 r j)) = _
  rw [dot128_ix2, rowsOf_ix2]
  refine congrArg (fun t => h (ix2 r j) + (t + b2 (ix1 j))) ?_
  exact Finset.sum_congr rfl fun k _ => congrArg (· * _) (hidR_ix2 h agg invc w1 b1 r k)

/-- One layer of the reference over arbitrary operands is the update of every row: the residual sum row by row, then
    its layer normalisation row by row. -/
theorem layerR_eq (h agg : FVec Ideal S100000x128 .f32) (invc : FVec Ideal S100000x1 .f32) (w1 : FVec Ideal S256x128 .f32)
    (b1 : FVec Ideal S128 .f32) (w2 : FVec Ideal S128x128 .f32) (b2 g bt : FVec Ideal S128 .f32) :
    layerR h agg invc w1 b1 w2 b2 g bt = Cert.Spec.updArr (E := 100000) h agg invc w1 b1 w2 b2 g bt := by
  funext i
  obtain ⟨r, j, rfl⟩ : ∃ (r : Fin 100000) (j : Fin 128), i = ix2 r j := ⟨i 0, i 1, eq_ix2 i⟩
  rw [Cert.Spec.updArr_ix2]
  show lnR (hsR h agg invc w1 b1 w2 b2) g bt (ix2 r j) = _
  rw [lnR_ix2]
  have e : (fun k => hsR h agg invc w1 b1 w2 b2 (ix2 r k))
      = Cert.Spec.rowHs (Cert.Spec.row h r) (Cert.Spec.row agg r) (invc (ix2 r (0 : Fin 1))) w1 b1 w2 b2 :=
    funext fun k => hsR_ix2 h agg invc w1 b1 w2 b2 r k
  rw [e]
  rfl

/-! ## The three layers

Each layer's stages are, term for term, `layerR` of that layer's operands, so each statement is `layerR_eq` at those
operands. -/

/-- The reference's first layer is the update of every row. -/
theorem layer1_eq (x0 : FVec Ideal S100000x16 .f32) (x1 : FVec Ideal S16x128 .f32) (x2 : FVec Ideal S128 .f32) (x3 : FVec Ideal S128x128 .f32) (x4 : FVec Ideal S128 .f32) (x5 : FVec Ideal S3x256x128 .f32) (x6 : FVec Ideal S3x128 .f32) (x7 : FVec Ideal S3x128x128 .f32) (x8 x9 x10 : FVec Ideal S3x128 .f32) (x15 x16 : IVec S1600000 32) :
    val_main_v79 (F := Ideal) x0 x1 x2 x3 x4 x5 x6 x7 x8 x9 x10 x15 x16
      = Cert.Spec.updArr (E := 100000) (val_main_v8 (F := Ideal) x0 x1 x2 x3 x4) (val_main_v30 (F := Ideal) x0 x1 x2 x3 x4 x15 x16) (val_main_v20 (F := Ideal) x16)
          (val_main_v35 (F := Ideal) x5) (val_main_v38 (F := Ideal) x6) (val_main_v44 (F := Ideal) x7) (val_main_v47 (F := Ideal) x8)
          (val_main_v53 (F := Ideal) x9) (val_main_v55 (F := Ideal) x10) :=
  layerR_eq (val_main_v8 (F := Ideal) x0 x1 x2 x3 x4) (val_main_v30 (F := Ideal) x0 x1 x2 x3 x4 x15 x16) (val_main_v20 (F := Ideal) x16)
    (val_main_v35 (F := Ideal) x5) (val_main_v38 (F := Ideal) x6) (val_main_v44 (F := Ideal) x7) (val_main_v47 (F := Ideal) x8)
    (val_main_v53 (F := Ideal) x9) (val_main_v55 (F := Ideal) x10)

/-- The reference's second layer is the update of every row. -/
theorem layer2_eq (x0 : FVec Ideal S100000x16 .f32) (x1 : FVec Ideal S16x128 .f32) (x2 : FVec Ideal S128 .f32) (x3 : FVec Ideal S128x128 .f32) (x4 : FVec Ideal S128 .f32) (x5 : FVec Ideal S3x256x128 .f32) (x6 : FVec Ideal S3x128 .f32) (x7 : FVec Ideal S3x128x128 .f32) (x8 x9 x10 : FVec Ideal S3x128 .f32) (x15 x16 : IVec S1600000 32) :
    val_main_v138 (F := Ideal) x0 x1 x2 x3 x4 x5 x6 x7 x8 x9 x10 x15 x16
      = Cert.Spec.updArr (E := 100000) (val_main_v79 (F := Ideal) x0 x1 x2 x3 x4 x5 x6 x7 x8 x9 x10 x15 x16) (val_main_v89 (F := Ideal) x0 x1 x2 x3 x4 x5 x6 x7 x8 x9 x10 x15 x16) (val_main_v20 (F := Ideal) x16)
          (val_main_v94 (F := Ideal) x5) (val_main_v97 (F := Ideal) x6) (val_main_v103 (F := Ideal) x7) (val_main_v106 (F := Ideal) x8)
          (val_main_v112 (F := Ideal) x9) (val_main_v114 (F := Ideal) x10) :=
  layerR_eq (val_main_v79 (F := Ideal) x0 x1 x2 x3 x4 x5 x6 x7 x8 x9 x10 x15 x16) (val_main_v89 (F := Ideal) x0 x1 x2 x3 x4 x5 x6 x7 x8 x9 x10 x15 x16) (val_main_v20 (F := Ideal) x16)
    (val_main_v94 (F := Ideal) x5) (val_main_v97 (F := Ideal) x6) (val_main_v103 (F := Ideal) x7) (val_main_v106 (F := Ideal) x8)
    (val_main_v112 (F := Ideal) x9) (val_main_v114 (F := Ideal) x10)

/-- The reference's third layer is the update of every row. -/
theorem layer3_eq (x0 : FVec Ideal S100000x16 .f32) (x1 : FVec Ideal S16x128 .f32) (x2 : FVec Ideal S128 .f32) (x3 : FVec Ideal S128x128 .f32) (x4 : FVec Ideal S128 .f32) (x5 : FVec Ideal S3x256x128 .f32) (x6 : FVec Ideal S3x128 .f32) (x7 : FVec Ideal S3x128x128 .f32) (x8 x9 x10 : FVec Ideal S3x128 .f32) (x15 x16 : IVec S1600000 32) :
    val_main_v197 (F := Ideal) x0 x1 x2 x3 x4 x5 x6 x7 x8 x9 x10 x15 x16
      = Cert.Spec.updArr (E := 100000) (val_main_v138 (F := Ideal) x0 x1 x2 x3 x4 x5 x6 x7 x8 x9 x10 x15 x16) (val_main_v148 (F := Ideal) x0 x1 x2 x3 x4 x5 x6 x7 x8 x9 x10 x15 x16) (val_main_v20 (F := Ideal) x16)
          (val_main_v153 (F := Ideal) x5) (val_main_v156 (F := Ideal) x6) (val_main_v162 (F := Ideal) x7) (val_main_v165 (F := Ideal) x8)
          (val_main_v171 (F := Ideal) x9) (val_main_v173 (F := Ideal) x10) :=
  layerR_eq (val_main_v138 (F := Ideal) x0 x1 x2 x3 x4 x5 x6 x7 x8 x9 x10 x15 x16) (val_main_v148 (F := Ideal) x0 x1 x2 x3 x4 x5 x6 x7 x8 x9 x10 x15 x16) (val_main_v20 (F := Ideal) x16)
    (val_main_v153 (F := Ideal) x5) (val_main_v156 (F := Ideal) x6) (val_main_v162 (F := Ideal) x7) (val_main_v165 (F := Ideal) x8)
    (val_main_v171 (F := Ideal) x9) (val_main_v173 (F := Ideal) x10)

end Cert.ReferenceIdeal.RefSpec

end
-- ==== Proof.RefHead.lean ====
import proofs.«422472_j45698452030097_3_alg».proof.Proof.RefStages
import proofs.«422472_j45698452030097_3_alg».proof.Proof.Spec
import proofs.«422472_j45698452030097_3_alg».proof.Proof.RefLayer
import Idealize.ShloMosaic.PureOps.Ideal.Laws
import Idealize.ShloMosaic.Lib.Pipeline.Value
import Idealize.ShloMosaic.Lib.ValueIdx

noncomputable section

namespace Cert.ReferenceIdeal.RefSpec

open Idealize.ShloMosaic Idealize.ShloMosaic.ValueIdx Cert.ReferenceIdeal Cert.ReferenceIdeal.Stages

/-- The reference's result is the third update followed by the output head, of every row. -/
theorem out_eq (x0 : FVec Ideal S100000x16 .f32) (x1 : FVec Ideal S16x128 .f32) (x2 : FVec Ideal S128 .f32) (x3 : FVec Ideal S128x128 .f32) (x4 : FVec Ideal S128 .f32) (x5 : FVec Ideal S3x256x128 .f32) (x6 : FVec Ideal S3x128 .f32) (x7 : FVec Ideal S3x128x128 .f32) (x8 x9 x10 : FVec Ideal S3x128 .f32) (x11 : FVec Ideal S128x128 .f32) (x12 : FVec Ideal S128 .f32) (x13 : FVec Ideal S128x1 .f32) (x14 : FVec Ideal S1 .f32) (x15 x16 : IVec S1600000 32) :
    val_main_v206 (F := Ideal) x0 x1 x2 x3 x4 x5 x6 x7 x8 x9 x10 x11 x12 x13 x14 x15 x16
      = Cert.Spec.outArr (E := 100000) (val_main_v138 (F := Ideal) x0 x1 x2 x3 x4 x5 x6 x7 x8 x9 x10 x15 x16) (val_main_v148 (F := Ideal) x0 x1 x2 x3 x4 x5 x6 x7 x8 x9 x10 x15 x16) (val_main_v20 (F := Ideal) x16)
          (val_main_v153 (F := Ideal) x5) (val_main_v156 (F := Ideal) x6) (val_main_v162 (F := Ideal) x7) (val_main_v165 (F := Ideal) x8)
          (val_main_v171 (F := Ideal) x9) (val_main_v173 (F := Ideal) x10) x11 x12 x13 x14 := by
  -- Compare the two arrays at one entry: row `r` of the single output column.
  funext i
  obtain ⟨r, q, rfl⟩ : ∃ (r : Fin 100000) (q : Fin 1), i = ix2 r q := ⟨i 0, i 1, eq_ix2 i⟩
  obtain rfl : q = 0 := Subsingleton.elim _ _
  -- The entry of the last sum is the second contraction (over `k : Fin 128`) plus the one output bias.
  rw [Cert.Spec.outArr_ix2, val_main_v206_apply, val_main_v203_apply, val_main_v205_apply, val_main_v204_apply]
  -- Under that contraction, the entry `(r, k)` of the rectified first layer of the head: the maximum with the zero
  -- literal of the first contraction (over `k' : Fin 128`, against the third update's output) plus the bias at `k`.
  simp only [val_main_v202_apply, val_main_v201_apply, val_main_v198_apply, val_main_v200_apply, val_main_v199_apply,
    val_main_call5_v0_apply, val_main_call5_cst_apply]
  -- The entries read: the first contraction reads the third update's output at `(r, k')` and `x11` at `(k', k)`; the
  -- first bias is read at `k`; the second contraction reads `x13` at `(k, 0)`; the output bias is read at `0`.
  have e1 : ∀ (k : Fin 128) (k' : Fin 128), lidx_main_v198 (lidx_main_v203 (ix2 r (0 : Fin 1)) k) k' = ix2 r k' := fun k k' =>
    funext fun a => Fin.ext (by match a with | ⟨0, _⟩ => rfl | ⟨1, _⟩ => rfl)
  have e2 : ∀ (k : Fin 128) (k' : Fin 128), ridx_main_v198 (lidx_main_v203 (ix2 r (0 : Fin 1)) k) k' = ix2 k' k := fun k k' =>
    funext fun a => Fin.ext (by match a with | ⟨0, _⟩ => rfl | ⟨1, _⟩ => rfl)
  have e3 : ∀ (k : Fin 128), idx_main_v199 (idx_main_v200 (lidx_main_v203 (ix2 r (0 : Fin 1)) k)) = ix1 k := fun k =>
    funext fun a => Fin.ext (by match a with | ⟨0, _⟩ => rfl)
  have e4 : ∀ (k : Fin 128), ridx_main_v203 (ix2 r (0 : Fin 1)) k = ix2 k (0 : Fin 1) := fun k =>
    funext fun a => Fin.ext (by match a with | ⟨0, _⟩ => rfl | ⟨1, _⟩ => rfl)
  have e5 : idx_main_v204 (idx_main_v205 (ix2 r (0 : Fin 1))) = ix1 (0 : Fin 1) :=
    funext fun a => Fin.ext (by match a with | ⟨0, _⟩ => rfl)
  -- The third update's output is the update of every row; its entry `(r, k')` is the updated row `r` at `k'`.
  simp only [e1, e2, e3, e4, e5, layer3_eq, Cert.Spec.updArr_ix2]
  -- Both sides are now the same expression: on the extended reals the float sum, product and maximum are `+`, `*`
  -- and `max`, and the output head unfolds to exactly these two nested sums over the updated row.
  rfl

end Cert.ReferenceIdeal.RefSpec

end
-- ==== Proof.KValue.lean ====
/-
  What the idealized kernel leaves in its result buffer, at the ideal values: the reference's last stage applied to
  the launch contents of the seventeen arguments.

  The chain goes launch by launch. Each launch's output array is the specification's array function of the arrays
  the launch is entered with (the launch's blocks tile the array and each block is the kernel body of that block's
  rows), the reference's matching stage is the same array function of its operands, and the host side has shown
  that the arrays the launch is entered with are the reference's operands: the hidden state the launch before left,
  its summed messages, the reciprocal in-degree column and the layer's weights.
-/
import proofs.«422472_j45698452030097_3_alg».proof.Proof.KHost
import proofs.«422472_j45698452030097_3_alg».proof.Proof.ArrProj
import proofs.«422472_j45698452030097_3_alg».proof.Proof.ArrUpdate
import proofs.«422472_j45698452030097_3_alg».proof.Proof.ArrHead
import proofs.«422472_j45698452030097_3_alg».proof.Proof.RefProj
import proofs.«422472_j45698452030097_3_alg».proof.Proof.RefLayer
import proofs.«422472_j45698452030097_3_alg».proof.Proof.RefHead
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The hidden state the first launch leaves: the edge projection of every row, the reference's stage 8. -/
theorem h0_eq : W1 m ρ c (Proc.devRef .tc main_v0) = Cert.ReferenceIdeal.Stages.val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W1_arr m ρ c 5).trans ?_
  rw [Cert.KernelIdeal.Arr.arr0 (V0 m ρ) c, Cert.ReferenceIdeal.RefSpec.proj_eq]

variable (hdst : ∀ j, IntOp.cmpi .sge (m ((c : Thread nD τ).loc main_arg16) j) 0#32 = 1#1)

include hdst in
/-- The hidden state after the first update is the reference's stage 79. -/
theorem h1_eq : W5 m ρ c (Proc.devRef .tc main_v40) = Cert.ReferenceIdeal.Stages.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) := by
  refine (W5_arr m ρ c 9).trans ?_
  rw [Cert.KernelIdeal.Arr.arr1 (V4 m ρ) c, Cert.ReferenceIdeal.RefSpec.layer1_eq, agg1R, h0_kept m ρ c,
    agg1_eq m ρ c hdst, h0_eq m ρ c, invc_eq m ρ c, main_v29_eq m ρ c, main_v31_eq m ρ c, main_v33_eq m ρ c, main_v35_eq m ρ c, main_v37_eq m ρ c, main_v39_eq m ρ c]

include hdst in
/-- The hidden state after the second update is the reference's stage 138. -/
theorem h2_eq : W7 m ρ c (Proc.devRef .tc main_v68) = Cert.ReferenceIdeal.Stages.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) := by
  refine (W7_arr m ρ c 9).trans ?_
  rw [Cert.KernelIdeal.Arr.arr2 (V6 m ρ) c, Cert.ReferenceIdeal.RefSpec.layer2_eq, agg2R, h1_kept m ρ c,
    agg2_eq m ρ c hdst, h1_eq m ρ c hdst, invc_kept2 m ρ c, invc_eq m ρ c, main_v57_eq m ρ c, main_v59_eq m ρ c, main_v61_eq m ρ c, main_v63_eq m ρ c, main_v65_eq m ρ c, main_v67_eq m ρ c]

include hdst in
/-- The result buffer after the last launch is the reference's last stage. -/
theorem result_eq : W9 m ρ c (Proc.devRef .tc main_v96) = Cert.ReferenceIdeal.Stages.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W9_arr m ρ c 13).trans ?_
  rw [Cert.KernelIdeal.Arr.arr3 (V8 m ρ) c, Cert.ReferenceIdeal.RefSpec.out_eq, agg3R, h2_kept m ρ c,
    agg3_eq m ρ c hdst, h2_eq m ρ c hdst, invc_kept3 m ρ c, invc_kept2 m ρ c, invc_eq m ρ c, main_v85_eq m ρ c, main_v87_eq m ρ c, main_v89_eq m ρ c, main_v91_eq m ρ c, main_v93_eq m ρ c, main_v95_eq m ρ c,
    (head_args m ρ c).1, (head_args m ρ c).2.1, (head_args m ρ c).2.2.1, (head_args m ρ c).2.2.2]

end Cert.KernelIdeal.Net

end
-- ==== Proof.RefResult.lean ====
/-
  The reference's result, read piece by piece.

  The reference is a straight line of 249 host operations, each writing one buffer of its own, and `after ops W` is what
  the buffers hold once the operations have run, in order, from contents `W`. The stages' module names, for each
  operation, the value it writes as a function of the arguments of @main (`val_main_vN`). This module shows that the
  result buffer `%206` ends at `val_main_v206` of the arguments' contents and that every argument ends as it began.

  The line is cut into nine consecutive pieces. Running a concatenation of lists is running the first list and then the
  second from what the first left (`after_append`), so the whole line is the nine pieces in turn. For one piece the
  claim is: from ANY contents `V` that hold, at the few buffers the piece reads from earlier pieces, the stages of
  `W`'s arguments, and that agree with `W` at the arguments the piece reads, the piece's one buffer that later pieces
  read holds its stage of `W`'s arguments. Inside a piece each operation's result is replaced by its function applied
  to its operands' contents, every shared intermediate once; what is left is the stage's own definition unfolded down
  to the piece's inputs, which is the same term.

  Where the cuts fall. The edge projection (to `%8`), the reciprocal in-degree column (to `%20`), the output head
  (from `%198`) and the three updates are the natural pieces, and each update is cut once more, just before its
  joining operation (`%33`, `%92`, `%151`: the hidden state and the scaled messages side by side). That operation
  takes its two operands inside a list of pairs of a shape and an array over that shape, with a proof about the list
  beside it; an operand sitting there is not reached when results are replaced operand by operand. With the cut just
  before it, its two operands are contents of the piece's INPUT — no operation of the piece stands between them and
  `V` —, so nothing has to be replaced there, and their stages are put in by rewriting all occurrences of `V` at those
  two buffers at once.

  What a piece does not write it keeps (`keepK_…`): the arguments are written by no operation, and an intermediate
  buffer is written by one operation only. These carry each piece's hypotheses from the pieces before it, and, chained
  through all nine pieces, give the seventeen arguments unchanged.
-/
import proofs.«422472_j45698452030097_3_alg».proof.Proof.RefRun
import proofs.«422472_j45698452030097_3_alg».proof.Proof.RefStages
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ### The nine pieces -/

/-- Piece 1, operations 0 … 10: the edge projection, ending at `%8`. -/
abbrev piece1 : List (HloOp τ sig (Elt F)) :=
  [ binary main_arg0 main_arg1 main_v0 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v3) (TRef.of (T := ⟨S100000x128, .f32⟩) main_call0_v0) (TRef.of (T := ⟨S100000x128, .f32⟩) main_v4) maximumf,
    binary main_v4 main_arg3 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)) ]

/-- Piece 2, operations 11 … 30: the reciprocal in-degree column, ending at `%20`. -/
abbrev piece2 : List (HloOp τ sig (Elt F)) :=
  [ nullary main_cst (constant S_ .f32 0x3F800000#32),
    unary main_cst main_v9 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_arg16 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v15 (broadcastInDim S100000 ![] bcast_S_S100000 : (⟨S_, .f32⟩ : BufTy).Contents (Elt F) → (⟨S100000, .f32⟩ : BufTy).Contents (Elt F)),
    binary main_v12 main_v15 main_v16 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v17 (broadcastInDim S100000 ![] bcast_S_S100000 : (⟨S_, .f32⟩ : BufTy).Contents (Elt F) → (⟨S100000, .f32⟩ : BufTy).Contents (Elt F)),
    binary main_v17 main_v16 main_v18 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v14) (TRef.of (T := ⟨S100000, .f32⟩) main_v18) (TRef.of (T := ⟨S100000, .f32⟩) main_call1_v1) (TRef.of (T := ⟨S100000, .f32⟩) main_v19) select,
    unary main_v19 main_v20 (broadcastInDim S100000x1 ![0] bcast_S100000_S100000x1_0 : (⟨S100000, .f32⟩ : BufTy).Contents (Elt F) → (⟨S100000x1, .f32⟩ : BufTy).Contents (Elt F)) ]

/-- Piece 3, operations 31 … 45: the scaled neighbour messages of update 1, ending at `%32`. -/
abbrev piece3 : List (HloOp τ sig (Elt F)) :=
  [ nullary main_c (constantI S_ 32 0#32),
    unary main_c main_v21 (broadcastInDim S1600000 ![] bcast_S_S1600000 : (⟨S_, .i32⟩ : BufTy).Contents (Elt F) → (⟨S1600000, .i32⟩ : BufTy).Contents (Elt F)),
    binary main_arg15 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v23 (broadcastInDim S1600000 ![] bcast_S_S1600000 : (⟨S_, .i32⟩ : BufTy).Contents (Elt F) → (⟨S1600000, .i32⟩ : BufTy).Contents (Elt F)),
    binary main_arg15 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg15 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v8 main_v26 main_v27 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v28 (broadcastInDim S100000x128 ![] bcast_S_S100000x128 : (⟨S_, .f32⟩ : BufTy).Contents (Elt F) → (⟨S100000x128, .f32⟩ : BufTy).Contents (Elt F)),
    unary main_arg16 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v20 main_v31 (broadcastInDim S100000x128 ![0, 1] bcast_S100000x1_S100000x128_0_1 : (⟨S100000x1, .f32⟩ : BufTy).Contents (Elt F) → (⟨S100000x128, .f32⟩ : BufTy).Contents (Elt F)),
    binary main_v30 main_v31 main_v32 (mulf : (⟨S100000x128, .f32⟩ : BufTy).Contents (Elt F) → (⟨S100000x128, .f32⟩ : BufTy).Contents (Elt F) → (⟨S100000x128, .f32⟩ : BufTy).Contents (Elt F)) ]

/-- Piece 4, operations 46 … 99: update 1 from the joined row on, ending at `%79`. -/
abbrev piece4 : List (HloOp τ sig (Elt F)) :=
  [ binary main_v8 main_v32 main_v33 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg5 main_v34 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v34 main_v35 rfl shapeCasts_S1x256x128_S256x128,
    binary main_v33 main_v35 main_v36 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v37 ((extractStridedSlice S1x128 ![0, 0] · slices_S3x128_S1x128_0_0) : (⟨S3x128, .f32⟩ : BufTy).Contents (Elt F) → (⟨S1x128, .f32⟩ : BufTy).Contents (Elt F)),
    reshape main_v37 main_v38 rfl shapeCasts_S1x128_S128,
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v36 main_v40 main_v41 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v41) (TRef.of (T := ⟨S100000x128, .f32⟩) main_call2_v0) (TRef.of (T := ⟨S100000x128, .f32⟩) main_v42) maximumf,
    unary main_arg7 main_v43 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v43 main_v44 rfl shapeCasts_S1x128x128_S128x128,
    binary main_v42 main_v44 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v45 main_v49 main_v50 (addf : (⟨S100000x128, .f32⟩ : BufTy).Contents (Elt F) → (⟨S100000x128, .f32⟩ : BufTy).Contents (Elt F) → (⟨S100000x128, .f32⟩ : BufTy).Contents (Elt F)),
    binary main_v8 main_v50 main_v51 (addf : (⟨S100000x128, .f32⟩ : BufTy).Contents (Elt F) → (⟨S100000x128, .f32⟩ : BufTy).Contents (Elt F) → (⟨S100000x128, .f32⟩ : BufTy).Contents (Elt F)),
    unary main_arg9 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_arg10 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128,
    nullary main_cst_7 (constant S_ .f32 0x00000000#32),
    binary main_v51 main_cst_7 main_v56 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_8 (constant S_ .f32 0x43000000#32),
    unary main_cst_8 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v59 main_v60 (broadcastInDim S100000x128 ![0, 1] bcast_S100000x1_S100000x128_0_1 : (⟨S100000x1, .f32⟩ : BufTy).Contents (Elt F) → (⟨S100000x128, .f32⟩ : BufTy).Contents (Elt F)),
    binary main_v51 main_v60 main_v61 (subf : (⟨S100000x128, .f32⟩ : BufTy).Contents (Elt F) → (⟨S100000x128, .f32⟩ : BufTy).Contents (Elt F) → (⟨S100000x128, .f32⟩ : BufTy).Contents (Elt F)),
    binary main_v61 main_v61 main_v62 (mulf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v62 main_cst_9 main_v63 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v63 main_v64 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v65 (broadcastInDim S100000x1 ![] bcast_S_S100000x1 : (⟨S_, .f32⟩ : BufTy).Contents (Elt F) → (⟨S100000x1, .f32⟩ : BufTy).Contents (Elt F)),
    binary main_v64 main_v65 main_v66 (Host.divf : (⟨S100000x1, .f32⟩ : BufTy).Contents (Elt F) → (⟨S100000x1, .f32⟩ : BufTy).Contents (Elt F) → (⟨S100000x1, .f32⟩ : BufTy).Contents (Elt F)),
    unary main_v59 main_v67 (broadcastInDim S100000x128 ![0, 1] bcast_S100000x1_S100000x128_0_1 : (⟨S100000x1, .f32⟩ : BufTy).Contents (Elt F) → (⟨S100000x128, .f32⟩ : BufTy).Contents (Elt F)),
    binary main_v51 main_v67 main_v68 (subf : (⟨S100000x128, .f32⟩ : BufTy).Contents (Elt F) → (⟨S100000x128, .f32⟩ : BufTy).Contents (Elt F) → (⟨S100000x128, .f32⟩ : BufTy).Contents (Elt F)),
    unary main_v53 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v70 main_v68 main_v71 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x358637BD#32),
    unary main_cst_11 main_v72 (broadcastInDim S100000x1 ![] bcast_S_S100000x1 : (⟨S_, .f32⟩ : BufTy).Contents (Elt F) → (⟨S100000x1, .f32⟩ : BufTy).Contents (Elt F)),
    binary main_v66 main_v72 main_v73 (addf : (⟨S100000x1, .f32⟩ : BufTy).Contents (Elt F) → (⟨S100000x1, .f32⟩ : BufTy).Contents (Elt F) → (⟨S100000x1, .f32⟩ : BufTy).Contents (Elt F)),
    unary main_v73 main_v74 (Host.rsqrt : (⟨S100000x1, .f32⟩ : BufTy).Contents (Elt F) → (⟨S100000x1, .f32⟩ : BufTy).Contents (Elt F)),
    unary main_v74 main_v75 (broadcastInDim S100000x128 ![0, 1] bcast_S100000x1_S100000x128_0_1 : (⟨S100000x1, .f32⟩ : BufTy).Contents (Elt F) → (⟨S100000x128, .f32⟩ : BufTy).Contents (Elt F)),
    binary main_v71 main_v75 main_v76 (mulf : (⟨S100000x128, .f32⟩ : BufTy).Contents (Elt F) → (⟨S100000x128, .f32⟩ : BufTy).Contents (Elt F) → (⟨S100000x128, .f32⟩ : BufTy).Contents (Elt F)),
    unary main_v55 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)) ]

/-- Piece 5, operations 100 … 114: the scaled neighbour messages of update 2, ending at `%91`. -/
abbrev piece5 : List (HloOp τ sig (Elt F)) :=
  [ nullary main_c_12 (constantI S_ 32 0#32),
    unary main_c_12 main_v80 (broadcastInDim S1600000 ![] bcast_S_S1600000 : (⟨S_, .i32⟩ : BufTy).Contents (Elt F) → (⟨S1600000, .i32⟩ : BufTy).Contents (Elt F)),
    binary main_arg15 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v82 (broadcastInDim S1600000 ![] bcast_S_S1600000 : (⟨S_, .i32⟩ : BufTy).Contents (Elt F) → (⟨S1600000, .i32⟩ : BufTy).Contents (Elt F)),
    binary main_arg15 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_arg15 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v79 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v87 (broadcastInDim S100000x128 ![] bcast_S_S100000x128 : (⟨S_, .f32⟩ : BufTy).Contents (Elt F) → (⟨S100000x128, .f32⟩ : BufTy).Contents (Elt F)),
    unary main_arg16 main_v88 (broadcastInDim S1600000x1 ![0] bcast_S1600000_S1600000x1_0 : (⟨S1600000, .i32⟩ : BufTy).Contents (Elt F) → (⟨S1600000x1, .i32⟩ : BufTy).Contents (Elt F)),
    ternary main_v87 main_v88 main_v86 main_v89 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v20 main_v90 (broadcastInDim S100000x128 ![0, 1] bcast_S100000x1_S100000x128_0_1 : (⟨S100000x1, .f32⟩ : BufTy).Contents (Elt F) → (⟨S100000x128, .f32⟩ : BufTy).Contents (Elt F)),
    binary main_v89 main_v90 main_v91 (mulf : (⟨S100000x128, .f32⟩ : BufTy).Contents (Elt F) → (⟨S100000x128, .f32⟩ : BufTy).Contents (Elt F) → (⟨S100000x128, .f32⟩ : BufTy).Contents (Elt F)) ]

/-- Piece 6, operations 115 … 168: update 2 from the joined row on, ending at `%138`. -/
abbrev piece6 : List (HloOp τ sig (Elt F)) :=
  [ binary main_v79 main_v91 main_v92 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg5 main_v93 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v93 main_v94 rfl shapeCasts_S1x256x128_S256x128,
    binary main_v92 main_v94 main_v95 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v96 ((extractStridedSlice S1x128 ![1, 0] · slices_S3x128_S1x128_1_0) : (⟨S3x128, .f32⟩ : BufTy).Contents (Elt F) → (⟨S1x128, .f32⟩ : BufTy).Contents (Elt F)),
    reshape main_v96 main_v97 rfl shapeCasts_S1x128_S128,
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S100000x128 ![0, 1] bcast_S1x128_S100000x128_0_1 : (⟨S1x128, .f32⟩ : BufTy).Contents (Elt F) → (⟨S100000x128, .f32⟩ : BufTy).Contents (Elt F)),
    binary main_v95 main_v99 main_v100 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v100) (TRef.of (T := ⟨S100000x128, .f32⟩) main_call3_v0) (TRef.of (T := ⟨S100000x128, .f32⟩) main_v101) maximumf,
    unary main_arg7 main_v102 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v102 main_v103 rfl shapeCasts_S1x128x128_S128x128,
    binary main_v101 main_v103 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v104 main_v108 main_v109 (addf : (⟨S100000x128, .f32⟩ : BufTy).Contents (Elt F) → (⟨S100000x128, .f32⟩ : BufTy).Contents (Elt F) → (⟨S100000x128, .f32⟩ : BufTy).Contents (Elt F)),
    binary main_v79 main_v109 main_v110 (addf : (⟨S100000x128, .f32⟩ : BufTy).Contents (Elt F) → (⟨S100000x128, .f32⟩ : BufTy).Contents (Elt F) → (⟨S100000x128, .f32⟩ : BufTy).Contents (Elt F)),
    unary main_arg9 main_v111 ((extractStridedSlice S1x128 ![1, 0] · slices_S3x128_S1x128_1_0) : (⟨S3x128, .f32⟩ : BufTy).Contents (Elt F) → (⟨S1x128, .f32⟩ : BufTy).Contents (Elt F)),
    reshape main_v111 main_v112 rfl shapeCasts_S1x128_S128,
    unary main_arg10 main_v113 ((extractStridedSlice S1x128 ![1, 0] · slices_S3x128_S1x128_1_0) : (⟨S3x128, .f32⟩ : BufTy).Contents (Elt F) → (⟨S1x128, .f32⟩ : BufTy).Contents (Elt F)),
    reshape main_v113 main_v114 rfl shapeCasts_S1x128_S128,
    nullary main_cst_15 (constant S_ .f32 0x00000000#32),
    binary main_v110 main_cst_15 main_v115 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v115 main_v116 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v117 (broadcastInDim S100000x1 ![] bcast_S_S100000x1 : (⟨S_, .f32⟩ : BufTy).Contents (Elt F) → (⟨S100000x1, .f32⟩ : BufTy).Contents (Elt F)),
    binary main_v116 main_v117 main_v118 (Host.divf : (⟨S100000x1, .f32⟩ : BufTy).Contents (Elt F) → (⟨S100000x1, .f32⟩ : BufTy).Contents (Elt F) → (⟨S100000x1, .f32⟩ : BufTy).Contents (Elt F)),
    unary main_v118 main_v119 (broadcastInDim S100000x128 ![0, 1] bcast_S100000x1_S100000x128_0_1 : (⟨S100000x1, .f32⟩ : BufTy).Contents (Elt F) → (⟨S100000x128, .f32⟩ : BufTy).Contents (Elt F)),
    binary main_v110 main_v119 main_v120 (subf : (⟨S100000x128, .f32⟩ : BufTy).Contents (Elt F) → (⟨S100000x128, .f32⟩ : BufTy).Contents (Elt F) → (⟨S100000x128, .f32⟩ : BufTy).Contents (Elt F)),
    binary main_v120 main_v120 main_v121 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v121 main_cst_17 main_v122 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v124 (broadcastInDim S100000x1 ![] bcast_S_S100000x1 : (⟨S_, .f32⟩ : BufTy).Contents (Elt F) → (⟨S100000x1, .f32⟩ : BufTy).Contents (Elt F)),
    binary main_v123 main_v124 main_v125 (Host.divf : (⟨S100000x1, .f32⟩ : BufTy).Contents (Elt F) → (⟨S100000x1, .f32⟩ : BufTy).Contents (Elt F) → (⟨S100000x1, .f32⟩ : BufTy).Contents (Elt F)),
    unary main_v118 main_v126 (broadcastInDim S100000x128 ![0, 1] bcast_S100000x1_S100000x128_0_1 : (⟨S100000x1, .f32⟩ : BufTy).Contents (Elt F) → (⟨S100000x128, .f32⟩ : BufTy).Contents (Elt F)),
    binary main_v110 main_v126 main_v127 (subf : (⟨S100000x128, .f32⟩ : BufTy).Contents (Elt F) → (⟨S100000x128, .f32⟩ : BufTy).Contents (Elt F) → (⟨S100000x128, .f32⟩ : BufTy).Contents (Elt F)),
    unary main_v112 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v129 main_v127 main_v130 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x358637BD#32),
    unary main_cst_19 main_v131 (broadcastInDim S100000x1 ![] bcast_S_S100000x1 : (⟨S_, .f32⟩ : BufTy).Contents (Elt F) → (⟨S100000x1, .f32⟩ : BufTy).Contents (Elt F)),
    binary main_v125 main_v131 main_v132 (addf : (⟨S100000x1, .f32⟩ : BufTy).Contents (Elt F) → (⟨S100000x1, .f32⟩ : BufTy).Contents (Elt F) → (⟨S100000x1, .f32⟩ : BufTy).Contents (Elt F)),
    unary main_v132 main_v133 (Host.rsqrt : (⟨S100000x1, .f32⟩ : BufTy).Contents (Elt F) → (⟨S100000x1, .f32⟩ : BufTy).Contents (Elt F)),
    unary main_v133 main_v134 (broadcastInDim S100000x128 ![0, 1] bcast_S100000x1_S100000x128_0_1 : (⟨S100000x1, .f32⟩ : BufTy).Contents (Elt F) → (⟨S100000x128, .f32⟩ : BufTy).Contents (Elt F)),
    binary main_v130 main_v134 main_v135 (mulf : (⟨S100000x128, .f32⟩ : BufTy).Contents (Elt F) → (⟨S100000x128, .f32⟩ : BufTy).Contents (Elt F) → (⟨S100000x128, .f32⟩ : BufTy).Contents (Elt F)),
    unary main_v114 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v135 main_v137 main_v138 (addf : (⟨S100000x128, .f32⟩ : BufTy).Contents (Elt F) → (⟨S100000x128, .f32⟩ : BufTy).Contents (Elt F) → (⟨S100000x128, .f32⟩ : BufTy).Contents (Elt F)) ]

/-- Piece 7, operations 169 … 183: the scaled neighbour messages of update 3, ending at `%150`. -/
abbrev piece7 : List (HloOp τ sig (Elt F)) :=
  [ nullary main_c_20 (constantI S_ 32 0#32),
    unary main_c_20 main_v139 (broadcastInDim S1600000 ![] bcast_S_S1600000 : (⟨S_, .i32⟩ : BufTy).Contents (Elt F) → (⟨S1600000, .i32⟩ : BufTy).Contents (Elt F)),
    binary main_arg15 main_v139 main_v140 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v141 (broadcastInDim S1600000 ![] bcast_S_S1600000 : (⟨S_, .i32⟩ : BufTy).Contents (Elt F) → (⟨S1600000, .i32⟩ : BufTy).Contents (Elt F)),
    binary main_arg15 main_v141 main_v142 (addi : (⟨S1600000, .i32⟩ : BufTy).Contents (Elt F) → (⟨S1600000, .i32⟩ : BufTy).Contents (Elt F) → (⟨S1600000, .i32⟩ : BufTy).Contents (Elt F)),
    ternary main_v140 main_v142 main_arg15 main_v143 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v143 main_v144 (broadcastInDim S1600000x1 ![0] bcast_S1600000_S1600000x1_0 : (⟨S1600000, .i32⟩ : BufTy).Contents (Elt F) → (⟨S1600000x1, .i32⟩ : BufTy).Contents (Elt F)),
    binary main_v138 main_v144 main_v145 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v146 (broadcastInDim S100000x128 ![] bcast_S_S100000x128 : (⟨S_, .f32⟩ : BufTy).Contents (Elt F) → (⟨S100000x128, .f32⟩ : BufTy).Contents (Elt F)),
    unary main_arg16 main_v147 (broadcastInDim S1600000x1 ![0] bcast_S1600000_S1600000x1_0 : (⟨S1600000, .i32⟩ : BufTy).Contents (Elt F) → (⟨S1600000x1, .i32⟩ : BufTy).Contents (Elt F)),
    ternary main_v146 main_v147 main_v145 main_v148 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v20 main_v149 (broadcastInDim S100000x128 ![0, 1] bcast_S100000x1_S100000x128_0_1 : (⟨S100000x1, .f32⟩ : BufTy).Contents (Elt F) → (⟨S100000x128, .f32⟩ : BufTy).Contents (Elt F)),
    binary main_v148 main_v149 main_v150 (mulf : (⟨S100000x128, .f32⟩ : BufTy).Contents (Elt F) → (⟨S100000x128, .f32⟩ : BufTy).Contents (Elt F) → (⟨S100000x128, .f32⟩ : BufTy).Contents (Elt F)) ]

/-- Piece 8, operations 184 … 237: update 3 from the joined row on, ending at `%197`. -/
abbrev piece8 : List (HloOp τ sig (Elt F)) :=
  [ binary main_v138 main_v150 main_v151 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg5 main_v152 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v152 main_v153 rfl shapeCasts_S1x256x128_S256x128,
    binary main_v151 main_v153 main_v154 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v155 ((extractStridedSlice S1x128 ![2, 0] · slices_S3x128_S1x128_2_0) : (⟨S3x128, .f32⟩ : BufTy).Contents (Elt F) → (⟨S1x128, .f32⟩ : BufTy).Contents (Elt F)),
    reshape main_v155 main_v156 rfl shapeCasts_S1x128_S128,
    unary main_v156 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v154 main_v158 main_v159 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v159) (TRef.of (T := ⟨S100000x128, .f32⟩) main_call4_v0) (TRef.of (T := ⟨S100000x128, .f32⟩) main_v160) maximumf,
    unary main_arg7 main_v161 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v161 main_v162 rfl shapeCasts_S1x128x128_S128x128,
    binary main_v160 main_v162 main_v163 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v164 ((extractStridedSlice S1x128 ![2, 0] · slices_S3x128_S1x128_2_0) : (⟨S3x128, .f32⟩ : BufTy).Contents (Elt F) → (⟨S1x128, .f32⟩ : BufTy).Contents (Elt F)),
    reshape main_v164 main_v165 rfl shapeCasts_S1x128_S128,
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S100000x128 ![0, 1] bcast_S1x128_S100000x128_0_1 : (⟨S1x128, .f32⟩ : BufTy).Contents (Elt F) → (⟨S100000x128, .f32⟩ : BufTy).Contents (Elt F)),
    binary main_v163 main_v167 main_v168 (addf : (⟨S100000x128, .f32⟩ : BufTy).Contents (Elt F) → (⟨S100000x128, .f32⟩ : BufTy).Contents (Elt F) → (⟨S100000x128, .f32⟩ : BufTy).Contents (Elt F)),
    binary main_v138 main_v168 main_v169 (addf : (⟨S100000x128, .f32⟩ : BufTy).Contents (Elt F) → (⟨S100000x128, .f32⟩ : BufTy).Contents (Elt F) → (⟨S100000x128, .f32⟩ : BufTy).Contents (Elt F)),
    unary main_arg9 main_v170 ((extractStridedSlice S1x128 ![2, 0] · slices_S3x128_S1x128_2_0) : (⟨S3x128, .f32⟩ : BufTy).Contents (Elt F) → (⟨S1x128, .f32⟩ : BufTy).Contents (Elt F)),
    reshape main_v170 main_v171 rfl shapeCasts_S1x128_S128,
    unary main_arg10 main_v172 ((extractStridedSlice S1x128 ![2, 0] · slices_S3x128_S1x128_2_0) : (⟨S3x128, .f32⟩ : BufTy).Contents (Elt F) → (⟨S1x128, .f32⟩ : BufTy).Contents (Elt F)),
    reshape main_v172 main_v173 rfl shapeCasts_S1x128_S128,
    nullary main_cst_23 (constant S_ .f32 0x00000000#32),
    binary main_v169 main_cst_23 main_v174 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v174 main_v175 (broadcastInDim S100000x1 ![0] bcast_S100000_S100000x1_0 : (⟨S100000, .f32⟩ : BufTy).Contents (Elt F) → (⟨S100000x1, .f32⟩ : BufTy).Contents (Elt F)),
    nullary main_cst_24 (constant S_ .f32 0x43000000#32),
    unary main_cst_24 main_v176 (broadcastInDim S100000x1 ![] bcast_S_S100000x1 : (⟨S_, .f32⟩ : BufTy).Contents (Elt F) → (⟨S100000x1, .f32⟩ : BufTy).Contents (Elt F)),
    binary main_v175 main_v176 main_v177 (Host.divf : (⟨S100000x1, .f32⟩ : BufTy).Contents (Elt F) → (⟨S100000x1, .f32⟩ : BufTy).Contents (Elt F) → (⟨S100000x1, .f32⟩ : BufTy).Contents (Elt F)),
    unary main_v177 main_v178 (broadcastInDim S100000x128 ![0, 1] bcast_S100000x1_S100000x128_0_1 : (⟨S100000x1, .f32⟩ : BufTy).Contents (Elt F) → (⟨S100000x128, .f32⟩ : BufTy).Contents (Elt F)),
    binary main_v169 main_v178 main_v179 (subf : (⟨S100000x128, .f32⟩ : BufTy).Contents (Elt F) → (⟨S100000x128, .f32⟩ : BufTy).Contents (Elt F) → (⟨S100000x128, .f32⟩ : BufTy).Contents (Elt F)),
    binary main_v179 main_v179 main_v180 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v180 main_cst_25 main_v181 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v181 main_v182 (broadcastInDim S100000x1 ![0] bcast_S100000_S100000x1_0 : (⟨S100000, .f32⟩ : BufTy).Contents (Elt F) → (⟨S100000x1, .f32⟩ : BufTy).Contents (Elt F)),
    nullary main_cst_26 (constant S_ .f32 0x43000000#32),
    unary main_cst_26 main_v183 (broadcastInDim S100000x1 ![] bcast_S_S100000x1 : (⟨S_, .f32⟩ : BufTy).Contents (Elt F) → (⟨S100000x1, .f32⟩ : BufTy).Contents (Elt F)),
    binary main_v182 main_v183 main_v184 (Host.divf : (⟨S100000x1, .f32⟩ : BufTy).Contents (Elt F) → (⟨S100000x1, .f32⟩ : BufTy).Contents (Elt F) → (⟨S100000x1, .f32⟩ : BufTy).Contents (Elt F)),
    unary main_v177 main_v185 (broadcastInDim S100000x128 ![0, 1] bcast_S100000x1_S100000x128_0_1 : (⟨S100000x1, .f32⟩ : BufTy).Contents (Elt F) → (⟨S100000x128, .f32⟩ : BufTy).Contents (Elt F)),
    binary main_v169 main_v185 main_v186 (subf : (⟨S100000x128, .f32⟩ : BufTy).Contents (Elt F) → (⟨S100000x128, .f32⟩ : BufTy).Contents (Elt F) → (⟨S100000x128, .f32⟩ : BufTy).Contents (Elt F)),
    unary main_v171 main_v187 (broadcastInDim S1x128 ![1] bcast_S128_S1x128_1 : (⟨S128, .f32⟩ : BufTy).Contents (Elt F) → (⟨S1x128, .f32⟩ : BufTy).Contents (Elt F)),
    unary main_v187 main_v188 (broadcastInDim S100000x128 ![0, 1] bcast_S1x128_S100000x128_0_1 : (⟨S1x128, .f32⟩ : BufTy).Contents (Elt F) → (⟨S100000x128, .f32⟩ : BufTy).Contents (Elt F)),
    binary main_v188 main_v186 main_v189 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x358637BD#32),
    unary main_cst_27 main_v190 (broadcastInDim S100000x1 ![] bcast_S_S100000x1 : (⟨S_, .f32⟩ : BufTy).Contents (Elt F) → (⟨S100000x1, .f32⟩ : BufTy).Contents (Elt F)),
    binary main_v184 main_v190 main_v191 (addf : (⟨S100000x1, .f32⟩ : BufTy).Contents (Elt F) → (⟨S100000x1, .f32⟩ : BufTy).Contents (Elt F) → (⟨S100000x1, .f32⟩ : BufTy).Contents (Elt F)),
    unary main_v191 main_v192 (Host.rsqrt : (⟨S100000x1, .f32⟩ : BufTy).Contents (Elt F) → (⟨S100000x1, .f32⟩ : BufTy).Contents (Elt F)),
    unary main_v192 main_v193 (broadcastInDim S100000x128 ![0, 1] bcast_S100000x1_S100000x128_0_1 : (⟨S100000x1, .f32⟩ : BufTy).Contents (Elt F) → (⟨S100000x128, .f32⟩ : BufTy).Contents (Elt F)),
    binary main_v189 main_v193 main_v194 (mulf : (⟨S100000x128, .f32⟩ : BufTy).Contents (Elt F) → (⟨S100000x128, .f32⟩ : BufTy).Contents (Elt F) → (⟨S100000x128, .f32⟩ : BufTy).Contents (Elt F)),
    unary main_v173 main_v195 (broadcastInDim S1x128 ![1] bcast_S128_S1x128_1 : (⟨S128, .f32⟩ : BufTy).Contents (Elt F) → (⟨S1x128, .f32⟩ : BufTy).Contents (Elt F)),
    unary main_v195 main_v196 (broadcastInDim S100000x128 ![0, 1] bcast_S1x128_S100000x128_0_1 : (⟨S1x128, .f32⟩ : BufTy).Contents (Elt F) → (⟨S100000x128, .f32⟩ : BufTy).Contents (Elt F)),
    binary main_v194 main_v196 main_v197 (addf : (⟨S100000x128, .f32⟩ : BufTy).Contents (Elt F) → (⟨S100000x128, .f32⟩ : BufTy).Contents (Elt F) → (⟨S100000x128, .f32⟩ : BufTy).Contents (Elt F)) ]

/-- Piece 9, operations 238 … 248: the output head, ending at the result `%206`. -/
abbrev piece9 : List (HloOp τ sig (Elt F)) :=
  [ binary main_v197 main_arg11 main_v198 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v199 (broadcastInDim S1x128 ![1] bcast_S128_S1x128_1 : (⟨S128, .f32⟩ : BufTy).Contents (Elt F) → (⟨S1x128, .f32⟩ : BufTy).Contents (Elt F)),
    unary main_v199 main_v200 (broadcastInDim S100000x128 ![0, 1] bcast_S1x128_S100000x128_0_1 : (⟨S1x128, .f32⟩ : BufTy).Contents (Elt F) → (⟨S100000x128, .f32⟩ : BufTy).Contents (Elt F)),
    binary main_v198 main_v200 main_v201 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v201) (TRef.of (T := ⟨S100000x128, .f32⟩) main_call5_v0) (TRef.of (T := ⟨S100000x128, .f32⟩) main_v202) maximumf,
    binary main_v202 main_arg13 main_v203 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg14 main_v204 (broadcastInDim S1x1 ![1] bcast_S1_S1x1_1 : (⟨S1, .f32⟩ : BufTy).Contents (Elt F) → (⟨S1x1, .f32⟩ : BufTy).Contents (Elt F)),
    unary main_v204 main_v205 (broadcastInDim S100000x1 ![0, 1] bcast_S1x1_S100000x1_0_1 : (⟨S1x1, .f32⟩ : BufTy).Contents (Elt F) → (⟨S100000x1, .f32⟩ : BufTy).Contents (Elt F)),
    binary main_v203 main_v205 main_v206 (addf : (⟨S100000x1, .f32⟩ : BufTy).Contents (Elt F) → (⟨S100000x1, .f32⟩ : BufTy).Contents (Elt F) → (⟨S100000x1, .f32⟩ : BufTy).Contents (Elt F)) ]

/-- Running a concatenation is running the first list, then the second from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ### Each piece read on its own -/

set_option maxRecDepth 8192 in
set_option maxHeartbeats 4000000 in
/-- After piece 1, from any contents `W`, `%8` holds the stage `val_main_v8` of `W`'s arguments. -/
theorem read1 (W : Valuation τ sig (Elt F)) :
    after piece1 W (Proc.devRef .tc main_v8) = Cert.ReferenceIdeal.Stages.val_main_v8 (F := F) (W (Proc.devRef .tc main_arg0)) (W (Proc.devRef .tc main_arg1)) (W (Proc.devRef .tc main_arg2)) (W (Proc.devRef .tc main_arg3)) (W (Proc.devRef .tc main_arg4)) := by
  after_results_simp
  rfl

set_option maxRecDepth 8192 in
set_option maxHeartbeats 4000000 in
/-- After piece 2, from contents that agree with `W` at the destination indices, `%20` holds its stage. -/
theorem read2 (W V : Valuation τ sig (Elt F))
    (h_arg16 : V (Proc.devRef .tc main_arg16) = W (Proc.devRef .tc main_arg16)) :
    after piece2 V (Proc.devRef .tc main_v20) = Cert.ReferenceIdeal.Stages.val_main_v20 (F := F) (W (Proc.devRef .tc main_arg16)) := by
  after_results_simp
  simp only [h_arg16]
  rfl

set_option maxRecDepth 8192 in
set_option maxHeartbeats 4000000 in
/-- After piece 3, from contents that hold the hidden state `%8` and the column `%20` as their stages of `W`'s arguments and agree with `W` at the two index arguments, `%32` holds its stage. -/
theorem read3 (W V : Valuation τ sig (Elt F))
    (h_arg15 : V (Proc.devRef .tc main_arg15) = W (Proc.devRef .tc main_arg15))
    (h_v8 : V (Proc.devRef .tc main_v8) = Cert.ReferenceIdeal.Stages.val_main_v8 (F := F) (W (Proc.devRef .tc main_arg0)) (W (Proc.devRef .tc main_arg1)) (W (Proc.devRef .tc main_arg2)) (W (Proc.devRef .tc main_arg3)) (W (Proc.devRef .tc main_arg4)))
    (h_arg16 : V (Proc.devRef .tc main_arg16) = W (Proc.devRef .tc main_arg16))
    (h_v20 : V (Proc.devRef .tc main_v20) = Cert.ReferenceIdeal.Stages.val_main_v20 (F := F) (W (Proc.devRef .tc main_arg16))) :
    after piece3 V (Proc.devRef .tc main_v32) = Cert.ReferenceIdeal.Stages.val_main_v32 (F := F) (W (Proc.devRef .tc main_arg0)) (W (Proc.devRef .tc main_arg1)) (W (Proc.devRef .tc main_arg2)) (W (Proc.devRef .tc main_arg3)) (W (Proc.devRef .tc main_arg4)) (W (Proc.devRef .tc main_arg15)) (W (Proc.devRef .tc main_arg16)) := by
  after_results_simp
  simp only [h_arg15, h_v8, h_arg16, h_v20]
  rfl

set_option maxRecDepth 8192 in
set_option maxHeartbeats 4000000 in
/-- After piece 4, from contents that hold `%8` and `%32` as their stages and agree with `W` at the update's weights, `%79` holds its stage. The two operands of the joining operation are the piece's own input contents, so their stages are put in by rewriting every occurrence at once. -/
theorem read4 (W V : Valuation τ sig (Elt F))
    (h_v8 : V (Proc.devRef .tc main_v8) = Cert.ReferenceIdeal.Stages.val_main_v8 (F := F) (W (Proc.devRef .tc main_arg0)) (W (Proc.devRef .tc main_arg1)) (W (Proc.devRef .tc main_arg2)) (W (Proc.devRef .tc main_arg3)) (W (Proc.devRef .tc main_arg4)))
    (h_v32 : V (Proc.devRef .tc main_v32) = Cert.ReferenceIdeal.Stages.val_main_v32 (F := F) (W (Proc.devRef .tc main_arg0)) (W (Proc.devRef .tc main_arg1)) (W (Proc.devRef .tc main_arg2)) (W (Proc.devRef .tc main_arg3)) (W (Proc.devRef .tc main_arg4)) (W (Proc.devRef .tc main_arg15)) (W (Proc.devRef .tc main_arg16)))
    (h_arg5 : V (Proc.devRef .tc main_arg5) = W (Proc.devRef .tc main_arg5))
    (h_arg6 : V (Proc.devRef .tc main_arg6) = W (Proc.devRef .tc main_arg6))
    (h_arg7 : V (Proc.devRef .tc main_arg7) = W (Proc.devRef .tc main_arg7))
    (h_arg8 : V (Proc.devRef .tc main_arg8) = W (Proc.devRef .tc main_arg8))
    (h_arg9 : V (Proc.devRef .tc main_arg9) = W (Proc.devRef .tc main_arg9))
    (h_arg10 : V (Proc.devRef .tc main_arg10) = W (Proc.devRef .tc main_arg10)) :
    after piece4 V (Proc.devRef .tc main_v79) = Cert.ReferenceIdeal.Stages.val_main_v79 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)) := by
  after_results_simp
  rw [h_v8, h_v32]
  simp only [h_arg5, h_arg6, h_arg7, h_arg8, h_arg9, h_arg10]
  rfl

set_option maxRecDepth 8192 in
set_option maxHeartbeats 4000000 in
/-- After piece 5, as for piece 3 with the hidden state `%79`: `%91` holds its stage. -/
theorem read5 (W V : Valuation τ sig (Elt F))
    (h_arg15 : V (Proc.devRef .tc main_arg15) = W (Proc.devRef .tc main_arg15))
    (h_v79 : V (Proc.devRef .tc main_v79) = Cert.ReferenceIdeal.Stages.val_main_v79 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_arg16 : V (Proc.devRef .tc main_arg16) = W (Proc.devRef .tc main_arg16))
    (h_v20 : V (Proc.devRef .tc main_v20) = Cert.ReferenceIdeal.Stages.val_main_v20 (F := F) (W (Proc.devRef .tc main_arg16))) :
    after piece5 V (Proc.devRef .tc main_v91) = Cert.ReferenceIdeal.Stages.val_main_v91 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)) := by
  after_results_simp
  simp only [h_arg15, h_v79, h_arg16, h_v20]
  rfl

set_option maxRecDepth 8192 in
set_option maxHeartbeats 4000000 in
/-- After piece 6, as for piece 4 with `%79` and `%91`: `%138` holds its stage. -/
theorem read6 (W V : Valuation τ sig (Elt F))
    (h_v79 : V (Proc.devRef .tc main_v79) = Cert.ReferenceIdeal.Stages.val_main_v79 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_v91 : V (Proc.devRef .tc main_v91) = Cert.ReferenceIdeal.Stages.val_main_v91 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_arg5 : V (Proc.devRef .tc main_arg5) = W (Proc.devRef .tc main_arg5))
    (h_arg6 : V (Proc.devRef .tc main_arg6) = W (Proc.devRef .tc main_arg6))
    (h_arg7 : V (Proc.devRef .tc main_arg7) = W (Proc.devRef .tc main_arg7))
    (h_arg8 : V (Proc.devRef .tc main_arg8) = W (Proc.devRef .tc main_arg8))
    (h_arg9 : V (Proc.devRef .tc main_arg9) = W (Proc.devRef .tc main_arg9))
    (h_arg10 : V (Proc.devRef .tc main_arg10) = W (Proc.devRef .tc main_arg10)) :
    after piece6 V (Proc.devRef .tc main_v138) = Cert.ReferenceIdeal.Stages.val_main_v138 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)) := by
  after_results_simp
  rw [h_v79, h_v91]
  simp only [h_arg5, h_arg6, h_arg7, h_arg8, h_arg9, h_arg10]
  rfl

set_option maxRecDepth 8192 in
set_option maxHeartbeats 4000000 in
/-- After piece 7, as for piece 3 with the hidden state `%138`: `%150` holds its stage. -/
theorem read7 (W V : Valuation τ sig (Elt F))
    (h_arg15 : V (Proc.devRef .tc main_arg15) = W (Proc.devRef .tc main_arg15))
    (h_v138 : V (Proc.devRef .tc main_v138) = Cert.ReferenceIdeal.Stages.val_main_v138 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_arg16 : V (Proc.devRef .tc main_arg16) = W (Proc.devRef .tc main_arg16))
    (h_v20 : V (Proc.devRef .tc main_v20) = Cert.ReferenceIdeal.Stages.val_main_v20 (F := F) (W (Proc.devRef .tc main_arg16))) :
    after piece7 V (Proc.devRef .tc main_v150) = Cert.ReferenceIdeal.Stages.val_main_v150 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)) := by
  after_results_simp
  simp only [h_arg15, h_v138, h_arg16, h_v20]
  rfl

set_option maxRecDepth 8192 in
set_option maxHeartbeats 4000000 in
/-- After piece 8, as for piece 4 with `%138` and `%150`: `%197` holds its stage. -/
theorem read8 (W V : Valuation τ sig (Elt F))
    (h_v138 : V (Proc.devRef .tc main_v138) = Cert.ReferenceIdeal.Stages.val_main_v138 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_v150 : V (Proc.devRef .tc main_v150) = Cert.ReferenceIdeal.Stages.val_main_v150 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_arg5 : V (Proc.devRef .tc main_arg5) = W (Proc.devRef .tc main_arg5))
    (h_arg6 : V (Proc.devRef .tc main_arg6) = W (Proc.devRef .tc main_arg6))
    (h_arg7 : V (Proc.devRef .tc main_arg7) = W (Proc.devRef .tc main_arg7))
    (h_arg8 : V (Proc.devRef .tc main_arg8) = W (Proc.devRef .tc main_arg8))
    (h_arg9 : V (Proc.devRef .tc main_arg9) = W (Proc.devRef .tc main_arg9))
    (h_arg10 : V (Proc.devRef .tc main_arg10) = W (Proc.devRef .tc main_arg10)) :
    after piece8 V (Proc.devRef .tc main_v197) = Cert.ReferenceIdeal.Stages.val_main_v197 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)) := by
  after_results_simp
  rw [h_v138, h_v150]
  simp only [h_arg5, h_arg6, h_arg7, h_arg8, h_arg9, h_arg10]
  rfl

set_option maxRecDepth 8192 in
set_option maxHeartbeats 4000000 in
/-- After piece 9, from contents that hold `%197` as its stage and agree with `W` at the head's weights, the result `%206` holds the last stage. -/
theorem read9 (W V : Valuation τ sig (Elt F))
    (h_v197 : V (Proc.devRef .tc main_v197) = Cert.ReferenceIdeal.Stages.val_main_v197 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg15)) (W (Proc.devRef .tc main_arg16)))
    (h_arg11 : V (Proc.devRef .tc main_arg11) = W (Proc.devRef .tc main_arg11))
    (h_arg12 : V (Proc.devRef .tc main_arg12) = W (Proc.devRef .tc main_arg12))
    (h_arg13 : V (Proc.devRef .tc main_arg13) = W (Proc.devRef .tc main_arg13))
    (h_arg14 : V (Proc.devRef .tc main_arg14) = W (Proc.devRef .tc main_arg14)) :
    after piece9 V (Proc.devRef .tc main_v206) = Cert.ReferenceIdeal.Stages.val_main_v206 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp
  simp only [h_v197, h_arg11, h_arg12, h_arg13, h_arg14]
  rfl

/-! ### What a piece does not write it keeps

No operation writes an argument, and an intermediate buffer is written once, in its own piece. -/

theorem keep1_arg0 (V : Valuation τ sig (Elt F)) : after piece1 V (Proc.devRef .tc main_arg0) = V (Proc.devRef .tc main_arg0) := by
  after_results_simp <;> rfl
theorem keep2_arg0 (V : Valuation τ sig (Elt F)) : after piece2 V (Proc.devRef .tc main_arg0) = V (Proc.devRef .tc main_arg0) := by
  after_results_simp <;> rfl
theorem keep3_arg0 (V : Valuation τ sig (Elt F)) : after piece3 V (Proc.devRef .tc main_arg0) = V (Proc.devRef .tc main_arg0) := by
  after_results_simp <;> rfl
theorem keep4_arg0 (V : Valuation τ sig (Elt F)) : after piece4 V (Proc.devRef .tc main_arg0) = V (Proc.devRef .tc main_arg0) := by
  after_results_simp <;> rfl
theorem keep5_arg0 (V : Valuation τ sig (Elt F)) : after piece5 V (Proc.devRef .tc main_arg0) = V (Proc.devRef .tc main_arg0) := by
  after_results_simp <;> rfl
theorem keep6_arg0 (V : Valuation τ sig (Elt F)) : after piece6 V (Proc.devRef .tc main_arg0) = V (Proc.devRef .tc main_arg0) := by
  after_results_simp <;> rfl
theorem keep7_arg0 (V : Valuation τ sig (Elt F)) : after piece7 V (Proc.devRef .tc main_arg0) = V (Proc.devRef .tc main_arg0) := by
  after_results_simp <;> rfl
theorem keep8_arg0 (V : Valuation τ sig (Elt F)) : after piece8 V (Proc.devRef .tc main_arg0) = V (Proc.devRef .tc main_arg0) := by
  after_results_simp <;> rfl
theorem keep9_arg0 (V : Valuation τ sig (Elt F)) : after piece9 V (Proc.devRef .tc main_arg0) = V (Proc.devRef .tc main_arg0) := by
  after_results_simp <;> rfl
theorem keep1_arg1 (V : Valuation τ sig (Elt F)) : after piece1 V (Proc.devRef .tc main_arg1) = V (Proc.devRef .tc main_arg1) := by
  after_results_simp <;> rfl
theorem keep2_arg1 (V : Valuation τ sig (Elt F)) : after piece2 V (Proc.devRef .tc main_arg1) = V (Proc.devRef .tc main_arg1) := by
  after_results_simp <;> rfl
theorem keep3_arg1 (V : Valuation τ sig (Elt F)) : after piece3 V (Proc.devRef .tc main_arg1) = V (Proc.devRef .tc main_arg1) := by
  after_results_simp <;> rfl
theorem keep4_arg1 (V : Valuation τ sig (Elt F)) : after piece4 V (Proc.devRef .tc main_arg1) = V (Proc.devRef .tc main_arg1) := by
  after_results_simp <;> rfl
theorem keep5_arg1 (V : Valuation τ sig (Elt F)) : after piece5 V (Proc.devRef .tc main_arg1) = V (Proc.devRef .tc main_arg1) := by
  after_results_simp <;> rfl
theorem keep6_arg1 (V : Valuation τ sig (Elt F)) : after piece6 V (Proc.devRef .tc main_arg1) = V (Proc.devRef .tc main_arg1) := by
  after_results_simp <;> rfl
theorem keep7_arg1 (V : Valuation τ sig (Elt F)) : after piece7 V (Proc.devRef .tc main_arg1) = V (Proc.devRef .tc main_arg1) := by
  after_results_simp <;> rfl
theorem keep8_arg1 (V : Valuation τ sig (Elt F)) : after piece8 V (Proc.devRef .tc main_arg1) = V (Proc.devRef .tc main_arg1) := by
  after_results_simp <;> rfl
theorem keep9_arg1 (V : Valuation τ sig (Elt F)) : after piece9 V (Proc.devRef .tc main_arg1) = V (Proc.devRef .tc main_arg1) := by
  after_results_simp <;> rfl
theorem keep1_arg2 (V : Valuation τ sig (Elt F)) : after piece1 V (Proc.devRef .tc main_arg2) = V (Proc.devRef .tc main_arg2) := by
  after_results_simp <;> rfl
theorem keep2_arg2 (V : Valuation τ sig (Elt F)) : after piece2 V (Proc.devRef .tc main_arg2) = V (Proc.devRef .tc main_arg2) := by
  after_results_simp <;> rfl
theorem keep3_arg2 (V : Valuation τ sig (Elt F)) : after piece3 V (Proc.devRef .tc main_arg2) = V (Proc.devRef .tc main_arg2) := by
  after_results_simp <;> rfl
theorem keep4_arg2 (V : Valuation τ sig (Elt F)) : after piece4 V (Proc.devRef .tc main_arg2) = V (Proc.devRef .tc main_arg2) := by
  after_results_simp <;> rfl
theorem keep5_arg2 (V : Valuation τ sig (Elt F)) : after piece5 V (Proc.devRef .tc main_arg2) = V (Proc.devRef .tc main_arg2) := by
  after_results_simp <;> rfl
theorem keep6_arg2 (V : Valuation τ sig (Elt F)) : after piece6 V (Proc.devRef .tc main_arg2) = V (Proc.devRef .tc main_arg2) := by
  after_results_simp <;> rfl
theorem keep7_arg2 (V : Valuation τ sig (Elt F)) : after piece7 V (Proc.devRef .tc main_arg2) = V (Proc.devRef .tc main_arg2) := by
  after_results_simp <;> rfl
theorem keep8_arg2 (V : Valuation τ sig (Elt F)) : after piece8 V (Proc.devRef .tc main_arg2) = V (Proc.devRef .tc main_arg2) := by
  after_results_simp <;> rfl
theorem keep9_arg2 (V : Valuation τ sig (Elt F)) : after piece9 V (Proc.devRef .tc main_arg2) = V (Proc.devRef .tc main_arg2) := by
  after_results_simp <;> rfl
theorem keep1_arg3 (V : Valuation τ sig (Elt F)) : after piece1 V (Proc.devRef .tc main_arg3) = V (Proc.devRef .tc main_arg3) := by
  after_results_simp <;> rfl
theorem keep2_arg3 (V : Valuation τ sig (Elt F)) : after piece2 V (Proc.devRef .tc main_arg3) = V (Proc.devRef .tc main_arg3) := by
  after_results_simp <;> rfl
theorem keep3_arg3 (V : Valuation τ sig (Elt F)) : after piece3 V (Proc.devRef .tc main_arg3) = V (Proc.devRef .tc main_arg3) := by
  after_results_simp <;> rfl
theorem keep4_arg3 (V : Valuation τ sig (Elt F)) : after piece4 V (Proc.devRef .tc main_arg3) = V (Proc.devRef .tc main_arg3) := by
  after_results_simp <;> rfl
theorem keep5_arg3 (V : Valuation τ sig (Elt F)) : after piece5 V (Proc.devRef .tc main_arg3) = V (Proc.devRef .tc main_arg3) := by
  after_results_simp <;> rfl
theorem keep6_arg3 (V : Valuation τ sig (Elt F)) : after piece6 V (Proc.devRef .tc main_arg3) = V (Proc.devRef .tc main_arg3) := by
  after_results_simp <;> rfl
theorem keep7_arg3 (V : Valuation τ sig (Elt F)) : after piece7 V (Proc.devRef .tc main_arg3) = V (Proc.devRef .tc main_arg3) := by
  after_results_simp <;> rfl
theorem keep8_arg3 (V : Valuation τ sig (Elt F)) : after piece8 V (Proc.devRef .tc main_arg3) = V (Proc.devRef .tc main_arg3) := by
  after_results_simp <;> rfl
theorem keep9_arg3 (V : Valuation τ sig (Elt F)) : after piece9 V (Proc.devRef .tc main_arg3) = V (Proc.devRef .tc main_arg3) := by
  after_results_simp <;> rfl
theorem keep1_arg4 (V : Valuation τ sig (Elt F)) : after piece1 V (Proc.devRef .tc main_arg4) = V (Proc.devRef .tc main_arg4) := by
  after_results_simp <;> rfl
theorem keep2_arg4 (V : Valuation τ sig (Elt F)) : after piece2 V (Proc.devRef .tc main_arg4) = V (Proc.devRef .tc main_arg4) := by
  after_results_simp <;> rfl
theorem keep3_arg4 (V : Valuation τ sig (Elt F)) : after piece3 V (Proc.devRef .tc main_arg4) = V (Proc.devRef .tc main_arg4) := by
  after_results_simp <;> rfl
theorem keep4_arg4 (V : Valuation τ sig (Elt F)) : after piece4 V (Proc.devRef .tc main_arg4) = V (Proc.devRef .tc main_arg4) := by
  after_results_simp <;> rfl
theorem keep5_arg4 (V : Valuation τ sig (Elt F)) : after piece5 V (Proc.devRef .tc main_arg4) = V (Proc.devRef .tc main_arg4) := by
  after_results_simp <;> rfl
theorem keep6_arg4 (V : Valuation τ sig (Elt F)) : after piece6 V (Proc.devRef .tc main_arg4) = V (Proc.devRef .tc main_arg4) := by
  after_results_simp <;> rfl
theorem keep7_arg4 (V : Valuation τ sig (Elt F)) : after piece7 V (Proc.devRef .tc main_arg4) = V (Proc.devRef .tc main_arg4) := by
  after_results_simp <;> rfl
theorem keep8_arg4 (V : Valuation τ sig (Elt F)) : after piece8 V (Proc.devRef .tc main_arg4) = V (Proc.devRef .tc main_arg4) := by
  after_results_simp <;> rfl
theorem keep9_arg4 (V : Valuation τ sig (Elt F)) : after piece9 V (Proc.devRef .tc main_arg4) = V (Proc.devRef .tc main_arg4) := by
  after_results_simp <;> rfl
theorem keep1_arg5 (V : Valuation τ sig (Elt F)) : after piece1 V (Proc.devRef .tc main_arg5) = V (Proc.devRef .tc main_arg5) := by
  after_results_simp <;> rfl
theorem keep2_arg5 (V : Valuation τ sig (Elt F)) : after piece2 V (Proc.devRef .tc main_arg5) = V (Proc.devRef .tc main_arg5) := by
  after_results_simp <;> rfl
theorem keep3_arg5 (V : Valuation τ sig (Elt F)) : after piece3 V (Proc.devRef .tc main_arg5) = V (Proc.devRef .tc main_arg5) := by
  after_results_simp <;> rfl
theorem keep4_arg5 (V : Valuation τ sig (Elt F)) : after piece4 V (Proc.devRef .tc main_arg5) = V (Proc.devRef .tc main_arg5) := by
  after_results_simp <;> rfl
theorem keep5_arg5 (V : Valuation τ sig (Elt F)) : after piece5 V (Proc.devRef .tc main_arg5) = V (Proc.devRef .tc main_arg5) := by
  after_results_simp <;> rfl
theorem keep6_arg5 (V : Valuation τ sig (Elt F)) : after piece6 V (Proc.devRef .tc main_arg5) = V (Proc.devRef .tc main_arg5) := by
  after_results_simp <;> rfl
theorem keep7_arg5 (V : Valuation τ sig (Elt F)) : after piece7 V (Proc.devRef .tc main_arg5) = V (Proc.devRef .tc main_arg5) := by
  after_results_simp <;> rfl
theorem keep8_arg5 (V : Valuation τ sig (Elt F)) : after piece8 V (Proc.devRef .tc main_arg5) = V (Proc.devRef .tc main_arg5) := by
  after_results_simp <;> rfl
theorem keep9_arg5 (V : Valuation τ sig (Elt F)) : after piece9 V (Proc.devRef .tc main_arg5) = V (Proc.devRef .tc main_arg5) := by
  after_results_simp <;> rfl
theorem keep1_arg6 (V : Valuation τ sig (Elt F)) : after piece1 V (Proc.devRef .tc main_arg6) = V (Proc.devRef .tc main_arg6) := by
  after_results_simp <;> rfl
theorem keep2_arg6 (V : Valuation τ sig (Elt F)) : after piece2 V (Proc.devRef .tc main_arg6) = V (Proc.devRef .tc main_arg6) := by
  after_results_simp <;> rfl
theorem keep3_arg6 (V : Valuation τ sig (Elt F)) : after piece3 V (Proc.devRef .tc main_arg6) = V (Proc.devRef .tc main_arg6) := by
  after_results_simp <;> rfl
theorem keep4_arg6 (V : Valuation τ sig (Elt F)) : after piece4 V (Proc.devRef .tc main_arg6) = V (Proc.devRef .tc main_arg6) := by
  after_results_simp <;> rfl
theorem keep5_arg6 (V : Valuation τ sig (Elt F)) : after piece5 V (Proc.devRef .tc main_arg6) = V (Proc.devRef .tc main_arg6) := by
  after_results_simp <;> rfl
theorem keep6_arg6 (V : Valuation τ sig (Elt F)) : after piece6 V (Proc.devRef .tc main_arg6) = V (Proc.devRef .tc main_arg6) := by
  after_results_simp <;> rfl
theorem keep7_arg6 (V : Valuation τ sig (Elt F)) : after piece7 V (Proc.devRef .tc main_arg6) = V (Proc.devRef .tc main_arg6) := by
  after_results_simp <;> rfl
theorem keep8_arg6 (V : Valuation τ sig (Elt F)) : after piece8 V (Proc.devRef .tc main_arg6) = V (Proc.devRef .tc main_arg6) := by
  after_results_simp <;> rfl
theorem keep9_arg6 (V : Valuation τ sig (Elt F)) : after piece9 V (Proc.devRef .tc main_arg6) = V (Proc.devRef .tc main_arg6) := by
  after_results_simp <;> rfl
theorem keep1_arg7 (V : Valuation τ sig (Elt F)) : after piece1 V (Proc.devRef .tc main_arg7) = V (Proc.devRef .tc main_arg7) := by
  after_results_simp <;> rfl
theorem keep2_arg7 (V : Valuation τ sig (Elt F)) : after piece2 V (Proc.devRef .tc main_arg7) = V (Proc.devRef .tc main_arg7) := by
  after_results_simp <;> rfl
theorem keep3_arg7 (V : Valuation τ sig (Elt F)) : after piece3 V (Proc.devRef .tc main_arg7) = V (Proc.devRef .tc main_arg7) := by
  after_results_simp <;> rfl
theorem keep4_arg7 (V : Valuation τ sig (Elt F)) : after piece4 V (Proc.devRef .tc main_arg7) = V (Proc.devRef .tc main_arg7) := by
  after_results_simp <;> rfl
theorem keep5_arg7 (V : Valuation τ sig (Elt F)) : after piece5 V (Proc.devRef .tc main_arg7) = V (Proc.devRef .tc main_arg7) := by
  after_results_simp <;> rfl
theorem keep6_arg7 (V : Valuation τ sig (Elt F)) : after piece6 V (Proc.devRef .tc main_arg7) = V (Proc.devRef .tc main_arg7) := by
  after_results_simp <;> rfl
theorem keep7_arg7 (V : Valuation τ sig (Elt F)) : after piece7 V (Proc.devRef .tc main_arg7) = V (Proc.devRef .tc main_arg7) := by
  after_results_simp <;> rfl
theorem keep8_arg7 (V : Valuation τ sig (Elt F)) : after piece8 V (Proc.devRef .tc main_arg7) = V (Proc.devRef .tc main_arg7) := by
  after_results_simp <;> rfl
theorem keep9_arg7 (V : Valuation τ sig (Elt F)) : after piece9 V (Proc.devRef .tc main_arg7) = V (Proc.devRef .tc main_arg7) := by
  after_results_simp <;> rfl
theorem keep1_arg8 (V : Valuation τ sig (Elt F)) : after piece1 V (Proc.devRef .tc main_arg8) = V (Proc.devRef .tc main_arg8) := by
  after_results_simp <;> rfl
theorem keep2_arg8 (V : Valuation τ sig (Elt F)) : after piece2 V (Proc.devRef .tc main_arg8) = V (Proc.devRef .tc main_arg8) := by
  after_results_simp <;> rfl
theorem keep3_arg8 (V : Valuation τ sig (Elt F)) : after piece3 V (Proc.devRef .tc main_arg8) = V (Proc.devRef .tc main_arg8) := by
  after_results_simp <;> rfl
theorem keep4_arg8 (V : Valuation τ sig (Elt F)) : after piece4 V (Proc.devRef .tc main_arg8) = V (Proc.devRef .tc main_arg8) := by
  after_results_simp <;> rfl
theorem keep5_arg8 (V : Valuation τ sig (Elt F)) : after piece5 V (Proc.devRef .tc main_arg8) = V (Proc.devRef .tc main_arg8) := by
  after_results_simp <;> rfl
theorem keep6_arg8 (V : Valuation τ sig (Elt F)) : after piece6 V (Proc.devRef .tc main_arg8) = V (Proc.devRef .tc main_arg8) := by
  after_results_simp <;> rfl
theorem keep7_arg8 (V : Valuation τ sig (Elt F)) : after piece7 V (Proc.devRef .tc main_arg8) = V (Proc.devRef .tc main_arg8) := by
  after_results_simp <;> rfl
theorem keep8_arg8 (V : Valuation τ sig (Elt F)) : after piece8 V (Proc.devRef .tc main_arg8) = V (Proc.devRef .tc main_arg8) := by
  after_results_simp <;> rfl
theorem keep9_arg8 (V : Valuation τ sig (Elt F)) : after piece9 V (Proc.devRef .tc main_arg8) = V (Proc.devRef .tc main_arg8) := by
  after_results_simp <;> rfl
theorem keep1_arg9 (V : Valuation τ sig (Elt F)) : after piece1 V (Proc.devRef .tc main_arg9) = V (Proc.devRef .tc main_arg9) := by
  after_results_simp <;> rfl
theorem keep2_arg9 (V : Valuation τ sig (Elt F)) : after piece2 V (Proc.devRef .tc main_arg9) = V (Proc.devRef .tc main_arg9) := by
  after_results_simp <;> rfl
theorem keep3_arg9 (V : Valuation τ sig (Elt F)) : after piece3 V (Proc.devRef .tc main_arg9) = V (Proc.devRef .tc main_arg9) := by
  after_results_simp <;> rfl
theorem keep4_arg9 (V : Valuation τ sig (Elt F)) : after piece4 V (Proc.devRef .tc main_arg9) = V (Proc.devRef .tc main_arg9) := by
  after_results_simp <;> rfl
theorem keep5_arg9 (V : Valuation τ sig (Elt F)) : after piece5 V (Proc.devRef .tc main_arg9) = V (Proc.devRef .tc main_arg9) := by
  after_results_simp <;> rfl
theorem keep6_arg9 (V : Valuation τ sig (Elt F)) : after piece6 V (Proc.devRef .tc main_arg9) = V (Proc.devRef .tc main_arg9) := by
  after_results_simp <;> rfl
theorem keep7_arg9 (V : Valuation τ sig (Elt F)) : after piece7 V (Proc.devRef .tc main_arg9) = V (Proc.devRef .tc main_arg9) := by
  after_results_simp <;> rfl
theorem keep8_arg9 (V : Valuation τ sig (Elt F)) : after piece8 V (Proc.devRef .tc main_arg9) = V (Proc.devRef .tc main_arg9) := by
  after_results_simp <;> rfl
theorem keep9_arg9 (V : Valuation τ sig (Elt F)) : after piece9 V (Proc.devRef .tc main_arg9) = V (Proc.devRef .tc main_arg9) := by
  after_results_simp <;> rfl
theorem keep1_arg10 (V : Valuation τ sig (Elt F)) : after piece1 V (Proc.devRef .tc main_arg10) = V (Proc.devRef .tc main_arg10) := by
  after_results_simp <;> rfl
theorem keep2_arg10 (V : Valuation τ sig (Elt F)) : after piece2 V (Proc.devRef .tc main_arg10) = V (Proc.devRef .tc main_arg10) := by
  after_results_simp <;> rfl
theorem keep3_arg10 (V : Valuation τ sig (Elt F)) : after piece3 V (Proc.devRef .tc main_arg10) = V (Proc.devRef .tc main_arg10) := by
  after_results_simp <;> rfl
theorem keep4_arg10 (V : Valuation τ sig (Elt F)) : after piece4 V (Proc.devRef .tc main_arg10) = V (Proc.devRef .tc main_arg10) := by
  after_results_simp <;> rfl
theorem keep5_arg10 (V : Valuation τ sig (Elt F)) : after piece5 V (Proc.devRef .tc main_arg10) = V (Proc.devRef .tc main_arg10) := by
  after_results_simp <;> rfl
theorem keep6_arg10 (V : Valuation τ sig (Elt F)) : after piece6 V (Proc.devRef .tc main_arg10) = V (Proc.devRef .tc main_arg10) := by
  after_results_simp <;> rfl
theorem keep7_arg10 (V : Valuation τ sig (Elt F)) : after piece7 V (Proc.devRef .tc main_arg10) = V (Proc.devRef .tc main_arg10) := by
  after_results_simp <;> rfl
theorem keep8_arg10 (V : Valuation τ sig (Elt F)) : after piece8 V (Proc.devRef .tc main_arg10) = V (Proc.devRef .tc main_arg10) := by
  after_results_simp <;> rfl
theorem keep9_arg10 (V : Valuation τ sig (Elt F)) : after piece9 V (Proc.devRef .tc main_arg10) = V (Proc.devRef .tc main_arg10) := by
  after_results_simp <;> rfl
theorem keep1_arg11 (V : Valuation τ sig (Elt F)) : after piece1 V (Proc.devRef .tc main_arg11) = V (Proc.devRef .tc main_arg11) := by
  after_results_simp <;> rfl
theorem keep2_arg11 (V : Valuation τ sig (Elt F)) : after piece2 V (Proc.devRef .tc main_arg11) = V (Proc.devRef .tc main_arg11) := by
  after_results_simp <;> rfl
theorem keep3_arg11 (V : Valuation τ sig (Elt F)) : after piece3 V (Proc.devRef .tc main_arg11) = V (Proc.devRef .tc main_arg11) := by
  after_results_simp <;> rfl
theorem keep4_arg11 (V : Valuation τ sig (Elt F)) : after piece4 V (Proc.devRef .tc main_arg11) = V (Proc.devRef .tc main_arg11) := by
  after_results_simp <;> rfl
theorem keep5_arg11 (V : Valuation τ sig (Elt F)) : after piece5 V (Proc.devRef .tc main_arg11) = V (Proc.devRef .tc main_arg11) := by
  after_results_simp <;> rfl
theorem keep6_arg11 (V : Valuation τ sig (Elt F)) : after piece6 V (Proc.devRef .tc main_arg11) = V (Proc.devRef .tc main_arg11) := by
  after_results_simp <;> rfl
theorem keep7_arg11 (V : Valuation τ sig (Elt F)) : after piece7 V (Proc.devRef .tc main_arg11) = V (Proc.devRef .tc main_arg11) := by
  after_results_simp <;> rfl
theorem keep8_arg11 (V : Valuation τ sig (Elt F)) : after piece8 V (Proc.devRef .tc main_arg11) = V (Proc.devRef .tc main_arg11) := by
  after_results_simp <;> rfl
theorem keep9_arg11 (V : Valuation τ sig (Elt F)) : after piece9 V (Proc.devRef .tc main_arg11) = V (Proc.devRef .tc main_arg11) := by
  after_results_simp <;> rfl
theorem keep1_arg12 (V : Valuation τ sig (Elt F)) : after piece1 V (Proc.devRef .tc main_arg12) = V (Proc.devRef .tc main_arg12) := by
  after_results_simp <;> rfl
theorem keep2_arg12 (V : Valuation τ sig (Elt F)) : after piece2 V (Proc.devRef .tc main_arg12) = V (Proc.devRef .tc main_arg12) := by
  after_results_simp <;> rfl
theorem keep3_arg12 (V : Valuation τ sig (Elt F)) : after piece3 V (Proc.devRef .tc main_arg12) = V (Proc.devRef .tc main_arg12) := by
  after_results_simp <;> rfl
theorem keep4_arg12 (V : Valuation τ sig (Elt F)) : after piece4 V (Proc.devRef .tc main_arg12) = V (Proc.devRef .tc main_arg12) := by
  after_results_simp <;> rfl
theorem keep5_arg12 (V : Valuation τ sig (Elt F)) : after piece5 V (Proc.devRef .tc main_arg12) = V (Proc.devRef .tc main_arg12) := by
  after_results_simp <;> rfl
theorem keep6_arg12 (V : Valuation τ sig (Elt F)) : after piece6 V (Proc.devRef .tc main_arg12) = V (Proc.devRef .tc main_arg12) := by
  after_results_simp <;> rfl
theorem keep7_arg12 (V : Valuation τ sig (Elt F)) : after piece7 V (Proc.devRef .tc main_arg12) = V (Proc.devRef .tc main_arg12) := by
  after_results_simp <;> rfl
theorem keep8_arg12 (V : Valuation τ sig (Elt F)) : after piece8 V (Proc.devRef .tc main_arg12) = V (Proc.devRef .tc main_arg12) := by
  after_results_simp <;> rfl
theorem keep9_arg12 (V : Valuation τ sig (Elt F)) : after piece9 V (Proc.devRef .tc main_arg12) = V (Proc.devRef .tc main_arg12) := by
  after_results_simp <;> rfl
theorem keep1_arg13 (V : Valuation τ sig (Elt F)) : after piece1 V (Proc.devRef .tc main_arg13) = V (Proc.devRef .tc main_arg13) := by
  after_results_simp <;> rfl
theorem keep2_arg13 (V : Valuation τ sig (Elt F)) : after piece2 V (Proc.devRef .tc main_arg13) = V (Proc.devRef .tc main_arg13) := by
  after_results_simp <;> rfl
theorem keep3_arg13 (V : Valuation τ sig (Elt F)) : after piece3 V (Proc.devRef .tc main_arg13) = V (Proc.devRef .tc main_arg13) := by
  after_results_simp <;> rfl
theorem keep4_arg13 (V : Valuation τ sig (Elt F)) : after piece4 V (Proc.devRef .tc main_arg13) = V (Proc.devRef .tc main_arg13) := by
  after_results_simp <;> rfl
theorem keep5_arg13 (V : Valuation τ sig (Elt F)) : after piece5 V (Proc.devRef .tc main_arg13) = V (Proc.devRef .tc main_arg13) := by
  after_results_simp <;> rfl
theorem keep6_arg13 (V : Valuation τ sig (Elt F)) : after piece6 V (Proc.devRef .tc main_arg13) = V (Proc.devRef .tc main_arg13) := by
  after_results_simp <;> rfl
theorem keep7_arg13 (V : Valuation τ sig (Elt F)) : after piece7 V (Proc.devRef .tc main_arg13) = V (Proc.devRef .tc main_arg13) := by
  after_results_simp <;> rfl
theorem keep8_arg13 (V : Valuation τ sig (Elt F)) : after piece8 V (Proc.devRef .tc main_arg13) = V (Proc.devRef .tc main_arg13) := by
  after_results_simp <;> rfl
theorem keep9_arg13 (V : Valuation τ sig (Elt F)) : after piece9 V (Proc.devRef .tc main_arg13) = V (Proc.devRef .tc main_arg13) := by
  after_results_simp <;> rfl
theorem keep1_arg14 (V : Valuation τ sig (Elt F)) : after piece1 V (Proc.devRef .tc main_arg14) = V (Proc.devRef .tc main_arg14) := by
  after_results_simp <;> rfl
theorem keep2_arg14 (V : Valuation τ sig (Elt F)) : after piece2 V (Proc.devRef .tc main_arg14) = V (Proc.devRef .tc main_arg14) := by
  after_results_simp <;> rfl
theorem keep3_arg14 (V : Valuation τ sig (Elt F)) : after piece3 V (Proc.devRef .tc main_arg14) = V (Proc.devRef .tc main_arg14) := by
  after_results_simp <;> rfl
theorem keep4_arg14 (V : Valuation τ sig (Elt F)) : after piece4 V (Proc.devRef .tc main_arg14) = V (Proc.devRef .tc main_arg14) := by
  after_results_simp <;> rfl
theorem keep5_arg14 (V : Valuation τ sig (Elt F)) : after piece5 V (Proc.devRef .tc main_arg14) = V (Proc.devRef .tc main_arg14) := by
  after_results_simp <;> rfl
theorem keep6_arg14 (V : Valuation τ sig (Elt F)) : after piece6 V (Proc.devRef .tc main_arg14) = V (Proc.devRef .tc main_arg14) := by
  after_results_simp <;> rfl
theorem keep7_arg14 (V : Valuation τ sig (Elt F)) : after piece7 V (Proc.devRef .tc main_arg14) = V (Proc.devRef .tc main_arg14) := by
  after_results_simp <;> rfl
theorem keep8_arg14 (V : Valuation τ sig (Elt F)) : after piece8 V (Proc.devRef .tc main_arg14) = V (Proc.devRef .tc main_arg14) := by
  after_results_simp <;> rfl
theorem keep9_arg14 (V : Valuation τ sig (Elt F)) : after piece9 V (Proc.devRef .tc main_arg14) = V (Proc.devRef .tc main_arg14) := by
  after_results_simp <;> rfl
theorem keep1_arg15 (V : Valuation τ sig (Elt F)) : after piece1 V (Proc.devRef .tc main_arg15) = V (Proc.devRef .tc main_arg15) := by
  after_results_simp <;> rfl
theorem keep2_arg15 (V : Valuation τ sig (Elt F)) : after piece2 V (Proc.devRef .tc main_arg15) = V (Proc.devRef .tc main_arg15) := by
  after_results_simp <;> rfl
theorem keep3_arg15 (V : Valuation τ sig (Elt F)) : after piece3 V (Proc.devRef .tc main_arg15) = V (Proc.devRef .tc main_arg15) := by
  after_results_simp <;> rfl
theorem keep4_arg15 (V : Valuation τ sig (Elt F)) : after piece4 V (Proc.devRef .tc main_arg15) = V (Proc.devRef .tc main_arg15) := by
  after_results_simp <;> rfl
theorem keep5_arg15 (V : Valuation τ sig (Elt F)) : after piece5 V (Proc.devRef .tc main_arg15) = V (Proc.devRef .tc main_arg15) := by
  after_results_simp <;> rfl
theorem keep6_arg15 (V : Valuation τ sig (Elt F)) : after piece6 V (Proc.devRef .tc main_arg15) = V (Proc.devRef .tc main_arg15) := by
  after_results_simp <;> rfl
theorem keep7_arg15 (V : Valuation τ sig (Elt F)) : after piece7 V (Proc.devRef .tc main_arg15) = V (Proc.devRef .tc main_arg15) := by
  after_results_simp <;> rfl
theorem keep8_arg15 (V : Valuation τ sig (Elt F)) : after piece8 V (Proc.devRef .tc main_arg15) = V (Proc.devRef .tc main_arg15) := by
  after_results_simp <;> rfl
theorem keep9_arg15 (V : Valuation τ sig (Elt F)) : after piece9 V (Proc.devRef .tc main_arg15) = V (Proc.devRef .tc main_arg15) := by
  after_results_simp <;> rfl
theorem keep1_arg16 (V : Valuation τ sig (Elt F)) : after piece1 V (Proc.devRef .tc main_arg16) = V (Proc.devRef .tc main_arg16) := by
  after_results_simp <;> rfl
theorem keep2_arg16 (V : Valuation τ sig (Elt F)) : after piece2 V (Proc.devRef .tc main_arg16) = V (Proc.devRef .tc main_arg16) := by
  after_results_simp <;> rfl
theorem keep3_arg16 (V : Valuation τ sig (Elt F)) : after piece3 V (Proc.devRef .tc main_arg16) = V (Proc.devRef .tc main_arg16) := by
  after_results_simp <;> rfl
theorem keep4_arg16 (V : Valuation τ sig (Elt F)) : after piece4 V (Proc.devRef .tc main_arg16) = V (Proc.devRef .tc main_arg16) := by
  after_results_simp <;> rfl
theorem keep5_arg16 (V : Valuation τ sig (Elt F)) : after piece5 V (Proc.devRef .tc main_arg16) = V (Proc.devRef .tc main_arg16) := by
  after_results_simp <;> rfl
theorem keep6_arg16 (V : Valuation τ sig (Elt F)) : after piece6 V (Proc.devRef .tc main_arg16) = V (Proc.devRef .tc main_arg16) := by
  after_results_simp <;> rfl
theorem keep7_arg16 (V : Valuation τ sig (Elt F)) : after piece7 V (Proc.devRef .tc main_arg16) = V (Proc.devRef .tc main_arg16) := by
  after_results_simp <;> rfl
theorem keep8_arg16 (V : Valuation τ sig (Elt F)) : after piece8 V (Proc.devRef .tc main_arg16) = V (Proc.devRef .tc main_arg16) := by
  after_results_simp <;> rfl
theorem keep9_arg16 (V : Valuation τ sig (Elt F)) : after piece9 V (Proc.devRef .tc main_arg16) = V (Proc.devRef .tc main_arg16) := by
  after_results_simp <;> rfl
theorem keep2_v8 (V : Valuation τ sig (Elt F)) : after piece2 V (Proc.devRef .tc main_v8) = V (Proc.devRef .tc main_v8) := by
  after_results_simp <;> rfl
theorem keep3_v8 (V : Valuation τ sig (Elt F)) : after piece3 V (Proc.devRef .tc main_v8) = V (Proc.devRef .tc main_v8) := by
  after_results_simp <;> rfl
theorem keep3_v20 (V : Valuation τ sig (Elt F)) : after piece3 V (Proc.devRef .tc main_v20) = V (Proc.devRef .tc main_v20) := by
  after_results_simp <;> rfl
theorem keep4_v20 (V : Valuation τ sig (Elt F)) : after piece4 V (Proc.devRef .tc main_v20) = V (Proc.devRef .tc main_v20) := by
  after_results_simp <;> rfl
theorem keep5_v20 (V : Valuation τ sig (Elt F)) : after piece5 V (Proc.devRef .tc main_v20) = V (Proc.devRef .tc main_v20) := by
  after_results_simp <;> rfl
theorem keep6_v20 (V : Valuation τ sig (Elt F)) : after piece6 V (Proc.devRef .tc main_v20) = V (Proc.devRef .tc main_v20) := by
  after_results_simp <;> rfl
theorem keep5_v79 (V : Valuation τ sig (Elt F)) : after piece5 V (Proc.devRef .tc main_v79) = V (Proc.devRef .tc main_v79) := by
  after_results_simp <;> rfl
theorem keep7_v138 (V : Valuation τ sig (Elt F)) : after piece7 V (Proc.devRef .tc main_v138) = V (Proc.devRef .tc main_v138) := by
  after_results_simp <;> rfl

/-! ### The pieces put together -/

set_option maxRecDepth 8192 in
/-- The 249 operations are the nine pieces, in order. -/
theorem ops_eq : (ops : List (HloOp τ sig (Elt F))) = piece1 ++ (piece2 ++ (piece3 ++ (piece4 ++ (piece5 ++ (piece6 ++ (piece7 ++ (piece8 ++ (piece9)))))))) := rfl

/-- Running all the operations is running the nine pieces one after the other. -/
theorem after_ops (W : Valuation τ sig (Elt F)) : after ops W = after piece9 (after piece8 (after piece7 (after piece6 (after piece5 (after piece4 (after piece3 (after piece2 (after piece1 W)))))))) := by
  rw [ops_eq]
  simp only [after_append]

/-- A buffer every piece keeps is kept by the whole line. -/
theorem kept_of_pieces (r : Ref sig .tc)
    (h1 : ∀ V : Valuation τ sig (Elt F), after piece1 V (Proc.devRef .tc r) = V (Proc.devRef .tc r))
    (h2 : ∀ V : Valuation τ sig (Elt F), after piece2 V (Proc.devRef .tc r) = V (Proc.devRef .tc r))
    (h3 : ∀ V : Valuation τ sig (Elt F), after piece3 V (Proc.devRef .tc r) = V (Proc.devRef .tc r))
    (h4 : ∀ V : Valuation τ sig (Elt F), after piece4 V (Proc.devRef .tc r) = V (Proc.devRef .tc r))
    (h5 : ∀ V : Valuation τ sig (Elt F), after piece5 V (Proc.devRef .tc r) = V (Proc.devRef .tc r))
    (h6 : ∀ V : Valuation τ sig (Elt F), after piece6 V (Proc.devRef .tc r) = V (Proc.devRef .tc r))
    (h7 : ∀ V : Valuation τ sig (Elt F), after piece7 V (Proc.devRef .tc r) = V (Proc.devRef .tc r))
    (h8 : ∀ V : Valuation τ sig (Elt F), after piece8 V (Proc.devRef .tc r) = V (Proc.devRef .tc r))
    (h9 : ∀ V : Valuation τ sig (Elt F), after piece9 V (Proc.devRef .tc r) = V (Proc.devRef .tc r))
    (W : Valuation τ sig (Elt F)) : after ops W (Proc.devRef .tc r) = W (Proc.devRef .tc r) := by
  rw [after_ops, h9, h8, h7, h6, h5, h4, h3, h2, h1]

/-- The result buffer after the 249 operations, from any contents `W`: the last stage of the stages' module at
    the arguments' contents. Each piece is read on its own, from what the pieces before it left. -/
theorem result_eq (W : Valuation τ sig (Elt F)) :
    after ops W (Proc.devRef .tc main_v206) = Cert.ReferenceIdeal.Stages.val_main_v206 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [after_ops]
  have k1_v8 := read1 W
  have k2_v8 := (keep2_v8 (after piece1 W)).trans k1_v8
  have k3_v8 := (keep3_v8 (after piece2 (after piece1 W))).trans k2_v8
  have k1_arg15 : (after piece1 W) (Proc.devRef .tc main_arg15) = W (Proc.devRef .tc main_arg15) := keep1_arg15 W
  have k2_arg15 := (keep2_arg15 (after piece1 W)).trans k1_arg15
  have k1_arg16 : (after piece1 W) (Proc.devRef .tc main_arg16) = W (Proc.devRef .tc main_arg16) := keep1_arg16 W
  have k2_arg16 := (keep2_arg16 (after piece1 W)).trans k1_arg16
  have k2_v20 := read2 W (after piece1 W) k1_arg16
  have k3_v32 := read3 W (after piece2 (after piece1 W)) k2_arg15 k2_v8 k2_arg16 k2_v20
  have k1_arg5 : (after piece1 W) (Proc.devRef .tc main_arg5) = W (Proc.devRef .tc main_arg5) := keep1_arg5 W
  have k2_arg5 := (keep2_arg5 (after piece1 W)).trans k1_arg5
  have k3_arg5 := (keep3_arg5 (after piece2 (after piece1 W))).trans k2_arg5
  have k1_arg6 : (after piece1 W) (Proc.devRef .tc main_arg6) = W (Proc.devRef .tc main_arg6) := keep1_arg6 W
  have k2_arg6 := (keep2_arg6 (after piece1 W)).trans k1_arg6
  have k3_arg6 := (keep3_arg6 (after piece2 (after piece1 W))).trans k2_arg6
  have k1_arg7 : (after piece1 W) (Proc.devRef .tc main_arg7) = W (Proc.devRef .tc main_arg7) := keep1_arg7 W
  have k2_arg7 := (keep2_arg7 (after piece1 W)).trans k1_arg7
  have k3_arg7 := (keep3_arg7 (after piece2 (after piece1 W))).trans k2_arg7
  have k1_arg8 : (after piece1 W) (Proc.devRef .tc main_arg8) = W (Proc.devRef .tc main_arg8) := keep1_arg8 W
  have k2_arg8 := (keep2_arg8 (after piece1 W)).trans k1_arg8
  have k3_arg8 := (keep3_arg8 (after piece2 (after piece1 W))).trans k2_arg8
  have k1_arg9 : (after piece1 W) (Proc.devRef .tc main_arg9) = W (Proc.devRef .tc main_arg9) := keep1_arg9 W
  have k2_arg9 := (keep2_arg9 (after piece1 W)).trans k1_arg9
  have k3_arg9 := (keep3_arg9 (after piece2 (after piece1 W))).trans k2_arg9
  have k1_arg10 : (after piece1 W) (Proc.devRef .tc main_arg10) = W (Proc.devRef .tc main_arg10) := keep1_arg10 W
  have k2_arg10 := (keep2_arg10 (after piece1 W)).trans k1_arg10
  have k3_arg10 := (keep3_arg10 (after piece2 (after piece1 W))).trans k2_arg10
  have k4_v79 := read4 W (after piece3 (after piece2 (after piece1 W))) k3_v8 k3_v32 k3_arg5 k3_arg6 k3_arg7 k3_arg8 k3_arg9 k3_arg10
  have k5_v79 := (keep5_v79 (after piece4 (after piece3 (after piece2 (after piece1 W))))).trans k4_v79
  have k3_arg15 := (keep3_arg15 (after piece2 (after piece1 W))).trans k2_arg15
  have k4_arg15 := (keep4_arg15 (after piece3 (after piece2 (after piece1 W)))).trans k3_arg15
  have k3_arg16 := (keep3_arg16 (after piece2 (after piece1 W))).trans k2_arg16
  have k4_arg16 := (keep4_arg16 (after piece3 (after piece2 (after piece1 W)))).trans k3_arg16
  have k3_v20 := (keep3_v20 (after piece2 (after piece1 W))).trans k2_v20
  have k4_v20 := (keep4_v20 (after piece3 (after piece2 (after piece1 W)))).trans k3_v20
  have k5_v91 := read5 W (after piece4 (after piece3 (after piece2 (after piece1 W)))) k4_arg15 k4_v79 k4_arg16 k4_v20
  have k4_arg5 := (keep4_arg5 (after piece3 (after piece2 (after piece1 W)))).trans k3_arg5
  have k5_arg5 := (keep5_arg5 (after piece4 (after piece3 (after piece2 (after piece1 W))))).trans k4_arg5
  have k4_arg6 := (keep4_arg6 (after piece3 (after piece2 (after piece1 W)))).trans k3_arg6
  have k5_arg6 := (keep5_arg6 (after piece4 (after piece3 (after piece2 (after piece1 W))))).trans k4_arg6
  have k4_arg7 := (keep4_arg7 (after piece3 (after piece2 (after piece1 W)))).trans k3_arg7
  have k5_arg7 := (keep5_arg7 (after piece4 (after piece3 (after piece2 (after piece1 W))))).trans k4_arg7
  have k4_arg8 := (keep4_arg8 (after piece3 (after piece2 (after piece1 W)))).trans k3_arg8
  have k5_arg8 := (keep5_arg8 (after piece4 (after piece3 (after piece2 (after piece1 W))))).trans k4_arg8
  have k4_arg9 := (keep4_arg9 (after piece3 (after piece2 (after piece1 W)))).trans k3_arg9
  have k5_arg9 := (keep5_arg9 (after piece4 (after piece3 (after piece2 (after piece1 W))))).trans k4_arg9
  have k4_arg10 := (keep4_arg10 (after piece3 (after piece2 (after piece1 W)))).trans k3_arg10
  have k5_arg10 := (keep5_arg10 (after piece4 (after piece3 (after piece2 (after piece1 W))))).trans k4_arg10
  have k6_v138 := read6 W (after piece5 (after piece4 (after piece3 (after piece2 (after piece1 W))))) k5_v79 k5_v91 k5_arg5 k5_arg6 k5_arg7 k5_arg8 k5_arg9 k5_arg10
  have k7_v138 := (keep7_v138 (after piece6 (after piece5 (after piece4 (after piece3 (after piece2 (after piece1 W))))))).trans k6_v138
  have k5_arg15 := (keep5_arg15 (after piece4 (after piece3 (after piece2 (after piece1 W))))).trans k4_arg15
  have k6_arg15 := (keep6_arg15 (after piece5 (after piece4 (after piece3 (after piece2 (after piece1 W)))))).trans k5_arg15
  have k5_arg16 := (keep5_arg16 (after piece4 (after piece3 (after piece2 (after piece1 W))))).trans k4_arg16
  have k6_arg16 := (keep6_arg16 (after piece5 (after piece4 (after piece3 (after piece2 (after piece1 W)))))).trans k5_arg16
  have k5_v20 := (keep5_v20 (after piece4 (after piece3 (after piece2 (after piece1 W))))).trans k4_v20
  have k6_v20 := (keep6_v20 (after piece5 (after piece4 (after piece3 (after piece2 (after piece1 W)))))).trans k5_v20
  have k7_v150 := read7 W (after piece6 (after piece5 (after piece4 (after piece3 (after piece2 (after piece1 W)))))) k6_arg15 k6_v138 k6_arg16 k6_v20
  have k6_arg5 := (keep6_arg5 (after piece5 (after piece4 (after piece3 (after piece2 (after piece1 W)))))).trans k5_arg5
  have k7_arg5 := (keep7_arg5 (after piece6 (after piece5 (after piece4 (after piece3 (after piece2 (after piece1 W))))))).trans k6_arg5
  have k6_arg6 := (keep6_arg6 (after piece5 (after piece4 (after piece3 (after piece2 (after piece1 W)))))).trans k5_arg6
  have k7_arg6 := (keep7_arg6 (after piece6 (after piece5 (after piece4 (after piece3 (after piece2 (after piece1 W))))))).trans k6_arg6
  have k6_arg7 := (keep6_arg7 (after piece5 (after piece4 (after piece3 (after piece2 (after piece1 W)))))).trans k5_arg7
  have k7_arg7 := (keep7_arg7 (after piece6 (after piece5 (after piece4 (after piece3 (after piece2 (after piece1 W))))))).trans k6_arg7
  have k6_arg8 := (keep6_arg8 (after piece5 (after piece4 (after piece3 (after piece2 (after piece1 W)))))).trans k5_arg8
  have k7_arg8 := (keep7_arg8 (after piece6 (after piece5 (after piece4 (after piece3 (after piece2 (after piece1 W))))))).trans k6_arg8
  have k6_arg9 := (keep6_arg9 (after piece5 (after piece4 (after piece3 (after piece2 (after piece1 W)))))).trans k5_arg9
  have k7_arg9 := (keep7_arg9 (after piece6 (after piece5 (after piece4 (after piece3 (after piece2 (after piece1 W))))))).trans k6_arg9
  have k6_arg10 := (keep6_arg10 (after piece5 (after piece4 (after piece3 (after piece2 (after piece1 W)))))).trans k5_arg10
  have k7_arg10 := (keep7_arg10 (after piece6 (after piece5 (after piece4 (after piece3 (after piece2 (after piece1 W))))))).trans k6_arg10
  have k8_v197 := read8 W (after piece7 (after piece6 (after piece5 (after piece4 (after piece3 (after piece2 (after piece1 W))))))) k7_v138 k7_v150 k7_arg5 k7_arg6 k7_arg7 k7_arg8 k7_arg9 k7_arg10
  have k1_arg11 : (after piece1 W) (Proc.devRef .tc main_arg11) = W (Proc.devRef .tc main_arg11) := keep1_arg11 W
  have k2_arg11 := (keep2_arg11 (after piece1 W)).trans k1_arg11
  have k3_arg11 := (keep3_arg11 (after piece2 (after piece1 W))).trans k2_arg11
  have k4_arg11 := (keep4_arg11 (after piece3 (after piece2 (after piece1 W)))).trans k3_arg11
  have k5_arg11 := (keep5_arg11 (after piece4 (after piece3 (after piece2 (after piece1 W))))).trans k4_arg11
  have k6_arg11 := (keep6_arg11 (after piece5 (after piece4 (after piece3 (after piece2 (after piece1 W)))))).trans k5_arg11
  have k7_arg11 := (keep7_arg11 (after piece6 (after piece5 (after piece4 (after piece3 (after piece2 (after piece1 W))))))).trans k6_arg11
  have k8_arg11 := (keep8_arg11 (after piece7 (after piece6 (after piece5 (after piece4 (after piece3 (after piece2 (after piece1 W)))))))).trans k7_arg11
  have k1_arg12 : (after piece1 W) (Proc.devRef .tc main_arg12) = W (Proc.devRef .tc main_arg12) := keep1_arg12 W
  have k2_arg12 := (keep2_arg12 (after piece1 W)).trans k1_arg12
  have k3_arg12 := (keep3_arg12 (after piece2 (after piece1 W))).trans k2_arg12
  have k4_arg12 := (keep4_arg12 (after piece3 (after piece2 (after piece1 W)))).trans k3_arg12
  have k5_arg12 := (keep5_arg12 (after piece4 (after piece3 (after piece2 (after piece1 W))))).trans k4_arg12
  have k6_arg12 := (keep6_arg12 (after piece5 (after piece4 (after piece3 (after piece2 (after piece1 W)))))).trans k5_arg12
  have k7_arg12 := (keep7_arg12 (after piece6 (after piece5 (after piece4 (after piece3 (after piece2 (after piece1 W))))))).trans k6_arg12
  have k8_arg12 := (keep8_arg12 (after piece7 (after piece6 (after piece5 (after piece4 (after piece3 (after piece2 (after piece1 W)))))))).trans k7_arg12
  have k1_arg13 : (after piece1 W) (Proc.devRef .tc main_arg13) = W (Proc.devRef .tc main_arg13) := keep1_arg13 W
  have k2_arg13 := (keep2_arg13 (after piece1 W)).trans k1_arg13
  have k3_arg13 := (keep3_arg13 (after piece2 (after piece1 W))).trans k2_arg13
  have k4_arg13 := (keep4_arg13 (after piece3 (after piece2 (after piece1 W)))).trans k3_arg13
  have k5_arg13 := (keep5_arg13 (after piece4 (after piece3 (after piece2 (after piece1 W))))).trans k4_arg13
  have k6_arg13 := (keep6_arg13 (after piece5 (after piece4 (after piece3 (after piece2 (after piece1 W)))))).trans k5_arg13
  have k7_arg13 := (keep7_arg13 (after piece6 (after piece5 (after piece4 (after piece3 (after piece2 (after piece1 W))))))).trans k6_arg13
  have k8_arg13 := (keep8_arg13 (after piece7 (after piece6 (after piece5 (after piece4 (after piece3 (after piece2 (after piece1 W)))))))).trans k7_arg13
  have k1_arg14 : (after piece1 W) (Proc.devRef .tc main_arg14) = W (Proc.devRef .tc main_arg14) := keep1_arg14 W
  have k2_arg14 := (keep2_arg14 (after piece1 W)).trans k1_arg14
  have k3_arg14 := (keep3_arg14 (after piece2 (after piece1 W))).trans k2_arg14
  have k4_arg14 := (keep4_arg14 (after piece3 (after piece2 (after piece1 W)))).trans k3_arg14
  have k5_arg14 := (keep5_arg14 (after piece4 (after piece3 (after piece2 (after piece1 W))))).trans k4_arg14
  have k6_arg14 := (keep6_arg14 (after piece5 (after piece4 (after piece3 (after piece2 (after piece1 W)))))).trans k5_arg14
  have k7_arg14 := (keep7_arg14 (after piece6 (after piece5 (after piece4 (after piece3 (after piece2 (after piece1 W))))))).trans k6_arg14
  have k8_arg14 := (keep8_arg14 (after piece7 (after piece6 (after piece5 (after piece4 (after piece3 (after piece2 (after piece1 W)))))))).trans k7_arg14
  exact read9 W (after piece8 (after piece7 (after piece6 (after piece5 (after piece4 (after piece3 (after piece2 (after piece1 W)))))))) k8_v197 k8_arg11 k8_arg12 k8_arg13 k8_arg14

/-! ### The arguments are kept -/

theorem arg0_kept (W : Valuation τ sig (Elt F)) : after ops W (Proc.devRef .tc main_arg0) = W (Proc.devRef .tc main_arg0) :=
  kept_of_pieces main_arg0 keep1_arg0 keep2_arg0 keep3_arg0 keep4_arg0 keep5_arg0 keep6_arg0 keep7_arg0 keep8_arg0 keep9_arg0 W
theorem arg1_kept (W : Valuation τ sig (Elt F)) : after ops W (Proc.devRef .tc main_arg1) = W (Proc.devRef .tc main_arg1) :=
  kept_of_pieces main_arg1 keep1_arg1 keep2_arg1 keep3_arg1 keep4_arg1 keep5_arg1 keep6_arg1 keep7_arg1 keep8_arg1 keep9_arg1 W
theorem arg2_kept (W : Valuation τ sig (Elt F)) : after ops W (Proc.devRef .tc main_arg2) = W (Proc.devRef .tc main_arg2) :=
  kept_of_pieces main_arg2 keep1_arg2 keep2_arg2 keep3_arg2 keep4_arg2 keep5_arg2 keep6_arg2 keep7_arg2 keep8_arg2 keep9_arg2 W
theorem arg3_kept (W : Valuation τ sig (Elt F)) : after ops W (Proc.devRef .tc main_arg3) = W (Proc.devRef .tc main_arg3) :=
  kept_of_pieces main_arg3 keep1_arg3 keep2_arg3 keep3_arg3 keep4_arg3 keep5_arg3 keep6_arg3 keep7_arg3 keep8_arg3 keep9_arg3 W
theorem arg4_kept (W : Valuation τ sig (Elt F)) : after ops W (Proc.devRef .tc main_arg4) = W (Proc.devRef .tc main_arg4) :=
  kept_of_pieces main_arg4 keep1_arg4 keep2_arg4 keep3_arg4 keep4_arg4 keep5_arg4 keep6_arg4 keep7_arg4 keep8_arg4 keep9_arg4 W
theorem arg5_kept (W : Valuation τ sig (Elt F)) : after ops W (Proc.devRef .tc main_arg5) = W (Proc.devRef .tc main_arg5) :=
  kept_of_pieces main_arg5 keep1_arg5 keep2_arg5 keep3_arg5 keep4_arg5 keep5_arg5 keep6_arg5 keep7_arg5 keep8_arg5 keep9_arg5 W
theorem arg6_kept (W : Valuation τ sig (Elt F)) : after ops W (Proc.devRef .tc main_arg6) = W (Proc.devRef .tc main_arg6) :=
  kept_of_pieces main_arg6 keep1_arg6 keep2_arg6 keep3_arg6 keep4_arg6 keep5_arg6 keep6_arg6 keep7_arg6 keep8_arg6 keep9_arg6 W
theorem arg7_kept (W : Valuation τ sig (Elt F)) : after ops W (Proc.devRef .tc main_arg7) = W (Proc.devRef .tc main_arg7) :=
  kept_of_pieces main_arg7 keep1_arg7 keep2_arg7 keep3_arg7 keep4_arg7 keep5_arg7 keep6_arg7 keep7_arg7 keep8_arg7 keep9_arg7 W
theorem arg8_kept (W : Valuation τ sig (Elt F)) : after ops W (Proc.devRef .tc main_arg8) = W (Proc.devRef .tc main_arg8) :=
  kept_of_pieces main_arg8 keep1_arg8 keep2_arg8 keep3_arg8 keep4_arg8 keep5_arg8 keep6_arg8 keep7_arg8 keep8_arg8 keep9_arg8 W
theorem arg9_kept (W : Valuation τ sig (Elt F)) : after ops W (Proc.devRef .tc main_arg9) = W (Proc.devRef .tc main_arg9) :=
  kept_of_pieces main_arg9 keep1_arg9 keep2_arg9 keep3_arg9 keep4_arg9 keep5_arg9 keep6_arg9 keep7_arg9 keep8_arg9 keep9_arg9 W
theorem arg10_kept (W : Valuation τ sig (Elt F)) : after ops W (Proc.devRef .tc main_arg10) = W (Proc.devRef .tc main_arg10) :=
  kept_of_pieces main_arg10 keep1_arg10 keep2_arg10 keep3_arg10 keep4_arg10 keep5_arg10 keep6_arg10 keep7_arg10 keep8_arg10 keep9_arg10 W
theorem arg11_kept (W : Valuation τ sig (Elt F)) : after ops W (Proc.devRef .tc main_arg11) = W (Proc.devRef .tc main_arg11) :=
  kept_of_pieces main_arg11 keep1_arg11 keep2_arg11 keep3_arg11 keep4_arg11 keep5_arg11 keep6_arg11 keep7_arg11 keep8_arg11 keep9_arg11 W
theorem arg12_kept (W : Valuation τ sig (Elt F)) : after ops W (Proc.devRef .tc main_arg12) = W (Proc.devRef .tc main_arg12) :=
  kept_of_pieces main_arg12 keep1_arg12 keep2_arg12 keep3_arg12 keep4_arg12 keep5_arg12 keep6_arg12 keep7_arg12 keep8_arg12 keep9_arg12 W
theorem arg13_kept (W : Valuation τ sig (Elt F)) : after ops W (Proc.devRef .tc main_arg13) = W (Proc.devRef .tc main_arg13) :=
  kept_of_pieces main_arg13 keep1_arg13 keep2_arg13 keep3_arg13 keep4_arg13 keep5_arg13 keep6_arg13 keep7_arg13 keep8_arg13 keep9_arg13 W
theorem arg14_kept (W : Valuation τ sig (Elt F)) : after ops W (Proc.devRef .tc main_arg14) = W (Proc.devRef .tc main_arg14) :=
  kept_of_pieces main_arg14 keep1_arg14 keep2_arg14 keep3_arg14 keep4_arg14 keep5_arg14 keep6_arg14 keep7_arg14 keep8_arg14 keep9_arg14 W
theorem arg15_kept (W : Valuation τ sig (Elt F)) : after ops W (Proc.devRef .tc main_arg15) = W (Proc.devRef .tc main_arg15) :=
  kept_of_pieces main_arg15 keep1_arg15 keep2_arg15 keep3_arg15 keep4_arg15 keep5_arg15 keep6_arg15 keep7_arg15 keep8_arg15 keep9_arg15 W
theorem arg16_kept (W : Valuation τ sig (Elt F)) : after ops W (Proc.devRef .tc main_arg16) = W (Proc.devRef .tc main_arg16) :=
  kept_of_pieces main_arg16 keep1_arg16 keep2_arg16 keep3_arg16 keep4_arg16 keep5_arg16 keep6_arg16 keep7_arg16 keep8_arg16 keep9_arg16 W

/-- On every device, for any float values, from any memory with zero counters: every weakly fair execution of
    @main terminates with the result at the last stage's function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206) = Cert.ReferenceIdeal.Stages.val_main_v206 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v206).trans (result_eq (launchContents m c)),
      (h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c)),
      (h c main_arg6).trans (arg6_kept (launchContents m c)),
      (h c main_arg7).trans (arg7_kept (launchContents m c)),
      (h c main_arg8).trans (arg8_kept (launchContents m c)),
      (h c main_arg9).trans (arg9_kept (launchContents m c)),
      (h c main_arg10).trans (arg10_kept (launchContents m c)),
      (h c main_arg11).trans (arg11_kept (launchContents m c)),
      (h c main_arg12).trans (arg12_kept (launchContents m c)),
      (h c main_arg13).trans (arg13_kept (launchContents m c)),
      (h c main_arg14).trans (arg14_kept (launchContents m c)),
      (h c main_arg15).trans (arg15_kept (launchContents m c)),
      (h c main_arg16).trans (arg16_kept (launchContents m c))⟩)
    (run_after m ρ)

end Cert.ReferenceIdeal.RunP

end
-- ==== Proof.lean ====
/-
  The certificate: a line-graph message-passing network — an edge projection, three updates (gather the neighbours'
  rows, sum them per destination, scale by the reciprocal in-degree, a two-layer network on the row and its mean
  message, a residual sum, a layer normalisation) and an output head — computed by four row-tiled Pallas launches
  with the gathers and scatter-adds on the host between them, against the plain jnp reference.

  On the extended reals the two programs apply the same operations to every row: a change of float format is the
  identity, the launches' tiling into blocks of 4000 rows does not show in the result, and the kernel's split of the
  first dense layer into two half contractions is a regrouping of one sum. The one difference is that the kernel adds
  the table's length to a negative destination index before it scatters, where the reference's segment sum hands the
  index on unchanged (and the scatter then drops it). The precondition says that no destination index is negative,
  so there the two scatter by the same indices, and every result element is equal.

  * The three frames: the two kernels' are the generated frame certificates; the reference's is its run with the
    result dropped.
  * `preserves`: the idealization rewrote nothing, so the claim is `True`.
  * `algebraic`: both runs end with the result at the reference's last stage, as a function of the seventeen
    arguments — the reference by reading its operations back in order, the kernel by the chain launch by launch —
    and the arguments agree.
-/
import proofs.«422472_j45698452030097_3_alg».proof.Defs
import proofs.«422472_j45698452030097_3_alg».proof.Proof.Gen.Kernel
import proofs.«422472_j45698452030097_3_alg».proof.Proof.Gen.Kernel.Frame
import proofs.«422472_j45698452030097_3_alg».proof.Proof.Gen.KernelIdeal
import proofs.«422472_j45698452030097_3_alg».proof.Proof.Gen.KernelIdeal.Frame
import proofs.«422472_j45698452030097_3_alg».proof.Proof.Gen.ReferenceIdeal
import proofs.«422472_j45698452030097_3_alg».proof.Proof.Gen.Pre_finite_inputs
import proofs.«422472_j45698452030097_3_alg».proof.Proof.KRun
import proofs.«422472_j45698452030097_3_alg».proof.Proof.KValue
import proofs.«422472_j45698452030097_3_alg».proof.Proof.RefResult
import proofs.«422472_j45698452030097_3_alg».proof.Proof.PreIndex
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the result at the reference's last stage of the arguments: the kernel by the chain through
    its four launches (no destination index is negative, by the precondition), the reference by its run; the
    arguments agree. -/
theorem algebraic : Cert.algebraic_KernelIdeal_ReferenceIdeal := by
  intro m ρ m' ρ' hpre hagree
  have hdst : ∀ (c : Dev Cert.KernelIdeal.nD) j, IntOp.cmpi .sge ((m ((c.tc : Thread Cert.KernelIdeal.nD Cert.KernelIdeal.τ).loc Cert.KernelIdeal.main_arg16)) j) 0#32 = 1#1 := fun c j =>
    Cert.Pre_finite_inputs.Decode.dst_nonneg (F := Ideal) _ _ _ _ _ _ _ _ _ _ _ _ _ _ _ _ _ (hpre c) j
  refine ⟨fun c => Cert.ReferenceIdeal.Stages.val_main_v206 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Net.result_eq m ρ c (hdst c)), (h c).2⟩)
      (Cert.KernelIdeal.ValueRun.run_result m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
